-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000

variable [Facts]

def fn_part1 {F : FTy → Type} [FloatOps F] (main_arg1 : IVec S2x800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S1x800000 32 := (extractStridedSlice S1x800000 ![0, 0] · slices_S2x800000_S1x800000_0_0) main_arg1
  let main_v20 : IVec S800000 32 := shapeCast S800000 main_v19 shapeCasts_S1x800000_S800000
  let main_c_6 : IVec S_ 32 := constantI S_ 32 0#32
  let main_v21 : IVec S800000 32 := broadcastInDim S800000 ![] bcast_S_S800000 main_c_6
  let main_v22 : IVec S800000 1 := cmpi .sge main_v20 main_v21
  let main_v23 : IVec S1x800000 32 := (extractStridedSlice S1x800000 ![0, 0] · slices_S2x800000_S1x800000_0_0) main_arg1
  let main_v24 : IVec S800000 32 := shapeCast S800000 main_v23 shapeCasts_S1x800000_S800000
  let main_c_7 : IVec S_ 32 := constantI S_ 32 50000#32
  let main_v25 : IVec S800000 32 := broadcastInDim S800000 ![] bcast_S_S800000 main_c_7
  let main_v26 : IVec S800000 1 := cmpi .slt main_v24 main_v25
  let main_v27 : IVec S800000 1 := andi main_v22 main_v26
  let main_c_8 : IVec S_ 1 := constantI S_ 1 1#1
  let main_v28 : IVec S_ 1 := (fun x v => Host.reduce IntOp.andi x v reducesTo_S800000_S_d0 h_S_) main_v27 main_c_8
  let main_v29 : IVec S_ 1 := andi main_v18 main_v28
  main_v29

def fn {F : FTy → Type} [FloatOps F] (main_arg0 : FVec F S50000x128 .f32) (main_arg1 : IVec S2x800000 32) (main_arg2 : FVec F S800000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S944 : Shape := ⟨1, ![944]⟩
abbrev S850944 : Shape := ⟨1, ![850944]⟩
abbrev S51200x128 : Shape := ⟨2, ![51200, 128]⟩
abbrev S5120x128 : Shape := ⟨2, ![5120, 128]⟩
abbrev S850944x128 : Shape := ⟨2, ![850944, 128]⟩
abbrev S1024 : Shape := ⟨1, ![1024]⟩
abbrev S2560x128 : Shape := ⟨2, ![2560, 128]⟩
abbrev S1024x128 : Shape := ⟨2, ![1024, 128]⟩
abbrev S1024x2560 : Shape := ⟨2, ![1024, 2560]⟩
abbrev S1024x1 : Shape := ⟨2, ![1024, 1]⟩
abbrev S1x128 : Shape := ⟨2, ![1, 128]⟩
abbrev S2000x128 : Shape := ⟨2, ![2000, 128]⟩
abbrev S2000x1024 : Shape := ⟨2, ![2000, 1024]⟩
abbrev S1x1024 : Shape := ⟨2, ![1, 1024]⟩

abbrev nBuf : Space → Nat
  | .hbm => 63
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S944, .i32⟩
  | .hbm, ⟨49, _⟩ => ⟨S850944, .i32⟩
  | .hbm, ⟨50, _⟩ => ⟨S_, .i32⟩
  | .hbm, ⟨51, _⟩ => ⟨S944, .i32⟩
  | .hbm, ⟨52, _⟩ => ⟨S850944, .i32⟩
  | .hbm, ⟨53, _⟩ => ⟨S_, .f32⟩
  | .hbm, ⟨54, _⟩ => ⟨S944, .f32⟩
  | .hbm, ⟨55, _⟩ => ⟨S850944, .f32⟩
  | .hbm, ⟨56, _⟩ => ⟨S_, .i32⟩
  | .hbm, ⟨57, _⟩ => ⟨S_, .f32⟩
  | .hbm, ⟨58, _⟩ => ⟨S51200x128, .f32⟩
  | .hbm, ⟨59, _⟩ => ⟨S51200x128, .bf16⟩
  | .hbm, ⟨60, _⟩ => ⟨S850944x128, .bf16⟩
  | .hbm, ⟨61, _⟩ => ⟨S1x128, .f32⟩
  | .hbm, ⟨62, _⟩ => ⟨S50000x128, .f32⟩
  | .local _ .vmem, ⟨0, _⟩ => ⟨S5120x128, .f32⟩
  | .local _ .vmem, ⟨1, _⟩ => ⟨S5120x128, .f32⟩
  | .local _ .vmem, ⟨2, _⟩ => ⟨S128x128, .f32⟩
  | .local _ .vmem, ⟨3, _⟩ => ⟨S5120x128, .bf16⟩
  | .local _ .vmem, ⟨4, _⟩ => ⟨S5120x128, .bf16⟩
  | .local _ .vmem, ⟨5, _⟩ => ⟨S1024, .i32⟩
  | .local _ .vmem, ⟨6, _⟩ => ⟨S1024, .i32⟩
  | .local _ .vmem, ⟨7, _⟩ => ⟨S1024, .f32⟩
  | .local _ .vmem, ⟨8, _⟩ => ⟨S1024, .f32⟩
  | .local _ .vmem, ⟨9, _⟩ => ⟨S2560x128, .bf16⟩
  | .local _ .vmem, ⟨10, _⟩ => ⟨S2560x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .f32⟩
  | .local _ .vmem, ⟨14, _⟩ => ⟨S1024x128, .bf16⟩
  | .local _ .vmem, ⟨15, _⟩ => ⟨S1024x128, .bf16⟩
  | .local _ .vmem, ⟨16, _⟩ => ⟨S1024, .i32⟩
  | .local _ .vmem, ⟨17, _⟩ => ⟨S1024, .i32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![831, 20], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2560x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![25, 831], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S_S944 : S_.BroadcastsInDim S944 (![] : Fin 0 → Fin S944.rank)
  concatenates_S850000_S944_S850944_d0 : Shape.Concatenates [S850000, S944] S850944 0
  pads_S50000x128_S51200x128_012000_000 : S50000x128.Pads (![0, 0] : Fin 2 → Nat) ![1200, 0] ![0, 0] S51200x128
  h_S_ : 0 < S_.numel
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5120x128_S5120x128_0_0 : (Rect.unit (s := S5120x128) ![0, 0] S5120x128.size inb_S5120x128_S5120x128_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x2560_d1_w32 : S1024x2560.Iotas .tc 32 [1]
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  broadcasts_S1024x1_S1024x2560 : S1024x1.Broadcasts S1024x2560
  natLt_1_32 : 1 < 32
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  broadcasts_S1024x1_S1024x128 : S1024x1.Broadcasts S1024x128
  packedbf16_S1024x128_S1024x128_0_0 : (Rect.unit (s := S1024x128) ![0, 0] S1024x128.size inb_S1024x128_S1024x128_0_0).PackedRows (EltTy.packing .bf16)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  iota_S2000x1024_d0_w32 : S2000x1024.Iotas .tc 32 [0]
  shapeCasts_S1024_S1x1024 : S1024.ShapeCasts S1x1024
  broadcasts_S1x1024_S2000x1024 : S1x1024.Broadcasts S2000x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5120x128_S128x128_S5120x128_1_0_0_1_n_n_wf : DotDims.WF S5120x128 S128x128 S5120x128 [1] [0] [0] [1] [] []
  dot_S1024x2560_S2560x128_S1024x128_1_0_0_1_n_n_wf : DotDims.WF S1024x2560 S2560x128 S1024x128 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S51200x128.size a
  hwx0_0 : ∀ i : grid0.Coords, EltTy.bits .f32 = 32 ∨ (Rect.block (s := S51200x128) S5120x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x128.size a ≤ S51200x128.size a
  hwx0_2 : ∀ i : grid0.Coords, EltTy.bits .bf16 = 32 ∨ (Rect.block (s := S51200x128) S5120x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024.size a ≤ S850944.size a
  hwx1_0 : ∀ i : grid1.Coords, EltTy.bits .i32 = 32 ∨ (Rect.block (s := S850944) S1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S850944.size a
  hwx1_1 : ∀ i : grid1.Coords, EltTy.bits .f32 = 32 ∨ (Rect.block (s := S850944) S1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2560x128.size a ≤ S51200x128.size a
  hwx1_2 : ∀ i : grid1.Coords, EltTy.bits .bf16 = 32 ∨ (Rect.block (s := S51200x128) S2560x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S850944x128.size a
  hwx1_3 : ∀ i : grid1.Coords, EltTy.bits .bf16 = 32 ∨ (Rect.block (s := S850944x128) S1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S850944x128.size a
  hwx2_0 : ∀ i : grid2.Coords, EltTy.bits .bf16 = 32 ∨ (Rect.block (s := S850944x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024.size a ≤ S850944.size a
  hwx2_1 : ∀ i : grid2.Coords, EltTy.bits .i32 = 32 ∨ (Rect.block (s := S850944) S1024.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S1024x2560_S2560x128_S1024x128_1_0_0_1_n_n : DotDims S1024x2560 S2560x128 S1024x128 where
  lhsContracting := [1]
  rhsContracting := [0]
  lhsNonContracting := [0]
  rhsNonContracting := [1]
  lhsBatch := []
  rhsBatch := []
  wf := dot_S1024x2560_S2560x128_S1024x128_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_v38) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5120x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S2560x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S50000x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.K.Matmul.lean ====
import proofs.«125517_j46789373723027_1_alg».proof.Proof.Gen.Kernel.Launch
import proofs.«125517_j46789373723027_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

/-! # The feature launch: ten blocks of 5120 padded node rows, each times the weight matrix

The body loads a block of rows and the whole weight matrix and stores their product; nothing is carried between points. -/

section Region
variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The staging memrefs the body is called with -/

abbrev ms0_0 (t : Fin cfg0.N) : Memref sig .tc .vmem S5120x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x128 .bf16 := win0_2.stage (cfg0.slots t 2)
abbrev hs0_2 (t : Fin cfg0.N) : (ms0_2 t).IsWhole := hstage0_2 ((cfg0.slots t 2).cast nbuf0_2)
/-- The kernel body at point t, on what the pipeline calls it with. -/
abbrev bodyAt0 (t : Fin cfg0.N) : Prog (TpuEff nD τ sig (Elt F) Λ₀ .tc) PUnit :=
  cc0__matmul_kernel (grid0.coords t) (ms0_0 t) (hs0_0 t) (ms0_1 t) (hs0_1 t) (ms0_2 t) (hs0_2 t)

/-! ## The body's run: the pieces the output block ends with are what the run finds -/

/-- One staging buffer of the output window, through which its contents are stated. -/
abbrev VO0 : View sig .tc .vmem S5120x128 .bf16 := (Memref.whole cc0_stg2_0 : Memref sig .tc .vmem S5120x128 .bf16).view

set_option maxHeartbeats 4000000 in
noncomputable def kernelRun0 (c : Dev nD) (i : grid0.Coords) (arg1 : Memref sig .tc .vmem S5120x128 .f32) (harg1 : arg1.IsWhole) (arg2 : Memref sig .tc .vmem S128x128 .f32) (harg2 : arg2.IsWhole) (arg3 : Memref sig .tc .vmem S5120x128 .bf16) (harg3 : arg3.IsWhole)
    (x0 : Vec F S5120x128 .f32) (x1 : Vec F S128x128 .f32) :
    { L2 : List (View.Piece (Elt F) S5120x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__matmul_kernel i arg1 harg1 arg2 harg2 arg3 harg3) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover0_2 (c : Dev nD) (i : grid0.Coords) (arg1 : Memref sig .tc .vmem S5120x128 .f32) (harg1 : arg1.IsWhole) (arg2 : Memref sig .tc .vmem S128x128 .f32) (harg2 : arg2.IsWhole) (arg3 : Memref sig .tc .vmem S5120x128 .bf16) (harg3 : arg3.IsWhole) (x0 : Vec F S5120x128 .f32) (x1 : Vec F S128x128 .f32) (y : S5120x128.Idx) :
    ∃ pc ∈ (kernelRun0 (F := F) c i arg1 harg1 arg2 harg2 arg3 harg3 x0 x1).1, y ∈ pc.1.set :=
  View.cover_of_tiledL (kernelRun0 c i arg1 harg1 arg2 harg2 arg3 harg3 x0 x1).1 S5120x128.size (by sl_kernel_rfl) y

/-- The output block after the body: its pieces read back. -/
def out0_2 (c : Dev nD) (i : grid0.Coords) (arg1 : Memref sig .tc .vmem S5120x128 .f32) (harg1 : arg1.IsWhole) (arg2 : Memref sig .tc .vmem S128x128 .f32) (harg2 : arg2.IsWhole) (arg3 : Memref sig .tc .vmem S5120x128 .bf16) (harg3 : arg3.IsWhole) (x0 : Vec F S5120x128 .f32) (x1 : Vec F S128x128 .f32) : Vec F S5120x128 .bf16 :=
  VO0.read (Elt F) (VO0.writes (Elt F) VO0.junk (kernelRun0 c i arg1 harg1 arg2 harg2 arg3 harg3 x0 x1).1)

section Region
variable (V : (c : Dev nD) → (b : Ref sig .tc) → Buf (Elt F) ((c : Thread nD τ).loc b))

/-- The proof data: arrays as found; inputs' buffers at their blocks, the output's at the product of the point's blocks;
    the class invariant (scoped buffers and generator register untouched); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c (grid0.coords t) (ms0_0 t) (hs0_0 t) (ms0_1 t) (hs0_1 t) (ms0_2 t) (hs0_2 t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold out0_2
  iintro ⟨HΦ, Ho, ⟨%d0, H0⟩, ⟨%d1, H1⟩, ⟨%d2, H2⟩⟩
  iapply ((kernelRun0 c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.Gather.lean ====
import proofs.«125517_j46789373723027_1_alg».proof.Proof.Gen.Kernel.Launch
import proofs.«125517_j46789373723027_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

/-! # The gather launch: messages, one block of 1024 edges at a time, summed over twenty chunks of 2560 nodes

At grid point (i, cc) the body adds to an accumulator (zeroed when cc = 0) the product of the one-hot rows
"source of edge e is node cc * 2560 + k" with chunk cc of the node features, and writes the accumulator times the
edge's norm into the output block i. The accumulator is a scratch buffer carried from one point to the next. -/

/-! ## The branch: "this is the first chunk" -/

/-- The body's test that the chunk coordinate is zero, as printed. -/
abbrev cond1 (i : grid1.Coords) : Prop :=
  (Scalar.cmpi .ne (Scalar.extui (Scalar.cmpi .eq (BitVec.ofNat 32 (i 1).val) 0#32)) 0#32) = 1#1

/-- Over the twenty values of the chunk coordinate the test holds exactly at zero. -/
theorem cond1_iff_zero : ∀ n : Fin 20,
    ((Scalar.cmpi .ne (Scalar.extui (Scalar.cmpi .eq (BitVec.ofNat 32 n.val) 0#32)) 0#32) = 1#1) ↔ n.val = 0 := by
  decide

/-- The chunk coordinate of the t-th point is t mod 20 (the chunk axis is the fast one). -/
theorem coord1_chunk (t : Fin cfg1.N) : ((grid1.coords t) 1).val = t.val % 20 := by
  show t.val / grid1.stride 1 % 20 = t.val % 20
  rw [show grid1.stride 1 = 1 from rfl, Nat.div_one]

/-- The test holds at the points that start a row of chunks. -/
theorem hcond1 (t : Fin cfg1.N) : cond1 (grid1.coords t) ↔ t.val % 20 = 0 := by
  rw [← coord1_chunk t]; exact cond1_iff_zero ((grid1.coords t) 1)

section Region
variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The staging memrefs the body is called with, and the accumulator -/

abbrev ms1_0 (t : Fin cfg1.N) : Memref sig .tc .vmem S1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2560x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x128 .f32 := Memref.whole cc1_scratch0
abbrev VS1 : View sig .tc .vmem S1024x128 .f32 := scM1.view
/-- One staging buffer of the output window, through which its contents are stated. -/
abbrev VO1 : View sig .tc .vmem S1024x128 .bf16 := (Memref.whole cc1_stg3_0 : Memref sig .tc .vmem S1024x128 .bf16).view

/-- The kernel body at point t, on what the pipeline calls it with. -/
abbrev bodyAt1 (t : Fin cfg1.N) : Prog (TpuEff nD τ sig (Elt F) Λ₀ .tc) PUnit :=
  cc1__gather_scale_kernel (grid1.coords t) (ms1_0 t) (hs1_0 t) (ms1_1 t) (hs1_1 t) (ms1_2 t) (hs1_2 t) (ms1_3 t) (hs1_3 t) scM1 (Memref.isWhole_whole _)

/-! ## The body's run, per case: the pieces each buffer ends with are what the run finds -/

set_option maxHeartbeats 4000000 in
/-- First chunk: the accumulator may hold anything; it is zeroed, then updated. -/
noncomputable def kernelRun1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i)
    (x0 : Vec F S1024 .i32) (x1 : Vec F S1024 .f32) (x2 : Vec F S2560x128 .bf16) :
    Σ' (L3 : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_scale_kernel i arg2 harg2 arg3 harg3 arg4 harg4 arg5 harg5 arg6 harg6) K } := by
  refine ⟨?_, ?_, fun E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

set_option maxHeartbeats 4000000 in
/-- A later chunk: the accumulator holds what the chunk before left. -/
noncomputable def kernelRun1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i)
    (x0 : Vec F S1024 .i32) (x1 : Vec F S1024 .f32) (x2 : Vec F S2560x128 .bf16) (xs : Vec F S1024x128 .f32) :
    Σ' (L3 : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_scale_kernel i arg2 harg2 arg3 harg3 arg4 harg4 arg5 harg5 arg6 harg6) K } := by
  refine ⟨?_, ?_, fun E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## What each case leaves in the output block and in the accumulator -/

theorem cover1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) (y : S1024x128.Idx) :
    ∃ pc ∈ (kernelRun1_A (F := F) c i arg2 harg2 arg3 harg3 arg4 harg4 arg5 harg5 arg6 harg6 hc x0 x1 x2).1, y ∈ pc.1.set :=
  View.cover_of_tiledL (kernelRun1_A c i arg2 harg2 arg3 harg3 arg4 harg4 arg5 harg5 arg6 harg6 hc x0 x1 x2).1 S1024x128.size (by sl_kernel_rfl) y
theorem scover1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) (y : S1024x128.Idx) :
    ∃ pc ∈ (kernelRun1_A (F := F) c i arg2 harg2 arg3 harg3 arg4 harg4 arg5 harg5 arg6 harg6 hc x0 x1 x2).2.1, y ∈ pc.1.set :=
  View.cover_of_tiledL (kernelRun1_A c i arg2 harg2 arg3 harg3 arg4 harg4 arg5 harg5 arg6 harg6 hc x0 x1 x2).2.1 S1024x128.size (by sl_kernel_rfl) y
/-- The output block after a first chunk: its pieces read back. -/
def out1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) : Vec F S1024x128 .bf16 :=
  VO1.read (Elt F) (VO1.writes (Elt F) VO1.junk (kernelRun1_A c i arg2 harg2 arg3 harg3 arg4 harg4 arg5 harg5 arg6 harg6 hc x0 x1 x2).1)
/-- The accumulator after a first chunk. -/
def sout1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) : Vec F S1024x128 .f32 :=
  VS1.read (Elt F) (VS1.writes (Elt F) VS1.junk (kernelRun1_A c i arg2 harg2 arg3 harg3 arg4 harg4 arg5 harg5 arg6 harg6 hc x0 x1 x2).2.1)

theorem cover1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) (y : S1024x128.Idx) :
    ∃ pc ∈ (kernelRun1_B (F := F) c i arg2 harg2 arg3 harg3 arg4 harg4 arg5 harg5 arg6 harg6 hc x0 x1 x2 xs).1, y ∈ pc.1.set :=
  View.cover_of_tiledL (kernelRun1_B c i arg2 harg2 arg3 harg3 arg4 harg4 arg5 harg5 arg6 harg6 hc x0 x1 x2 xs).1 S1024x128.size (by sl_kernel_rfl) y
theorem scover1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) (y : S1024x128.Idx) :
    ∃ pc ∈ (kernelRun1_B (F := F) c i arg2 harg2 arg3 harg3 arg4 harg4 arg5 harg5 arg6 harg6 hc x0 x1 x2 xs).2.1, y ∈ pc.1.set :=
  View.cover_of_tiledL (kernelRun1_B c i arg2 harg2 arg3 harg3 arg4 harg4 arg5 harg5 arg6 harg6 hc x0 x1 x2 xs).2.1 S1024x128.size (by sl_kernel_rfl) y
/-- The output block after a later chunk, given what the accumulator held. -/
def out1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) : Vec F S1024x128 .bf16 :=
  VO1.read (Elt F) (VO1.writes (Elt F) VO1.junk (kernelRun1_B c i arg2 harg2 arg3 harg3 arg4 harg4 arg5 harg5 arg6 harg6 hc x0 x1 x2 xs).1)
/-- The accumulator after a later chunk. -/
def sout1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) : Vec F S1024x128 .f32 :=
  VS1.read (Elt F) (VS1.writes (Elt F) VS1.junk (kernelRun1_B c i arg2 harg2 arg3 harg3 arg4 harg4 arg5 harg5 arg6 harg6 hc x0 x1 x2 xs).2.1)

section Region
variable (V : (c : Dev nD) → (b : Ref sig .tc) → Buf (Elt F) ((c : Thread nD τ).loc b))

/-! ## Point by point -/

/-- Output block and accumulator after a point that starts a row of chunks. -/
def ptA1 (c : Dev nD) (t : Fin cfg1.N) (h0 : t.val % 20 = 0) : Vec F S1024x128 .bf16 × Vec F S1024x128 .f32 :=
  (out1_A c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t),
   sout1_A c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t))
/-- Output block and accumulator after a later point of the row, over what the accumulator held. -/
def ptB1 (c : Dev nD) (t : Fin cfg1.N) (h0 : ¬t.val % 20 = 0) (xs : Vec F S1024x128 .f32) : Vec F S1024x128 .bf16 × Vec F S1024x128 .f32 :=
  (out1_B c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) xs,
   sout1_B c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) xs)

/-- THE ACCUMULATION: what the output window's staging buffer and the accumulator hold after the body at position n. -/
def outsAt1 (c : Dev nD) : (n : ℕ) → n < cfg1.N → Vec F S1024x128 .bf16 × Vec F S1024x128 .f32
  | 0, hn => ptA1 V c ⟨0, hn⟩ (Nat.zero_mod _)
  | n + 1, hn =>
    if h0 : (n + 1) % 20 = 0 then ptA1 V c ⟨n + 1, hn⟩ h0
    else ptB1 V c ⟨n + 1, hn⟩ h0 (outsAt1 c n (Nat.lt_of_succ_lt hn)).2

theorem outsAt1_A (c : Dev nD) (t : Fin cfg1.N) (h0 : t.val % 20 = 0) : outsAt1 V c t.val t.isLt = ptA1 V c t h0 := by
  obtain ⟨n, hn⟩ := t
  cases n with
  | zero => rfl
  | succ n => exact dif_pos h0

theorem outsAt1_B (c : Dev nD) (t : Fin cfg1.N) (h0 : ¬t.val % 20 = 0) :
    outsAt1 V c t.val t.isLt = ptB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-! ## The launch's invariant: the accumulator at what the point before left -/

def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

end Region

/-- The class invariant with the accumulator split out of the scoped buffers. -/
theorem PhiA1_eq (c : Dev nD) :
    (Pipeline.ΦA spec1 c : sProp 𝕄)
      = iprop(((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]; try rfl

section Region
variable (V : (c : Dev nD) → (b : Ref sig .tc) → Buf (Elt F) ((c : Thread nD τ).loc b))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, after1_0, after1_1, after1_2, after1_3]
  by_cases h0 : t.val % 20 = 0
  · rw [outsAt1_A V c t h0]
    unfold ptA1 out1_A sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A c _ _ _ _ _ _ _ _ _ _ _ _ _ _ _)
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A c _ _ _ _ _ _ _ _ _ _ _ _ _ _ _)
  · rw [outsAt1_B V c t h0]
    unfold ptB1 out1_B sout1_B; (try dsimp only)
    have hz : t.val ≠ 0 := fun h => h0 (by rw [h])
    rw [PhiS1_castSucc V c t, PhiS1_pos V c _ _ hz]
    iintro ⟨⟨⟨HS, HR⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1 t).mp h)) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact View.read_writes_of_cover _ _ _ _ _ (scover1_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have hN : cfg1.N = 16620 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, HR⟩, Hg⟩
  isplitl [HS HR]
  · isplitl [HS]
    · iexists _; iexact HS
    iexact HR
  iexact Hg

end Region

end Cert.Kernel.Hand

end
-- ==== Proof.K.Scatter.lean ====
import proofs.«125517_j46789373723027_1_alg».proof.Proof.Gen.Kernel.Launch
import proofs.«125517_j46789373723027_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

/-! # The scatter launch: output rows, one block of 2000 nodes at a time, summed over 831 tiles of 1024 edges

At grid point (i, j) the body adds to an accumulator (zeroed when j = 0) the product of the one-hot rows
"target of edge j * 1024 + e is node i * 2000 + n" with tile j of the messages, and writes the accumulator plus the
bias row, cut off below at zero, into the output block i. The accumulator is a scratch buffer carried from one point to the next. -/

/-! ## The branch: "this is the first edge tile" -/

/-- The body's test that the edge-tile coordinate is zero, as printed. -/
abbrev cond2 (i : grid2.Coords) : Prop :=
  (Scalar.cmpi .ne (Scalar.extui (Scalar.cmpi .eq (BitVec.ofNat 32 (i 1).val) 0#32)) 0#32) = 1#1

/-- Over the 831 values of the edge-tile coordinate the test holds exactly at zero. -/
theorem cond2_iff_zero : ∀ n : Fin 831,
    ((Scalar.cmpi .ne (Scalar.extui (Scalar.cmpi .eq (BitVec.ofNat 32 n.val) 0#32)) 0#32) = 1#1) ↔ n.val = 0 := by
  decide

/-- The edge-tile coordinate of the t-th point is t mod 831 (the edge-tile axis is the fast one). -/
theorem coord2_tile (t : Fin cfg2.N) : ((grid2.coords t) 1).val = t.val % 831 := by
  show t.val / grid2.stride 1 % 831 = t.val % 831
  rw [show grid2.stride 1 = 1 from rfl, Nat.div_one]

/-- The test holds at the points that start a row of edge tiles. -/
theorem hcond2 (t : Fin cfg2.N) : cond2 (grid2.coords t) ↔ t.val % 831 = 0 := by
  rw [← coord2_tile t]; exact cond2_iff_zero ((grid2.coords t) 1)

section Region
variable (V : (c : Dev nD) → (b : Ref sig .tc) → Buf (Elt F) ((c : Thread nD τ).loc b))

/-! ## The windows' blocks -/

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The staging memrefs the body is called with, and the accumulator -/

abbrev ms2_0 (t : Fin cfg2.N) : Memref sig .tc .vmem S1024x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x128 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S2000x128 .f32 := Memref.whole cc2_scratch0
abbrev VS2 : View sig .tc .vmem S2000x128 .f32 := scM2.view
/-- One staging buffer of the output window, through which its contents are stated. -/
abbrev VO2 : View sig .tc .vmem S2000x128 .f32 := (Memref.whole cc2_stg3_0 : Memref sig .tc .vmem S2000x128 .f32).view

/-- The kernel body at point t, on what the pipeline calls it with. -/
abbrev bodyAt2 (t : Fin cfg2.N) : Prog (TpuEff nD τ sig (Elt F) Λ₀ .tc) PUnit :=
  cc2__scatter_relu_kernel (grid2.coords t) (ms2_0 t) (hs2_0 t) (ms2_1 t) (hs2_1 t) (ms2_2 t) (hs2_2 t) (ms2_3 t) (hs2_3 t) scM2 (Memref.isWhole_whole _)

/-! ## The body's run, per case: the pieces each buffer ends with are what the run finds -/

set_option maxHeartbeats 4000000 in
/-- First edge tile: the accumulator may hold anything; it is zeroed, then updated. -/
noncomputable def kernelRun2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i)
    (x0 : Vec F S1024x128 .bf16) (x1 : Vec F S1024 .i32) (x2 : Vec F S1x128 .f32) :
    Σ' (L3 : List (View.Piece (Elt F) S2000x128 .f32)), { LS : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_relu_kernel i arg2 harg2 arg3 harg3 arg4 harg4 arg5 harg5 arg6 harg6) K } := by
  refine ⟨?_, ?_, fun E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

set_option maxHeartbeats 4000000 in
/-- A later edge tile: the accumulator holds what the tile before left. -/
noncomputable def kernelRun2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i)
    (x0 : Vec F S1024x128 .bf16) (x1 : Vec F S1024 .i32) (x2 : Vec F S1x128 .f32) (xs : Vec F S2000x128 .f32) :
    Σ' (L3 : List (View.Piece (Elt F) S2000x128 .f32)), { LS : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_relu_kernel i arg2 harg2 arg3 harg3 arg4 harg4 arg5 harg5 arg6 harg6) K } := by
  refine ⟨?_, ?_, fun E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## What each case leaves in the output block and in the accumulator -/

theorem cover2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) (y : S2000x128.Idx) :
    ∃ pc ∈ (kernelRun2_A (F := F) c i arg2 harg2 arg3 harg3 arg4 harg4 arg5 harg5 arg6 harg6 hc x0 x1 x2).1, y ∈ pc.1.set :=
  View.cover_of_tiledL (kernelRun2_A c i arg2 harg2 arg3 harg3 arg4 harg4 arg5 harg5 arg6 harg6 hc x0 x1 x2).1 S2000x128.size (by sl_kernel_rfl) y
theorem scover2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) (y : S2000x128.Idx) :
    ∃ pc ∈ (kernelRun2_A (F := F) c i arg2 harg2 arg3 harg3 arg4 harg4 arg5 harg5 arg6 harg6 hc x0 x1 x2).2.1, y ∈ pc.1.set :=
  View.cover_of_tiledL (kernelRun2_A c i arg2 harg2 arg3 harg3 arg4 harg4 arg5 harg5 arg6 harg6 hc x0 x1 x2).2.1 S2000x128.size (by sl_kernel_rfl) y
/-- The output block after a first edge tile: its pieces read back. -/
def out2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) : Vec F S2000x128 .f32 :=
  VO2.read (Elt F) (VO2.writes (Elt F) VO2.junk (kernelRun2_A c i arg2 harg2 arg3 harg3 arg4 harg4 arg5 harg5 arg6 harg6 hc x0 x1 x2).1)
/-- The accumulator after a first edge tile. -/
def sout2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) : Vec F S2000x128 .f32 :=
  VS2.read (Elt F) (VS2.writes (Elt F) VS2.junk (kernelRun2_A c i arg2 harg2 arg3 harg3 arg4 harg4 arg5 harg5 arg6 harg6 hc x0 x1 x2).2.1)

theorem cover2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) (y : S2000x128.Idx) :
    ∃ pc ∈ (kernelRun2_B (F := F) c i arg2 harg2 arg3 harg3 arg4 harg4 arg5 harg5 arg6 harg6 hc x0 x1 x2 xs).1, y ∈ pc.1.set :=
  View.cover_of_tiledL (kernelRun2_B c i arg2 harg2 arg3 harg3 arg4 harg4 arg5 harg5 arg6 harg6 hc x0 x1 x2 xs).1 S2000x128.size (by sl_kernel_rfl) y
theorem scover2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) (y : S2000x128.Idx) :
    ∃ pc ∈ (kernelRun2_B (F := F) c i arg2 harg2 arg3 harg3 arg4 harg4 arg5 harg5 arg6 harg6 hc x0 x1 x2 xs).2.1, y ∈ pc.1.set :=
  View.cover_of_tiledL (kernelRun2_B c i arg2 harg2 arg3 harg3 arg4 harg4 arg5 harg5 arg6 harg6 hc x0 x1 x2 xs).2.1 S2000x128.size (by sl_kernel_rfl) y
/-- The output block after a later edge tile, given what the accumulator held. -/
def out2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) : Vec F S2000x128 .f32 :=
  VO2.read (Elt F) (VO2.writes (Elt F) VO2.junk (kernelRun2_B c i arg2 harg2 arg3 harg3 arg4 harg4 arg5 harg5 arg6 harg6 hc x0 x1 x2 xs).1)
/-- The accumulator after a later edge tile. -/
def sout2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) : Vec F S2000x128 .f32 :=
  VS2.read (Elt F) (VS2.writes (Elt F) VS2.junk (kernelRun2_B c i arg2 harg2 arg3 harg3 arg4 harg4 arg5 harg5 arg6 harg6 hc x0 x1 x2 xs).2.1)

section Region
variable (V : (c : Dev nD) → (b : Ref sig .tc) → Buf (Elt F) ((c : Thread nD τ).loc b))

/-! ## Point by point -/

/-- Output block and accumulator after a point that starts a row of edge tiles. -/
def ptA2 (c : Dev nD) (t : Fin cfg2.N) (h0 : t.val % 831 = 0) : Vec F S2000x128 .f32 × Vec F S2000x128 .f32 :=
  (out2_A c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t),
   sout2_A c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t))
/-- Output block and accumulator after a later point of the row, over what the accumulator held. -/
def ptB2 (c : Dev nD) (t : Fin cfg2.N) (h0 : ¬t.val % 831 = 0) (xs : Vec F S2000x128 .f32) : Vec F S2000x128 .f32 × Vec F S2000x128 .f32 :=
  (out2_B c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) xs,
   sout2_B c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) xs)

/-- THE ACCUMULATION: what the output window's staging buffer and the accumulator hold after the body at position n. -/
def outsAt2 (c : Dev nD) : (n : ℕ) → n < cfg2.N → Vec F S2000x128 .f32 × Vec F S2000x128 .f32
  | 0, hn => ptA2 V c ⟨0, hn⟩ (Nat.zero_mod _)
  | n + 1, hn =>
    if h0 : (n + 1) % 831 = 0 then ptA2 V c ⟨n + 1, hn⟩ h0
    else ptB2 V c ⟨n + 1, hn⟩ h0 (outsAt2 c n (Nat.lt_of_succ_lt hn)).2

theorem outsAt2_A (c : Dev nD) (t : Fin cfg2.N) (h0 : t.val % 831 = 0) : outsAt2 V c t.val t.isLt = ptA2 V c t h0 := by
  obtain ⟨n, hn⟩ := t
  cases n with
  | zero => rfl
  | succ n => exact dif_pos h0

theorem outsAt2_B (c : Dev nD) (t : Fin cfg2.N) (h0 : ¬t.val % 831 = 0) :
    outsAt2 V c t.val t.isLt = ptB2 V c t h0 (outsAt2 V c (t.val - 1) (Nat.lt_of_le_of_lt (Nat.sub_le _ _) t.isLt)).2 := by
  obtain ⟨n, hn⟩ := t
  cases n with
  | zero => exact absurd (Nat.zero_mod _) h0
  | succ n => exact dif_neg h0

/-! ## The launch's invariant: the accumulator at what the point before left -/

def PhiS2 (c : Dev nD) : (n : ℕ) → n ≤ cfg2.N → sProp 𝕄
  | 0, _ => Pipeline.ΦA spec2 c
  | n + 1, hn => iprop((owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop((owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

end Region

/-- The class invariant with the accumulator split out of the scoped buffers. -/
theorem PhiA2_eq (c : Dev nD) :
    (Pipeline.ΦA spec2 c : sProp 𝕄)
      = iprop(((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole]; try rfl

section Region
variable (V : (c : Dev nD) → (b : Ref sig .tc) → Buf (Elt F) ((c : Thread nD τ).loc b))

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ, after2_0, after2_1, after2_2, after2_3]
  by_cases h0 : t.val % 831 = 0
  · rw [outsAt2_A V c t h0]
    unfold ptA2 out2_A sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A c _ _ _ _ _ _ _ _ _ _ _ _ _ _ _)
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A c _ _ _ _ _ _ _ _ _ _ _ _ _ _ _)
  · rw [outsAt2_B V c t h0]
    unfold ptB2 out2_B sout2_B; (try dsimp only)
    have hz : t.val ≠ 0 := fun h => h0 (by rw [h])
    rw [PhiS2_castSucc V c t, PhiS2_pos V c _ _ hz]
    iintro ⟨⟨⟨HS, HR⟩, Hg⟩, Ho, ⟨%d0, H0⟩, ⟨%d1, H1⟩, ⟨%d2, H2⟩, ⟨%d3, H3⟩⟩
    iapply ((kernelRun2_B c (grid2.coords t) _ _ _ _ _ _ _ _ _ _ (fun h => h0 ((hcond2 t).mp h)) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact View.read_writes_of_cover _ _ _ _ _ (scover2_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the kernel is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have hN : cfg2.N = 20775 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS, HR⟩, Hg⟩
  isplitl [HS HR]
  · isplitl [HS]
    · iexists _; iexact HS
    iexact HR
  iexact Hg

end Region

end Cert.Kernel.Hand

end
-- ==== Proof.K.Run.lean ====
import proofs.«125517_j46789373723027_1_alg».proof.Proof.K.Matmul
import proofs.«125517_j46789373723027_1_alg».proof.Proof.K.Gather
import proofs.«125517_j46789373723027_1_alg».proof.Proof.K.Scatter
import proofs.«125517_j46789373723027_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen
open Idealize.ShloMosaic.Pipeline (HostSeg RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: host stretches and the three launches in @main's order

Between two items every unscoped buffer of a core holds the contents named below: the launch memory, then what each
host stretch computes, then, after a launch, that launch's arrays at what its write-backs leave and every other
buffer as before. -/

/-- Core c's buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- Before the feature launch: after all four host stretches. -/
abbrev W4 : Dev nD → Valuation τ sig (Elt F) := fun c => StableHlo.after hostOps0_3 (W3 m c)
abbrev V4 : (c : Dev nD) → (b : Ref sig .tc) → Buf (Elt F) ((c : Thread nD τ).loc b) := fun c b => W4 m c b
/-- After the feature launch. -/
def W5 (c : Dev nD) : Valuation τ sig (Elt F) :=
  Pipeline.withArrays spec0 c (W4 m c) fun w => (dat0 (V4 m) c).arrAt w cfg0.N
theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev V5 : (c : Dev nD) → (b : Ref sig .tc) → Buf (Elt F) ((c : Thread nD τ).loc b) := fun c b => W5 m c b
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)

/-- After the gather launch. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- Before the scatter launch: after the reshape of the bias. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- After the scatter launch: the end. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-! ## What a buffer holds when no item between writes it -/

/-- A buffer no host stretch writes and no launch has as an array holds at the end what it held at launch. -/
theorem W8_of_untouched (c : Dev nD) (b : Ref sig .tc)
    (h0 : b ∉ hostOps0_W) (h1 : b ∉ hostOps0_1_W) (h2 : b ∉ hostOps0_2_W) (h3 : b ∉ hostOps0_3_W) (h6 : b ∉ hostOps2_W)
    (hr0 : ∀ w, Pipeline.arrRef spec0 w ≠ b) (hr1 : ∀ w, Pipeline.arrRef spec1 w ≠ b) (hr2 : ∀ w, Pipeline.arrRef spec2 w ≠ b) :
    W8 m c (Proc.devRef .tc b) = m ((c : Thread nD τ).loc b) :=
  calc W8 m c (Proc.devRef .tc b)
    _ = W7 m c (Proc.devRef .tc b) := W8_of_ne m c b hr2
    _ = W6 m c (Proc.devRef .tc b) := StableHlo.after_of_writes_sub hostOps2 _ hostOps2_writes h6
    _ = W5 m c (Proc.devRef .tc b) := W6_of_ne m c b hr1
    _ = W4 m c (Proc.devRef .tc b) := W5_of_ne m c b hr0
    _ = W3 m c (Proc.devRef .tc b) := StableHlo.after_of_writes_sub hostOps0_3 _ hostOps0_3_writes h3
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

theorem W8_main_arg0 (c : Dev nD) : W8 m c (Proc.devRef .tc main_arg0) = m ((c : Thread nD τ).loc main_arg0) :=
  W8_of_untouched m c main_arg0 (by decide) (by decide) (by decide) (by decide) (by decide) (by decide) (by decide) (by decide)
theorem W8_main_arg1 (c : Dev nD) : W8 m c (Proc.devRef .tc main_arg1) = m ((c : Thread nD τ).loc main_arg1) :=
  W8_of_untouched m c main_arg1 (by decide) (by decide) (by decide) (by decide) (by decide) (by decide) (by decide) (by decide)
theorem W8_main_arg2 (c : Dev nD) : W8 m c (Proc.devRef .tc main_arg2) = m ((c : Thread nD τ).loc main_arg2) :=
  W8_of_untouched m c main_arg2 (by decide) (by decide) (by decide) (by decide) (by decide) (by decide) (by decide) (by decide)
theorem W8_main_arg4 (c : Dev nD) : W8 m c (Proc.devRef .tc main_arg4) = m ((c : Thread nD τ).loc main_arg4) :=
  W8_of_untouched m c main_arg4 (by decide) (by decide) (by decide) (by decide) (by decide) (by decide) (by decide) (by decide)
/-- The weight matrix is an input array of the feature launch, which leaves it as found. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := (W5_arr m c 1).trans (((dat0 (V4 m) c).arrAt_in 1 rfl _).trans (A_eq0 (V4 m) c 1))
    _ = W3 m c (Proc.devRef .tc main_arg3) := StableHlo.after_of_writes_sub hostOps0_3 _ hostOps0_3_writes (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-! ## The proof data family and the thread state -/

abbrev adm : (p : Fin 3) → (pcfgs (F := F) p).Adm := fun p => (cfgs p).toPCfg_adm
/-- Every launch's proof data, each at the contents its launch finds. -/
def pdats : (p : Fin 3) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V5 m) c
  | ⟨2, _⟩ => fun c => dat2 (V7 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- Launch 0 over the thread state: its arrays split out of the unscoped buffers and put back at the contents its
    write-backs leave; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays split out of the unscoped buffers and put back at the contents its
    write-backs leave; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V5 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: its arrays split out of the unscoped buffers and put back at the contents its
    write-backs leave; the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (V7 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .region (reg1 m),
    .host (hseg hostOps2 hostOps2_sub hostOps2_fresh (W6 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and at the end every unscoped buffer of every core holds the last contents named above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c)⟩) (run_all m ρ)

end Cert.Kernel.Hand

end
-- ==== Proof.KI.Matmul.lean ====
import proofs.«125517_j46789373723027_1_alg».proof.Proof.Gen.KernelIdeal.Launch
import proofs.«125517_j46789373723027_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-! # The feature launch: ten blocks of 5120 padded node rows, each times the weight matrix

The body loads a block of rows and the whole weight matrix and stores their product; nothing is carried between points. -/

section Region
variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The staging memrefs the body is called with -/

abbrev ms0_0 (t : Fin cfg0.N) : Memref sig .tc .vmem S5120x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x128 .bf16 := win0_2.stage (cfg0.slots t 2)
abbrev hs0_2 (t : Fin cfg0.N) : (ms0_2 t).IsWhole := hstage0_2 ((cfg0.slots t 2).cast nbuf0_2)
/-- The kernel body at point t, on what the pipeline calls it with. -/
abbrev bodyAt0 (t : Fin cfg0.N) : Prog (TpuEff nD τ sig (Elt F) Λ₀ .tc) PUnit :=
  cc0__matmul_kernel (grid0.coords t) (ms0_0 t) (hs0_0 t) (ms0_1 t) (hs0_1 t) (ms0_2 t) (hs0_2 t)

/-! ## The body's run: the pieces the output block ends with are what the run finds -/

/-- One staging buffer of the output window, through which its contents are stated. -/
abbrev VO0 : View sig .tc .vmem S5120x128 .bf16 := (Memref.whole cc0_stg2_0 : Memref sig .tc .vmem S5120x128 .bf16).view

set_option maxHeartbeats 4000000 in
noncomputable def kernelRun0 (c : Dev nD) (i : grid0.Coords) (arg1 : Memref sig .tc .vmem S5120x128 .f32) (harg1 : arg1.IsWhole) (arg2 : Memref sig .tc .vmem S128x128 .f32) (harg2 : arg2.IsWhole) (arg3 : Memref sig .tc .vmem S5120x128 .bf16) (harg3 : arg3.IsWhole)
    (x0 : Vec F S5120x128 .f32) (x1 : Vec F S128x128 .f32) :
    { L2 : List (View.Piece (Elt F) S5120x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__matmul_kernel i arg1 harg1 arg2 harg2 arg3 harg3) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover0_2 (c : Dev nD) (i : grid0.Coords) (arg1 : Memref sig .tc .vmem S5120x128 .f32) (harg1 : arg1.IsWhole) (arg2 : Memref sig .tc .vmem S128x128 .f32) (harg2 : arg2.IsWhole) (arg3 : Memref sig .tc .vmem S5120x128 .bf16) (harg3 : arg3.IsWhole) (x0 : Vec F S5120x128 .f32) (x1 : Vec F S128x128 .f32) (y : S5120x128.Idx) :
    ∃ pc ∈ (kernelRun0 (F := F) c i arg1 harg1 arg2 harg2 arg3 harg3 x0 x1).1, y ∈ pc.1.set :=
  View.cover_of_tiledL (kernelRun0 c i arg1 harg1 arg2 harg2 arg3 harg3 x0 x1).1 S5120x128.size (by sl_kernel_rfl) y

/-- The output block after the body: its pieces read back. -/
def out0_2 (c : Dev nD) (i : grid0.Coords) (arg1 : Memref sig .tc .vmem S5120x128 .f32) (harg1 : arg1.IsWhole) (arg2 : Memref sig .tc .vmem S128x128 .f32) (harg2 : arg2.IsWhole) (arg3 : Memref sig .tc .vmem S5120x128 .bf16) (harg3 : arg3.IsWhole) (x0 : Vec F S5120x128 .f32) (x1 : Vec F S128x128 .f32) : Vec F S5120x128 .bf16 :=
  VO0.read (Elt F) (VO0.writes (Elt F) VO0.junk (kernelRun0 c i arg1 harg1 arg2 harg2 arg3 harg3 x0 x1).1)

section Region
variable (V : (c : Dev nD) → (b : Ref sig .tc) → Buf (Elt F) ((c : Thread nD τ).loc b))

/-- The proof data: arrays as found; inputs' buffers at their blocks, the output's at the product of the point's blocks;
    the class invariant (scoped buffers and generator register untouched); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c (grid0.coords t) (ms0_0 t) (hs0_0 t) (ms0_1 t) (hs0_1 t) (ms0_2 t) (hs0_2 t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold out0_2
  iintro ⟨HΦ, Ho, ⟨%d0, H0⟩, ⟨%d1, H1⟩, ⟨%d2, H2⟩⟩
  iapply ((kernelRun0 c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _)

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.Gather.lean ====
import proofs.«125517_j46789373723027_1_alg».proof.Proof.Gen.KernelIdeal.Launch
import proofs.«125517_j46789373723027_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-! # The gather launch: messages, one block of 1024 edges at a time, summed over twenty chunks of 2560 nodes

At grid point (i, cc) the body adds to an accumulator (zeroed when cc = 0) the product of the one-hot rows
"source of edge e is node cc * 2560 + k" with chunk cc of the node features, and writes the accumulator times the
edge's norm into the output block i. The accumulator is a scratch buffer carried from one point to the next. -/

/-! ## The branch: "this is the first chunk" -/

/-- The body's test that the chunk coordinate is zero, as printed. -/
abbrev cond1 (i : grid1.Coords) : Prop :=
  (Scalar.cmpi .ne (Scalar.extui (Scalar.cmpi .eq (BitVec.ofNat 32 (i 1).val) 0#32)) 0#32) = 1#1

/-- Over the twenty values of the chunk coordinate the test holds exactly at zero. -/
theorem cond1_iff_zero : ∀ n : Fin 20,
    ((Scalar.cmpi .ne (Scalar.extui (Scalar.cmpi .eq (BitVec.ofNat 32 n.val) 0#32)) 0#32) = 1#1) ↔ n.val = 0 := by
  decide

/-- The chunk coordinate of the t-th point is t mod 20 (the chunk axis is the fast one). -/
theorem coord1_chunk (t : Fin cfg1.N) : ((grid1.coords t) 1).val = t.val % 20 := by
  show t.val / grid1.stride 1 % 20 = t.val % 20
  rw [show grid1.stride 1 = 1 from rfl, Nat.div_one]

/-- The test holds at the points that start a row of chunks. -/
theorem hcond1 (t : Fin cfg1.N) : cond1 (grid1.coords t) ↔ t.val % 20 = 0 := by
  rw [← coord1_chunk t]; exact cond1_iff_zero ((grid1.coords t) 1)

section Region
variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The staging memrefs the body is called with, and the accumulator -/

abbrev ms1_0 (t : Fin cfg1.N) : Memref sig .tc .vmem S1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2560x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x128 .f32 := Memref.whole cc1_scratch0
abbrev VS1 : View sig .tc .vmem S1024x128 .f32 := scM1.view
/-- One staging buffer of the output window, through which its contents are stated. -/
abbrev VO1 : View sig .tc .vmem S1024x128 .bf16 := (Memref.whole cc1_stg3_0 : Memref sig .tc .vmem S1024x128 .bf16).view

/-- The kernel body at point t, on what the pipeline calls it with. -/
abbrev bodyAt1 (t : Fin cfg1.N) : Prog (TpuEff nD τ sig (Elt F) Λ₀ .tc) PUnit :=
  cc1__gather_scale_kernel (grid1.coords t) (ms1_0 t) (hs1_0 t) (ms1_1 t) (hs1_1 t) (ms1_2 t) (hs1_2 t) (ms1_3 t) (hs1_3 t) scM1 (Memref.isWhole_whole _)

/-! ## The body's run, per case: the pieces each buffer ends with are what the run finds -/

set_option maxHeartbeats 4000000 in
/-- First chunk: the accumulator may hold anything; it is zeroed, then updated. -/
noncomputable def kernelRun1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i)
    (x0 : Vec F S1024 .i32) (x1 : Vec F S1024 .f32) (x2 : Vec F S2560x128 .bf16) :
    Σ' (L3 : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_scale_kernel i arg2 harg2 arg3 harg3 arg4 harg4 arg5 harg5 arg6 harg6) K } := by
  refine ⟨?_, ?_, fun E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

set_option maxHeartbeats 4000000 in
/-- A later chunk: the accumulator holds what the chunk before left. -/
noncomputable def kernelRun1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i)
    (x0 : Vec F S1024 .i32) (x1 : Vec F S1024 .f32) (x2 : Vec F S2560x128 .bf16) (xs : Vec F S1024x128 .f32) :
    Σ' (L3 : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_scale_kernel i arg2 harg2 arg3 harg3 arg4 harg4 arg5 harg5 arg6 harg6) K } := by
  refine ⟨?_, ?_, fun E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## What each case leaves in the output block and in the accumulator -/

theorem cover1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) (y : S1024x128.Idx) :
    ∃ pc ∈ (kernelRun1_A (F := F) c i arg2 harg2 arg3 harg3 arg4 harg4 arg5 harg5 arg6 harg6 hc x0 x1 x2).1, y ∈ pc.1.set :=
  View.cover_of_tiledL (kernelRun1_A c i arg2 harg2 arg3 harg3 arg4 harg4 arg5 harg5 arg6 harg6 hc x0 x1 x2).1 S1024x128.size (by sl_kernel_rfl) y
theorem scover1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) (y : S1024x128.Idx) :
    ∃ pc ∈ (kernelRun1_A (F := F) c i arg2 harg2 arg3 harg3 arg4 harg4 arg5 harg5 arg6 harg6 hc x0 x1 x2).2.1, y ∈ pc.1.set :=
  View.cover_of_tiledL (kernelRun1_A c i arg2 harg2 arg3 harg3 arg4 harg4 arg5 harg5 arg6 harg6 hc x0 x1 x2).2.1 S1024x128.size (by sl_kernel_rfl) y
/-- The output block after a first chunk: its pieces read back. -/
def out1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) : Vec F S1024x128 .bf16 :=
  VO1.read (Elt F) (VO1.writes (Elt F) VO1.junk (kernelRun1_A c i arg2 harg2 arg3 harg3 arg4 harg4 arg5 harg5 arg6 harg6 hc x0 x1 x2).1)
/-- The accumulator after a first chunk. -/
def sout1_A (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) : Vec F S1024x128 .f32 :=
  VS1.read (Elt F) (VS1.writes (Elt F) VS1.junk (kernelRun1_A c i arg2 harg2 arg3 harg3 arg4 harg4 arg5 harg5 arg6 harg6 hc x0 x1 x2).2.1)

theorem cover1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) (y : S1024x128.Idx) :
    ∃ pc ∈ (kernelRun1_B (F := F) c i arg2 harg2 arg3 harg3 arg4 harg4 arg5 harg5 arg6 harg6 hc x0 x1 x2 xs).1, y ∈ pc.1.set :=
  View.cover_of_tiledL (kernelRun1_B c i arg2 harg2 arg3 harg3 arg4 harg4 arg5 harg5 arg6 harg6 hc x0 x1 x2 xs).1 S1024x128.size (by sl_kernel_rfl) y
theorem scover1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) (y : S1024x128.Idx) :
    ∃ pc ∈ (kernelRun1_B (F := F) c i arg2 harg2 arg3 harg3 arg4 harg4 arg5 harg5 arg6 harg6 hc x0 x1 x2 xs).2.1, y ∈ pc.1.set :=
  View.cover_of_tiledL (kernelRun1_B c i arg2 harg2 arg3 harg3 arg4 harg4 arg5 harg5 arg6 harg6 hc x0 x1 x2 xs).2.1 S1024x128.size (by sl_kernel_rfl) y
/-- The output block after a later chunk, given what the accumulator held. -/
def out1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) : Vec F S1024x128 .bf16 :=
  VO1.read (Elt F) (VO1.writes (Elt F) VO1.junk (kernelRun1_B c i arg2 harg2 arg3 harg3 arg4 harg4 arg5 harg5 arg6 harg6 hc x0 x1 x2 xs).1)
/-- The accumulator after a later chunk. -/
def sout1_B (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) : Vec F S1024x128 .f32 :=
  VS1.read (Elt F) (VS1.writes (Elt F) VS1.junk (kernelRun1_B c i arg2 harg2 arg3 harg3 arg4 harg4 arg5 harg5 arg6 harg6 hc x0 x1 x2 xs).2.1)

section Region
variable (V : (c : Dev nD) → (b : Ref sig .tc) → Buf (Elt F) ((c : Thread nD τ).loc b))

/-! ## Point by point -/

/-- Output block and accumulator after a point that starts a row of chunks. -/
def ptA1 (c : Dev nD) (t : Fin cfg1.N) (h0 : t.val % 20 = 0) : Vec F S1024x128 .bf16 × Vec F S1024x128 .f32 :=
  (out1_A c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t),
   sout1_A c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t))
/-- Output block and accumulator after a later point of the row, over what the accumulator held. -/
def ptB1 (c : Dev nD) (t : Fin cfg1.N) (h0 : ¬t.val % 20 = 0) (xs : Vec F S1024x128 .f32) : Vec F S1024x128 .bf16 × Vec F S1024x128 .f32 :=
  (out1_B c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) xs,
   sout1_B c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) xs)

/-- THE ACCUMULATION: what the output window's staging buffer and the accumulator hold after the body at position n. -/
def outsAt1 (c : Dev nD) : (n : ℕ) → n < cfg1.N → Vec F S1024x128 .bf16 × Vec F S1024x128 .f32
  | 0, hn => ptA1 V c ⟨0, hn⟩ (Nat.zero_mod _)
  | n + 1, hn =>
    if h0 : (n + 1) % 20 = 0 then ptA1 V c ⟨n + 1, hn⟩ h0
    else ptB1 V c ⟨n + 1, hn⟩ h0 (outsAt1 c n (Nat.lt_of_succ_lt hn)).2

theorem outsAt1_A (c : Dev nD) (t : Fin cfg1.N) (h0 : t.val % 20 = 0) : outsAt1 V c t.val t.isLt = ptA1 V c t h0 := by
  obtain ⟨n, hn⟩ := t
  cases n with
  | zero => rfl
  | succ n => exact dif_pos h0

theorem outsAt1_B (c : Dev nD) (t : Fin cfg1.N) (h0 : ¬t.val % 20 = 0) :
    outsAt1 V c t.val t.isLt = ptB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-! ## The launch's invariant: the accumulator at what the point before left -/

def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

end Region

/-- The class invariant with the accumulator split out of the scoped buffers. -/
theorem PhiA1_eq (c : Dev nD) :
    (Pipeline.ΦA spec1 c : sProp 𝕄)
      = iprop(((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]; try rfl

section Region
variable (V : (c : Dev nD) → (b : Ref sig .tc) → Buf (Elt F) ((c : Thread nD τ).loc b))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, after1_0, after1_1, after1_2, after1_3]
  by_cases h0 : t.val % 20 = 0
  · rw [outsAt1_A V c t h0]
    unfold ptA1 out1_A sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A c _ _ _ _ _ _ _ _ _ _ _ _ _ _ _)
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A c _ _ _ _ _ _ _ _ _ _ _ _ _ _ _)
  · rw [outsAt1_B V c t h0]
    unfold ptB1 out1_B sout1_B; (try dsimp only)
    have hz : t.val ≠ 0 := fun h => h0 (by rw [h])
    rw [PhiS1_castSucc V c t, PhiS1_pos V c _ _ hz]
    iintro ⟨⟨⟨HS, HR⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1 t).mp h)) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact View.read_writes_of_cover _ _ _ _ _ (scover1_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have hN : cfg1.N = 16620 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, HR⟩, Hg⟩
  isplitl [HS HR]
  · isplitl [HS]
    · iexists _; iexact HS
    iexact HR
  iexact Hg

end Region

end Cert.KernelIdeal.Hand

end
-- ==== Proof.KI.Scatter.lean ====
import proofs.«125517_j46789373723027_1_alg».proof.Proof.Gen.KernelIdeal.Launch
import proofs.«125517_j46789373723027_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-! # The scatter launch: output rows, one block of 2000 nodes at a time, summed over 831 tiles of 1024 edges

At grid point (i, j) the body adds to an accumulator (zeroed when j = 0) the product of the one-hot rows
"target of edge j * 1024 + e is node i * 2000 + n" with tile j of the messages, and writes the accumulator plus the
bias row, cut off below at zero, into the output block i. The accumulator is a scratch buffer carried from one point to the next. -/

/-! ## The branch: "this is the first edge tile" -/

/-- The body's test that the edge-tile coordinate is zero, as printed. -/
abbrev cond2 (i : grid2.Coords) : Prop :=
  (Scalar.cmpi .ne (Scalar.extui (Scalar.cmpi .eq (BitVec.ofNat 32 (i 1).val) 0#32)) 0#32) = 1#1

/-- Over the 831 values of the edge-tile coordinate the test holds exactly at zero. -/
theorem cond2_iff_zero : ∀ n : Fin 831,
    ((Scalar.cmpi .ne (Scalar.extui (Scalar.cmpi .eq (BitVec.ofNat 32 n.val) 0#32)) 0#32) = 1#1) ↔ n.val = 0 := by
  decide

/-- The edge-tile coordinate of the t-th point is t mod 831 (the edge-tile axis is the fast one). -/
theorem coord2_tile (t : Fin cfg2.N) : ((grid2.coords t) 1).val = t.val % 831 := by
  show t.val / grid2.stride 1 % 831 = t.val % 831
  rw [show grid2.stride 1 = 1 from rfl, Nat.div_one]

/-- The test holds at the points that start a row of edge tiles. -/
theorem hcond2 (t : Fin cfg2.N) : cond2 (grid2.coords t) ↔ t.val % 831 = 0 := by
  rw [← coord2_tile t]; exact cond2_iff_zero ((grid2.coords t) 1)

section Region
variable (V : (c : Dev nD) → (b : Ref sig .tc) → Buf (Elt F) ((c : Thread nD τ).loc b))

/-! ## The windows' blocks -/

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The staging memrefs the body is called with, and the accumulator -/

abbrev ms2_0 (t : Fin cfg2.N) : Memref sig .tc .vmem S1024x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x128 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S2000x128 .f32 := Memref.whole cc2_scratch0
abbrev VS2 : View sig .tc .vmem S2000x128 .f32 := scM2.view
/-- One staging buffer of the output window, through which its contents are stated. -/
abbrev VO2 : View sig .tc .vmem S2000x128 .f32 := (Memref.whole cc2_stg3_0 : Memref sig .tc .vmem S2000x128 .f32).view

/-- The kernel body at point t, on what the pipeline calls it with. -/
abbrev bodyAt2 (t : Fin cfg2.N) : Prog (TpuEff nD τ sig (Elt F) Λ₀ .tc) PUnit :=
  cc2__scatter_relu_kernel (grid2.coords t) (ms2_0 t) (hs2_0 t) (ms2_1 t) (hs2_1 t) (ms2_2 t) (hs2_2 t) (ms2_3 t) (hs2_3 t) scM2 (Memref.isWhole_whole _)

/-! ## The body's run, per case: the pieces each buffer ends with are what the run finds -/

set_option maxHeartbeats 4000000 in
/-- First edge tile: the accumulator may hold anything; it is zeroed, then updated. -/
noncomputable def kernelRun2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i)
    (x0 : Vec F S1024x128 .bf16) (x1 : Vec F S1024 .i32) (x2 : Vec F S1x128 .f32) :
    Σ' (L3 : List (View.Piece (Elt F) S2000x128 .f32)), { LS : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_relu_kernel i arg2 harg2 arg3 harg3 arg4 harg4 arg5 harg5 arg6 harg6) K } := by
  refine ⟨?_, ?_, fun E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

set_option maxHeartbeats 4000000 in
/-- A later edge tile: the accumulator holds what the tile before left. -/
noncomputable def kernelRun2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i)
    (x0 : Vec F S1024x128 .bf16) (x1 : Vec F S1024 .i32) (x2 : Vec F S1x128 .f32) (xs : Vec F S2000x128 .f32) :
    Σ' (L3 : List (View.Piece (Elt F) S2000x128 .f32)), { LS : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_relu_kernel i arg2 harg2 arg3 harg3 arg4 harg4 arg5 harg5 arg6 harg6) K } := by
  refine ⟨?_, ?_, fun E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## What each case leaves in the output block and in the accumulator -/

theorem cover2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) (y : S2000x128.Idx) :
    ∃ pc ∈ (kernelRun2_A (F := F) c i arg2 harg2 arg3 harg3 arg4 harg4 arg5 harg5 arg6 harg6 hc x0 x1 x2).1, y ∈ pc.1.set :=
  View.cover_of_tiledL (kernelRun2_A c i arg2 harg2 arg3 harg3 arg4 harg4 arg5 harg5 arg6 harg6 hc x0 x1 x2).1 S2000x128.size (by sl_kernel_rfl) y
theorem scover2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) (y : S2000x128.Idx) :
    ∃ pc ∈ (kernelRun2_A (F := F) c i arg2 harg2 arg3 harg3 arg4 harg4 arg5 harg5 arg6 harg6 hc x0 x1 x2).2.1, y ∈ pc.1.set :=
  View.cover_of_tiledL (kernelRun2_A c i arg2 harg2 arg3 harg3 arg4 harg4 arg5 harg5 arg6 harg6 hc x0 x1 x2).2.1 S2000x128.size (by sl_kernel_rfl) y
/-- The output block after a first edge tile: its pieces read back. -/
def out2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) : Vec F S2000x128 .f32 :=
  VO2.read (Elt F) (VO2.writes (Elt F) VO2.junk (kernelRun2_A c i arg2 harg2 arg3 harg3 arg4 harg4 arg5 harg5 arg6 harg6 hc x0 x1 x2).1)
/-- The accumulator after a first edge tile. -/
def sout2_A (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) : Vec F S2000x128 .f32 :=
  VS2.read (Elt F) (VS2.writes (Elt F) VS2.junk (kernelRun2_A c i arg2 harg2 arg3 harg3 arg4 harg4 arg5 harg5 arg6 harg6 hc x0 x1 x2).2.1)

theorem cover2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) (y : S2000x128.Idx) :
    ∃ pc ∈ (kernelRun2_B (F := F) c i arg2 harg2 arg3 harg3 arg4 harg4 arg5 harg5 arg6 harg6 hc x0 x1 x2 xs).1, y ∈ pc.1.set :=
  View.cover_of_tiledL (kernelRun2_B c i arg2 harg2 arg3 harg3 arg4 harg4 arg5 harg5 arg6 harg6 hc x0 x1 x2 xs).1 S2000x128.size (by sl_kernel_rfl) y
theorem scover2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) (y : S2000x128.Idx) :
    ∃ pc ∈ (kernelRun2_B (F := F) c i arg2 harg2 arg3 harg3 arg4 harg4 arg5 harg5 arg6 harg6 hc x0 x1 x2 xs).2.1, y ∈ pc.1.set :=
  View.cover_of_tiledL (kernelRun2_B c i arg2 harg2 arg3 harg3 arg4 harg4 arg5 harg5 arg6 harg6 hc x0 x1 x2 xs).2.1 S2000x128.size (by sl_kernel_rfl) y
/-- The output block after a later edge tile, given what the accumulator held. -/
def out2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) : Vec F S2000x128 .f32 :=
  VO2.read (Elt F) (VO2.writes (Elt F) VO2.junk (kernelRun2_B c i arg2 harg2 arg3 harg3 arg4 harg4 arg5 harg5 arg6 harg6 hc x0 x1 x2 xs).1)
/-- The accumulator after a later edge tile. -/
def sout2_B (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) : Vec F S2000x128 .f32 :=
  VS2.read (Elt F) (VS2.writes (Elt F) VS2.junk (kernelRun2_B c i arg2 harg2 arg3 harg3 arg4 harg4 arg5 harg5 arg6 harg6 hc x0 x1 x2 xs).2.1)

section Region
variable (V : (c : Dev nD) → (b : Ref sig .tc) → Buf (Elt F) ((c : Thread nD τ).loc b))

/-! ## Point by point -/

/-- Output block and accumulator after a point that starts a row of edge tiles. -/
def ptA2 (c : Dev nD) (t : Fin cfg2.N) (h0 : t.val % 831 = 0) : Vec F S2000x128 .f32 × Vec F S2000x128 .f32 :=
  (out2_A c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t),
   sout2_A c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t))
/-- Output block and accumulator after a later point of the row, over what the accumulator held. -/
def ptB2 (c : Dev nD) (t : Fin cfg2.N) (h0 : ¬t.val % 831 = 0) (xs : Vec F S2000x128 .f32) : Vec F S2000x128 .f32 × Vec F S2000x128 .f32 :=
  (out2_B c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) xs,
   sout2_B c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) xs)

/-- THE ACCUMULATION: what the output window's staging buffer and the accumulator hold after the body at position n. -/
def outsAt2 (c : Dev nD) : (n : ℕ) → n < cfg2.N → Vec F S2000x128 .f32 × Vec F S2000x128 .f32
  | 0, hn => ptA2 V c ⟨0, hn⟩ (Nat.zero_mod _)
  | n + 1, hn =>
    if h0 : (n + 1) % 831 = 0 then ptA2 V c ⟨n + 1, hn⟩ h0
    else ptB2 V c ⟨n + 1, hn⟩ h0 (outsAt2 c n (Nat.lt_of_succ_lt hn)).2

theorem outsAt2_A (c : Dev nD) (t : Fin cfg2.N) (h0 : t.val % 831 = 0) : outsAt2 V c t.val t.isLt = ptA2 V c t h0 := by
  obtain ⟨n, hn⟩ := t
  cases n with
  | zero => rfl
  | succ n => exact dif_pos h0

theorem outsAt2_B (c : Dev nD) (t : Fin cfg2.N) (h0 : ¬t.val % 831 = 0) :
    outsAt2 V c t.val t.isLt = ptB2 V c t h0 (outsAt2 V c (t.val - 1) (Nat.lt_of_le_of_lt (Nat.sub_le _ _) t.isLt)).2 := by
  obtain ⟨n, hn⟩ := t
  cases n with
  | zero => exact absurd (Nat.zero_mod _) h0
  | succ n => exact dif_neg h0

/-! ## The launch's invariant: the accumulator at what the point before left -/

def PhiS2 (c : Dev nD) : (n : ℕ) → n ≤ cfg2.N → sProp 𝕄
  | 0, _ => Pipeline.ΦA spec2 c
  | n + 1, hn => iprop((owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop((owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

end Region

/-- The class invariant with the accumulator split out of the scoped buffers. -/
theorem PhiA2_eq (c : Dev nD) :
    (Pipeline.ΦA spec2 c : sProp 𝕄)
      = iprop(((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole]; try rfl

section Region
variable (V : (c : Dev nD) → (b : Ref sig .tc) → Buf (Elt F) ((c : Thread nD τ).loc b))

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ, after2_0, after2_1, after2_2, after2_3]
  by_cases h0 : t.val % 831 = 0
  · rw [outsAt2_A V c t h0]
    unfold ptA2 out2_A sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A c _ _ _ _ _ _ _ _ _ _ _ _ _ _ _)
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A c _ _ _ _ _ _ _ _ _ _ _ _ _ _ _)
  · rw [outsAt2_B V c t h0]
    unfold ptB2 out2_B sout2_B; (try dsimp only)
    have hz : t.val ≠ 0 := fun h => h0 (by rw [h])
    rw [PhiS2_castSucc V c t, PhiS2_pos V c _ _ hz]
    iintro ⟨⟨⟨HS, HR⟩, Hg⟩, Ho, ⟨%d0, H0⟩, ⟨%d1, H1⟩, ⟨%d2, H2⟩, ⟨%d3, H3⟩⟩
    iapply ((kernelRun2_B c (grid2.coords t) _ _ _ _ _ _ _ _ _ _ (fun h => h0 ((hcond2 t).mp h)) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact View.read_writes_of_cover _ _ _ _ _ (scover2_B c _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the kernel is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have hN : cfg2.N = 20775 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS, HR⟩, Hg⟩
  isplitl [HS HR]
  · isplitl [HS]
    · iexists _; iexact HS
    iexact HR
  iexact Hg

end Region

end Cert.KernelIdeal.Hand

end
-- ==== Proof.KI.Run.lean ====
import proofs.«125517_j46789373723027_1_alg».proof.Proof.KI.Matmul
import proofs.«125517_j46789373723027_1_alg».proof.Proof.KI.Gather
import proofs.«125517_j46789373723027_1_alg».proof.Proof.KI.Scatter
import proofs.«125517_j46789373723027_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen
open Idealize.ShloMosaic.Pipeline (HostSeg RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: host stretches and the three launches in @main's order

Between two items every unscoped buffer of a core holds the contents named below: the launch memory, then what each
host stretch computes, then, after a launch, that launch's arrays at what its write-backs leave and every other
buffer as before. -/

/-- Core c's buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- Before the feature launch: after all four host stretches. -/
abbrev W4 : Dev nD → Valuation τ sig (Elt F) := fun c => StableHlo.after hostOps0_3 (W3 m c)
abbrev V4 : (c : Dev nD) → (b : Ref sig .tc) → Buf (Elt F) ((c : Thread nD τ).loc b) := fun c b => W4 m c b
/-- After the feature launch. -/
def W5 (c : Dev nD) : Valuation τ sig (Elt F) :=
  Pipeline.withArrays spec0 c (W4 m c) fun w => (dat0 (V4 m) c).arrAt w cfg0.N
theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev V5 : (c : Dev nD) → (b : Ref sig .tc) → Buf (Elt F) ((c : Thread nD τ).loc b) := fun c b => W5 m c b
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)

/-- After the gather launch. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- Before the scatter launch: after the reshape of the bias. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- After the scatter launch: the end. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-! ## What a buffer holds when no item between writes it -/

/-- A buffer no host stretch writes and no launch has as an array holds at the end what it held at launch. -/
theorem W8_of_untouched (c : Dev nD) (b : Ref sig .tc)
    (h0 : b ∉ hostOps0_W) (h1 : b ∉ hostOps0_1_W) (h2 : b ∉ hostOps0_2_W) (h3 : b ∉ hostOps0_3_W) (h6 : b ∉ hostOps2_W)
    (hr0 : ∀ w, Pipeline.arrRef spec0 w ≠ b) (hr1 : ∀ w, Pipeline.arrRef spec1 w ≠ b) (hr2 : ∀ w, Pipeline.arrRef spec2 w ≠ b) :
    W8 m c (Proc.devRef .tc b) = m ((c : Thread nD τ).loc b) :=
  calc W8 m c (Proc.devRef .tc b)
    _ = W7 m c (Proc.devRef .tc b) := W8_of_ne m c b hr2
    _ = W6 m c (Proc.devRef .tc b) := StableHlo.after_of_writes_sub hostOps2 _ hostOps2_writes h6
    _ = W5 m c (Proc.devRef .tc b) := W6_of_ne m c b hr1
    _ = W4 m c (Proc.devRef .tc b) := W5_of_ne m c b hr0
    _ = W3 m c (Proc.devRef .tc b) := StableHlo.after_of_writes_sub hostOps0_3 _ hostOps0_3_writes h3
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

theorem W8_main_arg0 (c : Dev nD) : W8 m c (Proc.devRef .tc main_arg0) = m ((c : Thread nD τ).loc main_arg0) :=
  W8_of_untouched m c main_arg0 (by decide) (by decide) (by decide) (by decide) (by decide) (by decide) (by decide) (by decide)
theorem W8_main_arg1 (c : Dev nD) : W8 m c (Proc.devRef .tc main_arg1) = m ((c : Thread nD τ).loc main_arg1) :=
  W8_of_untouched m c main_arg1 (by decide) (by decide) (by decide) (by decide) (by decide) (by decide) (by decide) (by decide)
theorem W8_main_arg2 (c : Dev nD) : W8 m c (Proc.devRef .tc main_arg2) = m ((c : Thread nD τ).loc main_arg2) :=
  W8_of_untouched m c main_arg2 (by decide) (by decide) (by decide) (by decide) (by decide) (by decide) (by decide) (by decide)
theorem W8_main_arg4 (c : Dev nD) : W8 m c (Proc.devRef .tc main_arg4) = m ((c : Thread nD τ).loc main_arg4) :=
  W8_of_untouched m c main_arg4 (by decide) (by decide) (by decide) (by decide) (by decide) (by decide) (by decide) (by decide)
/-- The weight matrix is an input array of the feature launch, which leaves it as found. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := (W5_arr m c 1).trans (((dat0 (V4 m) c).arrAt_in 1 rfl _).trans (A_eq0 (V4 m) c 1))
    _ = W3 m c (Proc.devRef .tc main_arg3) := StableHlo.after_of_writes_sub hostOps0_3 _ hostOps0_3_writes (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-! ## The proof data family and the thread state -/

abbrev adm : (p : Fin 3) → (pcfgs (F := F) p).Adm := fun p => (cfgs p).toPCfg_adm
/-- Every launch's proof data, each at the contents its launch finds. -/
def pdats : (p : Fin 3) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V5 m) c
  | ⟨2, _⟩ => fun c => dat2 (V7 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- Launch 0 over the thread state: its arrays split out of the unscoped buffers and put back at the contents its
    write-backs leave; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays split out of the unscoped buffers and put back at the contents its
    write-backs leave; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V5 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: its arrays split out of the unscoped buffers and put back at the contents its
    write-backs leave; the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (V7 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .region (reg1 m),
    .host (hseg hostOps2 hostOps2_sub hostOps2_fresh (W6 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and at the end every unscoped buffer of every core holds the last contents named above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c)⟩) (run_all m ρ)

end Cert.KernelIdeal.Hand

end
-- ==== Proof.Val.KHost.lean ====
import proofs.«125517_j46789373723027_1_alg».proof.Proof.KI.Run
import proofs.«125517_j46789373723027_1_alg».proof.Proof.Gen.ReferenceIdeal.Read
import Idealize.ShloMosaic.Lib.ValueIdx
import Idealize.ShloMosaic.Lib.Pipeline.Value
import Idealize.ShloMosaic.Lib.StableHlo.Run
import Idealize.ShloMosaic.Lib.KernelVsHost
import Idealize.ShloMosaic.PureOps.Ideal.Laws

noncomputable section

open scoped BigOperators

namespace Cert.KernelIdeal.Hand

open Idealize.ShloMosaic Idealize.ShloMosaic.TcCoe Idealize.SL.Sem Idealize.ShloMosaic.ValueIdx

open Cert.KernelIdeal.Gen

/-! # What the host stretches leave in the buffers the three launches read

The kernel program's host operations compute the padded node matrix, the padded source and target index vectors and the
padded norm vector. Up to the padding these are the same operations, on the same arguments, as the reference program's:
the unpadded vectors are the reference's stages (its all-sources vector, all-targets vector and norm vector) of this
program's arguments. -/

/-! ## Each host stretch, from any contents

Every fact here is about one stretch of operations started from arbitrary buffer contents `V`, at any float
instance: what a buffer the stretch writes holds afterwards, as the operations' composed term over `V` at the
buffers the stretch reads. Where the composed term is a stage of the reference program, the buffers read are
assumed to hold the reference's earlier stages and the result is stated as the later stage; the two programs apply
the same operations in the same order, so the two terms agree operation by operation. -/

section Stretches

variable {F : FTy → Type} [FloatOps F]
variable (V : Valuation τ sig (Elt F))

open Cert.ReferenceIdeal.Read

/-- First stretch: the all-sources vector (row 0 of the edge array laid flat, then the node numbers). -/
theorem first_sources :
    (StableHlo.after hostOps0 V (Proc.devRef .tc main_v5) : (⟨S850000, .i32⟩ : BufTy).Contents (Elt F))
      = val_main_v6 (F := F) (V (Proc.devRef .tc main_arg1)) := by
  after_results
  rfl

/-- First stretch: the all-targets vector (row 1 of the edge array laid flat, then the node numbers). -/
theorem first_targets :
    (StableHlo.after hostOps0 V (Proc.devRef .tc main_v6) : (⟨S850000, .i32⟩ : BufTy).Contents (Elt F))
      = val_main_v7 (F := F) (V (Proc.devRef .tc main_arg1)) := by
  after_results
  rfl

/-- First stretch: the all-weights vector (the edge weights, then a one for every node's self loop). -/
theorem first_weights :
    (StableHlo.after hostOps0 V (Proc.devRef .tc main_v8) : (⟨S850000, .f32⟩ : BufTy).Contents (Elt F))
      = val_main_v9 (F := F) (V (Proc.devRef .tc main_arg2)) := by
  after_results
  rfl

/-- First stretch: which nodes have a positive degree (the weights scatter-added at the targets, compared with zero). -/
theorem first_positive :
    (StableHlo.after hostOps0 V (Proc.devRef .tc main_v13) : (⟨S50000, .i1⟩ : BufTy).Contents (Elt F))
      = val_main_v14 (F := F) (V (Proc.devRef .tc main_arg1)) (V (Proc.devRef .tc main_arg2)) := by
  after_results
  rfl

/-- First stretch: the reciprocal square roots of the degrees. -/
theorem first_rsqrt :
    (StableHlo.after hostOps0 V (Proc.devRef .tc main_v14) : (⟨S50000, .f32⟩ : BufTy).Contents (Elt F))
      = val_main_v15 (F := F) (V (Proc.devRef .tc main_arg1)) (V (Proc.devRef .tc main_arg2)) := by
  after_results
  rfl

/-- First stretch: the zero the select falls back to. -/
theorem first_zero :
    (StableHlo.after hostOps0 V (Proc.devRef .tc main_cst_2) : (⟨S_, .f32⟩ : BufTy).Contents (Elt F))
      = val_main_cst_2 (F := F) := by
  after_results
  rfl

/-- Second stretch (the inlined select): the inverse square-root degrees, zero where the degree is not positive. -/
theorem second_dinv (a1 : (⟨S2x800000, .i32⟩ : BufTy).Contents (Elt F)) (a2 : (⟨S800000, .f32⟩ : BufTy).Contents (Elt F))
    (hp : V (Proc.devRef .tc main_v13) = val_main_v14 (F := F) a1 a2)
    (hr : V (Proc.devRef .tc main_v14) = val_main_v15 (F := F) a1 a2)
    (hz : V (Proc.devRef .tc main_cst_2) = val_main_cst_2 (F := F)) :
    (StableHlo.after hostOps0_1 V (Proc.devRef .tc main_v15) : (⟨S50000, .f32⟩ : BufTy).Contents (Elt F))
      = val_main_v16 (F := F) a1 a2 := by
  after_results
  rw [hp, hr, hz]
  rfl

/-- Third stretch: the norm vector, when the stretch finds the reference's stages in the four buffers it reads. -/
theorem third_norm (a1 : (⟨S2x800000, .i32⟩ : BufTy).Contents (Elt F)) (a2 : (⟨S800000, .f32⟩ : BufTy).Contents (Elt F))
    (hs : V (Proc.devRef .tc main_v5) = val_main_v6 (F := F) a1)
    (ht : V (Proc.devRef .tc main_v6) = val_main_v7 (F := F) a1)
    (hw : V (Proc.devRef .tc main_v8) = val_main_v9 (F := F) a2)
    (hd : V (Proc.devRef .tc main_v15) = val_main_v16 (F := F) a1 a2) :
    (StableHlo.after hostOps0_2 V (Proc.devRef .tc main_v31) : (⟨S850000, .f32⟩ : BufTy).Contents (Elt F))
      = val_main_v32 (F := F) a1 a2 := by
  after_results_simp
  rw [hs, ht, hw, hd]
  rfl

/-- Third stretch: the source words followed by 944 zero words. -/
theorem third_sources_padded (a1 : (⟨S2x800000, .i32⟩ : BufTy).Contents (Elt F))
    (hs : V (Proc.devRef .tc main_v5) = val_main_v6 (F := F) a1) :
    (StableHlo.after hostOps0_2 V (Proc.devRef .tc main_v33) : (⟨S850944, .i32⟩ : BufTy).Contents (Elt F))
      = concatenate S850944 0 [⟨S850000, val_main_v6 (F := F) a1⟩,
          ⟨S944, broadcastInDim S944 ![] bcast_S_S944 (constantI S_ 32 0#32)⟩] concatenates_S850000_S944_S850944_d0 := by
  after_results_simp
  refine congrArg₂ (fun a b => concatenate S850944 0 [⟨S850000, a⟩, ⟨S944, b⟩] concatenates_S850000_S944_S850944_d0) ?_ ?_
  · after_results_simp
    exact hs
  · after_results_simp

/-- Third stretch: the target words followed by 944 zero words. -/
theorem third_targets_padded (a1 : (⟨S2x800000, .i32⟩ : BufTy).Contents (Elt F))
    (ht : V (Proc.devRef .tc main_v6) = val_main_v7 (F := F) a1) :
    (StableHlo.after hostOps0_2 V (Proc.devRef .tc main_v35) : (⟨S850944, .i32⟩ : BufTy).Contents (Elt F))
      = concatenate S850944 0 [⟨S850000, val_main_v7 (F := F) a1⟩,
          ⟨S944, broadcastInDim S944 ![] bcast_S_S944 (constantI S_ 32 0#32)⟩] concatenates_S850000_S944_S850944_d0 := by
  after_results_simp
  refine congrArg₂ (fun a b => concatenate S850944 0 [⟨S850000, a⟩, ⟨S944, b⟩] concatenates_S850000_S944_S850944_d0) ?_ ?_
  · after_results_simp
    exact ht
  · after_results_simp

/-- Third stretch: the norms followed by 944 zeros. -/
theorem third_norm_padded (a1 : (⟨S2x800000, .i32⟩ : BufTy).Contents (Elt F)) (a2 : (⟨S800000, .f32⟩ : BufTy).Contents (Elt F))
    (hs : V (Proc.devRef .tc main_v5) = val_main_v6 (F := F) a1)
    (ht : V (Proc.devRef .tc main_v6) = val_main_v7 (F := F) a1)
    (hw : V (Proc.devRef .tc main_v8) = val_main_v9 (F := F) a2)
    (hd : V (Proc.devRef .tc main_v15) = val_main_v16 (F := F) a1 a2) :
    (StableHlo.after hostOps0_2 V (Proc.devRef .tc main_v37) : (⟨S850944, .f32⟩ : BufTy).Contents (Elt F))
      = concatenate S850944 0 [⟨S850000, val_main_v32 (F := F) a1 a2⟩,
          ⟨S944, broadcastInDim S944 ![] bcast_S_S944 (constant (F := F) S_ .f32 0x00000000#32)⟩] concatenates_S850000_S944_S850944_d0 := by
  after_results_simp
  refine congrArg₂ (fun a b => concatenate S850944 0 [⟨S850000, a⟩, ⟨S944, b⟩] concatenates_S850000_S944_S850944_d0) ?_ ?_
  · after_results_simp
    rw [hs, ht, hw, hd]
    rfl
  · after_results_simp

/-- Third stretch: the integer zero the padding of the node matrix is converted from. -/
theorem third_zero_word :
    (StableHlo.after hostOps0_2 V (Proc.devRef .tc main_c_9) : (⟨S_, .i32⟩ : BufTy).Contents (Elt F)) = constantI S_ 32 0#32 := by
  after_results_simp

/-- Fourth stretch (the inlined pad): the node matrix with 1200 rows of the converted zero below it. -/
theorem fourth_nodes_padded (x0 : (⟨S50000x128, .f32⟩ : BufTy).Contents (Elt F))
    (hx : V (Proc.devRef .tc main_arg0) = x0) (hc : V (Proc.devRef .tc main_c_9) = constantI S_ 32 0#32) :
    (StableHlo.after hostOps0_3 V (Proc.devRef .tc main_v38) : (⟨S51200x128, .f32⟩ : BufTy).Contents (Elt F))
      = pad S51200x128 ![0, 0] ![1200, 0] ![0, 0] x0 (sitofp (F := F) .f32 (constantI S_ 32 0#32))
          pads_S50000x128_S51200x128_012000_000 h_S_ := by
  after_results
  rw [hx, hc]
  rfl

/-- The last host operation: the bias laid out as one row. -/
theorem bias_row (b : (⟨S128, .f32⟩ : BufTy).Contents (Elt F)) (hb : V (Proc.devRef .tc main_arg4) = b) :
    (StableHlo.after hostOps2 V (Proc.devRef .tc main_v41) : (⟨S1x128, .f32⟩ : BufTy).Contents (Elt F))
      = shapeCast S1x128 b shapeCasts_S128_S1x128 := by
  after_results
  rw [hb]
  rfl

end Stretches

/-! ## The layout operations read at an index -/

section Reads

/-- A vector of 850000 entries followed by 944 entries that all equal `z0`, read at an entry. -/
theorem padded_vector_apply {α : Type} (v : S850000.Idx → α) (z : S944.Idx → α) (z0 : α) (hz : ∀ i, z i = z0) (e : Fin 850944) :
    concatenate S850944 0 [⟨S850000, v⟩, ⟨S944, z⟩] concatenates_S850000_S944_S850944_d0 (ix1 e)
      = if h : e.val < 850000 then v (ix1 ⟨e.val, h⟩) else z0 := by
  by_cases h : e.val < 850000
  · rw [dif_pos h]
    exact concatenate_pair_apply_left 0 v z concatenates_S850000_S944_S850944_d0 (ix1 e) rfl (ix1 ⟨e.val, h⟩)
      (fun b => match b with | ⟨0, _⟩ => rfl)
  · rw [dif_neg h]
    have h2 : e.val - 850000 < 944 := by have := e.isLt; omega
    refine (concatenate_pair_apply_right 0 v z concatenates_S850000_S944_S850944_d0 (ix1 e) rfl rfl (ix1 ⟨e.val - 850000, h2⟩)
      (fun b hb => absurd (Subsingleton.elim _ _) hb) ?_).trans (hz _)
    show (e.val - 850000) + 850000 = e.val
    omega

/-- The node matrix with 1200 rows of `v`'s one entry, `v0`, below it, read at an entry. -/
theorem padded_matrix_apply {α : Type} (x : S50000x128.Idx → α) (v : S_.Idx → α) (v0 : α) (hv : v ix0 = v0)
    (r : Fin 51200) (k : Fin 128) :
    pad S51200x128 ![0, 0] ![1200, 0] ![0, 0] x v pads_S50000x128_S51200x128_012000_000 h_S_ (ix2 r k)
      = if h : r.val < 50000 then x (ix2 ⟨r.val, h⟩ k) else v0 := by
  by_cases h : r.val < 50000
  · rw [dif_pos h]
    exact pad_apply_of_inside _ _ _ x v pads_S50000x128_S51200x128_012000_000 h_S_ (ix2 r k) (ix2 ⟨r.val, h⟩ k)
      (fun a => match a with
        | ⟨0, _⟩ => by show r.val = 0 + r.val * (0 + 1); omega
        | ⟨1, _⟩ => by show k.val = 0 + k.val * (0 + 1); omega)
  · rw [dif_neg h]
    refine (pad_apply_of_not_inside _ _ _ x v pads_S50000x128_S51200x128_012000_000 h_S_ (ix2 r k) (0 : Fin 2) ?_).trans
      ((congrArg v (eq_ix0 _)).trans hv)
    intro hin
    have h3 : (r.val - 0) / (0 + 1) < 50000 := hin.2.2
    omega

/-- A vector of 128 entries laid out as one row, read at an entry of the row. -/
theorem one_row_apply {α : Type} (b : S128.Idx → α) (j : Fin 128) :
    shapeCast S1x128 b shapeCasts_S128_S1x128 (ix2 0 j) = b (ix1 j) :=
  shapeCast_apply b shapeCasts_S128_S1x128 (ix2 0 j) (ix1 j)
    (by rw [Shape.rowMajor_val_one, Shape.rowMajor_val_two]; show j.val = 0 * 128 + j.val; omega)

end Reads

/-! ## The buffers between the items of the program

The stretch facts chained along the program's order: a buffer is followed back through every item that does not write
it to the stretch that does, and that stretch's fact is applied to the contents the earlier items left. -/

section Buffers

variable {F : FTy → Type} [FloatOps F]
variable (μ : (ℓ : Loc nD τ sig) → Buf (Elt F) ℓ) (c : Dev nD)

open Cert.ReferenceIdeal.Read

/-- The inlined select does not write the all-sources vector. -/
theorem sources_second :
    W2 μ c (Proc.devRef .tc main_v5) = val_main_v6 (F := F) (μ ((c : Thread nD τ).loc main_arg1)) :=
  (StableHlo.after_of_writes_sub hostOps0_1 _ hostOps0_1_writes (by decide)).trans (first_sources (W0 μ c))

/-- The inlined select does not write the all-targets vector. -/
theorem targets_second :
    W2 μ c (Proc.devRef .tc main_v6) = val_main_v7 (F := F) (μ ((c : Thread nD τ).loc main_arg1)) :=
  (StableHlo.after_of_writes_sub hostOps0_1 _ hostOps0_1_writes (by decide)).trans (first_targets (W0 μ c))

/-- The inlined select does not write the all-weights vector. -/
theorem weights_second :
    W2 μ c (Proc.devRef .tc main_v8) = val_main_v9 (F := F) (μ ((c : Thread nD τ).loc main_arg2)) :=
  (StableHlo.after_of_writes_sub hostOps0_1 _ hostOps0_1_writes (by decide)).trans (first_weights (W0 μ c))

/-- After the inlined select: the inverse square-root degrees, as the reference computes them. -/
theorem dinv_second :
    W2 μ c (Proc.devRef .tc main_v15)
      = val_main_v16 (F := F) (μ ((c : Thread nD τ).loc main_arg1)) (μ ((c : Thread nD τ).loc main_arg2)) :=
  second_dinv (W1 μ c) _ _ (first_positive (W0 μ c)) (first_rsqrt (W0 μ c)) (first_zero (W0 μ c))

/-- The first three stretches do not write the node matrix. -/
theorem nodes_third : W3 μ c (Proc.devRef .tc main_arg0) = μ ((c : Thread nD τ).loc main_arg0) :=
  calc W3 μ c (Proc.devRef .tc main_arg0)
    _ = W2 μ c (Proc.devRef .tc main_arg0) := StableHlo.after_of_writes_sub hostOps0_2 _ hostOps0_2_writes (by decide)
    _ = W1 μ c (Proc.devRef .tc main_arg0) := StableHlo.after_of_writes_sub hostOps0_1 _ hostOps0_1_writes (by decide)
    _ = W0 μ c (Proc.devRef .tc main_arg0) := StableHlo.after_of_writes_sub hostOps0 _ hostOps0_writes (by decide)
    _ = μ ((c : Thread nD τ).loc main_arg0) := rfl

/-- No host stretch writes the bias and neither of the first two launches has it as an array. -/
theorem bias_sixth : W6 μ c (Proc.devRef .tc main_arg4) = μ ((c : Thread nD τ).loc main_arg4) :=
  calc W6 μ c (Proc.devRef .tc main_arg4)
    _ = W5 μ c (Proc.devRef .tc main_arg4) := W6_of_ne μ c main_arg4 (by decide)
    _ = W4 μ c (Proc.devRef .tc main_arg4) := W5_of_ne μ c main_arg4 (by decide)
    _ = W3 μ c (Proc.devRef .tc main_arg4) := StableHlo.after_of_writes_sub hostOps0_3 _ hostOps0_3_writes (by decide)
    _ = W2 μ c (Proc.devRef .tc main_arg4) := StableHlo.after_of_writes_sub hostOps0_2 _ hostOps0_2_writes (by decide)
    _ = W1 μ c (Proc.devRef .tc main_arg4) := StableHlo.after_of_writes_sub hostOps0_1 _ hostOps0_1_writes (by decide)
    _ = W0 μ c (Proc.devRef .tc main_arg4) := StableHlo.after_of_writes_sub hostOps0 _ hostOps0_writes (by decide)
    _ = μ ((c : Thread nD τ).loc main_arg4) := rfl

/-- What the feature launch finds in its node-matrix array. -/
theorem nodes_at_features :
    (V4 μ c main_v38 : (⟨S51200x128, .f32⟩ : BufTy).Contents (Elt F))
      = pad S51200x128 ![0, 0] ![1200, 0] ![0, 0] (μ ((c : Thread nD τ).loc main_arg0) : (⟨S50000x128, .f32⟩ : BufTy).Contents (Elt F))
          (sitofp (F := F) .f32 (constantI S_ 32 0#32)) pads_S50000x128_S51200x128_012000_000 h_S_ :=
  fourth_nodes_padded (W3 μ c) _ (nodes_third μ c) (third_zero_word (W2 μ c))

/-- What the gather launch finds in its source-word array: the pad and the feature launch leave it as the third stretch wrote it. -/
theorem sources_at_gather :
    (V5 μ c main_v33 : (⟨S850944, .i32⟩ : BufTy).Contents (Elt F))
      = concatenate S850944 0 [⟨S850000, val_main_v6 (F := F) (μ ((c : Thread nD τ).loc main_arg1))⟩,
          ⟨S944, broadcastInDim S944 ![] bcast_S_S944 (constantI S_ 32 0#32)⟩] concatenates_S850000_S944_S850944_d0 :=
  (W5_of_ne μ c main_v33 (by decide)).trans
    ((StableHlo.after_of_writes_sub hostOps0_3 _ hostOps0_3_writes (by decide)).trans
      (third_sources_padded (W2 μ c) _ (sources_second μ c)))

/-- What the gather launch finds in its norm array. -/
theorem norms_at_gather :
    (V5 μ c main_v37 : (⟨S850944, .f32⟩ : BufTy).Contents (Elt F))
      = concatenate S850944 0 [⟨S850000, val_main_v32 (F := F) (μ ((c : Thread nD τ).loc main_arg1)) (μ ((c : Thread nD τ).loc main_arg2))⟩,
          ⟨S944, broadcastInDim S944 ![] bcast_S_S944 (constant (F := F) S_ .f32 0x00000000#32)⟩] concatenates_S850000_S944_S850944_d0 :=
  (W5_of_ne μ c main_v37 (by decide)).trans
    ((StableHlo.after_of_writes_sub hostOps0_3 _ hostOps0_3_writes (by decide)).trans
      (third_norm_padded (W2 μ c) _ _ (sources_second μ c) (targets_second μ c) (weights_second μ c) (dinv_second μ c)))

/-- What the scatter launch finds in its target-word array: the pad, two launches and the reshape of the bias leave it
    as the third stretch wrote it. -/
theorem targets_at_scatter :
    (V7 μ c main_v35 : (⟨S850944, .i32⟩ : BufTy).Contents (Elt F))
      = concatenate S850944 0 [⟨S850000, val_main_v7 (F := F) (μ ((c : Thread nD τ).loc main_arg1))⟩,
          ⟨S944, broadcastInDim S944 ![] bcast_S_S944 (constantI S_ 32 0#32)⟩] concatenates_S850000_S944_S850944_d0 :=
  (StableHlo.after_of_writes_sub hostOps2 _ hostOps2_writes (by decide)).trans
    ((W6_of_ne μ c main_v35 (by decide)).trans
      ((W5_of_ne μ c main_v35 (by decide)).trans
        ((StableHlo.after_of_writes_sub hostOps0_3 _ hostOps0_3_writes (by decide)).trans
          (third_targets_padded (W2 μ c) _ (targets_second μ c)))))

/-- What the scatter launch finds in its bias array. -/
theorem bias_at_scatter :
    (V7 μ c main_v41 : (⟨S1x128, .f32⟩ : BufTy).Contents (Elt F))
      = shapeCast S1x128 (μ ((c : Thread nD τ).loc main_arg4) : (⟨S128, .f32⟩ : BufTy).Contents (Elt F)) shapeCasts_S128_S1x128 :=
  bias_row (W6 μ c) _ (bias_sixth μ c)

end Buffers

variable (m : (ℓ : Loc nD τ sig) → Buf (Elt Ideal) ℓ)

/-! ## The nine facts at the ideal values

At the ideal values the converted integer zero and the zero word of the float format are the extended real `0`. -/

/-- The padded node matrix: the node features in rows below 50000, zero rows above. -/
theorem host_x (c : Dev nD) (r : Fin 51200) (k : Fin 128) :
    (V4 m c main_v38 : S51200x128.Idx → EReal) (ix2 r k)
      = if h : r.val < 50000 then (m ((c : Thread nD τ).loc main_arg0) : S50000x128.Idx → EReal) (ix2 ⟨r.val, h⟩ k) else (0 : EReal) :=
  (congrFun (nodes_at_features m c) (ix2 r k)).trans
    (padded_matrix_apply _ _ (0 : EReal) (sitofp_zero (φ := .f32)) r k)

/-- The weight matrix is as launched. -/
theorem host_w (c : Dev nD) : V4 m c main_arg3 = m ((c : Thread nD τ).loc main_arg3) :=
  calc W4 m c (Proc.devRef .tc main_arg3)
    _ = W3 m c (Proc.devRef .tc main_arg3) := StableHlo.after_of_writes_sub hostOps0_3 _ hostOps0_3_writes (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

/-- The padded source words: the reference's all-sources vector below 850000, zero words above. -/
theorem host_src (c : Dev nD) (e : Fin 850944) :
    (V5 m c main_v33 : S850944.Idx → BitVec 32) (ix1 e)
      = if h : e.val < 850000 then Cert.ReferenceIdeal.Read.val_main_v6 (F := Ideal) (m ((c : Thread nD τ).loc main_arg1)) (ix1 ⟨e.val, h⟩) else 0#32 :=
  (congrFun (sources_at_gather m c) (ix1 e)).trans
    (padded_vector_apply _ _ 0#32 (fun _ => rfl) e)

/-- The padded norms: the reference's norm vector below 850000, zeros above. -/
theorem host_norm (c : Dev nD) (e : Fin 850944) :
    (V5 m c main_v37 : S850944.Idx → EReal) (ix1 e)
      = if h : e.val < 850000 then Cert.ReferenceIdeal.Read.val_main_v32 (F := Ideal) (m ((c : Thread nD τ).loc main_arg1)) (m ((c : Thread nD τ).loc main_arg2)) (ix1 ⟨e.val, h⟩) else (0 : EReal) :=
  (congrFun (norms_at_gather m c) (ix1 e)).trans
    (padded_vector_apply _ _ (0 : EReal) (fun _ => Ideal.ofBits_zero_f32) e)

/-- The gather launch reads the feature launch's output. -/
theorem host_feat (c : Dev nD) : V5 m c main_v39 = (dat0 (V4 m) c).arrAt 2 cfg0.N := W5_arr m c 2

/-- The padded target words: the reference's all-targets vector below 850000, zero words above. -/
theorem host_dst (c : Dev nD) (e : Fin 850944) :
    (V7 m c main_v35 : S850944.Idx → BitVec 32) (ix1 e)
      = if h : e.val < 850000 then Cert.ReferenceIdeal.Read.val_main_v7 (F := Ideal) (m ((c : Thread nD τ).loc main_arg1)) (ix1 ⟨e.val, h⟩) else 0#32 :=
  (congrFun (targets_at_scatter m c) (ix1 e)).trans
    (padded_vector_apply _ _ 0#32 (fun _ => rfl) e)

/-- The scatter launch reads the gather launch's output. -/
theorem host_msgs (c : Dev nD) : V7 m c main_v40 = (dat1 (V5 m) c).arrAt 3 cfg1.N :=
  (StableHlo.after_of_writes_sub hostOps2 _ hostOps2_writes (by decide)).trans (W6_arr m c 3)

/-- The bias as one row. -/
theorem host_bias (c : Dev nD) (j : Fin 128) :
    (V7 m c main_v41 : S1x128.Idx → EReal) (ix2 0 j) = (m ((c : Thread nD τ).loc main_arg4) : S128.Idx → EReal) (ix1 j) :=
  (congrFun (bias_at_scatter m c) (ix2 0 j)).trans (one_row_apply _ j)

/-- The result buffer at the end is what the scatter launch's write-backs leave. -/
theorem host_result (c : Dev nD) : W8 m c (Proc.devRef .tc main_v42) = (dat2 (V7 m) c).arrAt 3 cfg2.N := W8_arr m c 3

end Cert.KernelIdeal.Hand

end
-- ==== Proof.Val.OneHot.lean ====
import Idealize.ShloMosaic.PureOps.Ideal

noncomputable section

namespace Gcn

open Idealize.ShloMosaic

/-- The weight a one-hot row gives position n when the stored index word is b: one if the word is n, else zero. -/
def oh (b : BitVec 32) (n : ℕ) : EReal := if b = BitVec.ofNat 32 n then 1 else 0

theorem oh_eq (b : BitVec 32) (n : ℕ) (h : b = BitVec.ofNat 32 n) : oh b n = 1 := if_pos h
theorem oh_ne (b : BitVec 32) (n : ℕ) (h : b ≠ BitVec.ofNat 32 n) : oh b n = 0 := if_neg h

end Gcn

end
-- ==== Proof.Val.Feat.lean ====
import proofs.«125517_j46789373723027_1_alg».proof.Proof.KI.Matmul
import proofs.«125517_j46789373723027_1_alg».proof.Proof.Val.OneHot
import Idealize.ShloMosaic.Lib.ValueIdx
import Idealize.ShloMosaic.Lib.Pipeline.Value
import Idealize.ShloMosaic.PureOps.Ideal.Laws
import Idealize.ShloMosaic.Lib.StackMember

noncomputable section

open scoped BigOperators

namespace Cert.KernelIdeal.Hand

open Idealize.ShloMosaic Idealize.ShloMosaic.TcCoe Idealize.SL.Sem Idealize.ShloMosaic.ValueIdx

open Cert.KernelIdeal.Gen Gcn
open Idealize.ShloMosaic.Tactic

variable (V : (c : Dev nD) → (b : Ref sig .tc) → Buf (Elt Ideal) ((c : Thread nD τ).loc b))

namespace Feat

/-! # The feature launch's output array is the padded node matrix times the weight matrix

Each of the ten grid points loads a block of 5120 rows of the padded node matrix and the whole 128 × 128 weight matrix,
multiplies them on the matrix unit into a zero accumulator and stores the product as that block of rows of the output.
Entry (r, j) of a product reads row r of the left factor only, so the product of a block of rows is that block of rows
of the product of the whole matrix; the ten blocks tile the 51200 rows. -/

theorem zeroOffsets : (![0, 0] : Fin 2 → Nat) = fun _ => 0 := funext fun a => by fin_cases a <;> rfl

/-- What the body leaves in the output block: one store, through the whole block, of the body's arithmetic applied to
    the two loaded blocks. For every float instance. -/
theorem out0_2_eq {F : FTy → Type} [FloatOps F] (c : Dev nD) (i : grid0.Coords)
    (arg1 : Memref sig .tc .vmem S5120x128 .f32) (harg1 : arg1.IsWhole)
    (arg2 : Memref sig .tc .vmem S128x128 .f32) (harg2 : arg2.IsWhole)
    (arg3 : Memref sig .tc .vmem S5120x128 .bf16) (harg3 : arg3.IsWhole)
    (x0 : Vec F S5120x128 .f32) (x1 : Vec F S128x128 .f32) :
    out0_2 (F := F) c i arg1 harg1 arg2 harg2 arg3 harg3 x0 x1 = k0_pay1 x0 x1 := by
  unfold out0_2
  rw [View.read_writes_eq_canon _ _ _ (cover0_2 c i arg1 harg1 arg2 harg2 arg3 harg3 x0 x1)]
  unfold kernelRun0
  dsimp only
  sl_unfold_words
  rw [View.canon_unit_zero zeroOffsets]
  simp only [View.readAt_eq_ld, harg1.read_unread, harg2.read_unread, View.ld_unit_zero (S := S5120x128) zeroOffsets,
    View.ld_unit_zero (S := S128x128) zeroOffsets]

/-- The matrix unit's dimension numbers here are the plain ones: rows by contraction times contraction by columns. -/
theorem dot_eq_plain : dot_S5120x128_S128x128_S5120x128_1_0_0_1_n_n = DotDims.plain 5120 128 128 := rfl

/-- The body's arithmetic at entry (r, j), at the exact instance: narrowing to bf16 is the identity on extended reals,
    and a product into the zero accumulator is the sum over the contracted coordinate of the products of the entries. -/
theorem pay_apply (x0 : FVec Ideal S5120x128 .f32) (x1 : FVec Ideal S128x128 .f32) (r : Fin 5120) (j : Fin 128) :
    k0_pay1 (F := Ideal) x0 x1 (ix2 r j) = ∑ k : Fin 128, x0 (ix2 r k) * x1 (ix2 k j) := by
  unfold k0_pay1
  rw [dot_eq_plain]
  refine (truncf_apply (ψ := .bf16) _ bitsLt_bf16_f32 (ix2 r j)).trans ?_
  refine (Ideal.matmul_constant_zero_apply (DotDims.plain 5120 128 128) none _ _ (ix2 r j)).trans ?_
  refine (Ideal.dotGeneral_apply (DotDims.plain 5120 128 128) none .single _ _ (ix2 r j)).symm.trans ?_
  refine (StackMember.dotGeneral_plain_apply none _ _ r j).trans ?_
  simp only [truncf_apply, shapeCast_self]

/-! ## From the ten blocks to the array -/

/-- The product of a matrix of 51200 rows of 128 entries with a 128 × 128 matrix, entry by entry. -/
def rowsTimes (X : S51200x128.Idx → EReal) (W : S128x128.Idx → EReal) : S51200x128.Idx → EReal :=
  fun i => ∑ k : Fin 128, X (ix2 (i 0) k) * W (ix2 k (i 1))

theorem rowsTimes_apply (X : S51200x128.Idx → EReal) (W : S128x128.Idx → EReal) (r : Fin 51200) (j : Fin 128) :
    rowsTimes X W (ix2 r j) = ∑ k : Fin 128, X (ix2 r k) * W (ix2 k j) := rfl

/-- A block of rows: when row p of the left block is row σ p of the whole left matrix and the right block is the whole
    right matrix, entry (p, q) of the block's product is entry (σ p, q) of the whole product. -/
theorem block_rows (X : S51200x128.Idx → EReal) (W : S128x128.Idx → EReal)
    (x0 : FVec Ideal S5120x128 .f32) (x1 : FVec Ideal S128x128 .f32) (σ : Fin 5120 → Fin 51200)
    (hx0 : ∀ p k, x0 (ix2 p k) = X (ix2 (σ p) k)) (hx1 : ∀ k q, x1 (ix2 k q) = W (ix2 k q))
    (p : Fin 5120) (q : Fin 128) :
    k0_pay1 (F := Ideal) x0 x1 (ix2 p q) = rowsTimes X W (ix2 (σ p) q) := by
  rw [pay_apply, rowsTimes_apply]
  simp only [hx0, hx1]

/-- The printed index maps over the ten grid points: the left operand's and the output's block index is (t, 0), the
    weight matrix's is (0, 0); and the output is written back at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ (cfg0.win 2).flush t = true :=
  (by decide +kernel : ∀ t : Fin grid0.N, _)

/-- What point t writes back is block t of the product of the two arrays as the launch finds them. -/
theorem flushed_eq (c : Dev nD) (t : Fin cfg0.N) :
    (dat0 (F := Ideal) V c).flushed 2 t
      = ((cfg0.win 2).blk t).view.read (Elt Ideal) (rowsTimes (V c main_v38) (V c main_arg3)) := by
  show (cfg0.win 2).cut (grid0.coords t) ((dat0 V c).after 2 t) = _
  rw [after0_2, out0_2_eq]
  obtain ⟨e00, e01, e10, e11, e20, e21, -⟩ := index_facts t
  have ht : t.val < 10 := lt_of_lt_of_eq (show t.val < grid0.N from t.isLt) N_0
  funext y
  have hy0 : (y 0).val < 5120 := (y 0).isLt
  have hy1 : (y 1).val < 128 := (y 1).isLt
  have hxi : (cfg0.win 2).xinj (grid0.coords t) y = ix2 (⟨(y 0).val, hy0⟩ : Fin 5120) (⟨(y 1).val, hy1⟩ : Fin 128) :=
    funext fun a => by match a with | ⟨0, _⟩ => rfl | ⟨1, _⟩ => rfl
  refine (congrArg (k0_pay1 (F := Ideal) (iblk0 V c 0 t) (iblk0 V c 1 t)) hxi).trans ?_
  refine (block_rows (V c main_v38) (V c main_arg3) (iblk0 V c 0 t) (iblk0 V c 1 t)
    (fun p => ⟨t.val * 5120 + p.val, by have := p.isLt; omega⟩) ?_ ?_ ⟨(y 0).val, hy0⟩ ⟨(y 1).val, hy1⟩).trans ?_
  · intro p k
    show V c main_v38 (((cfg0.win 0).blk t).view.emb (ix2 p k)) = _
    refine congrArg (V c main_v38) ?_
    funext a; apply Fin.ext
    match a with
    | ⟨0, _⟩ => show win0_0.index t (0 : Fin 2) * 5120 + 1 * p.val = t.val * 5120 + p.val; rw [e00]; omega
    | ⟨1, _⟩ => show win0_0.index t (1 : Fin 2) * 128 + 1 * k.val = k.val; rw [e01]; omega
  · intro k q
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  · show _ = rowsTimes (V c main_v38) (V c main_arg3) (((cfg0.win 2).blk t).view.emb y)
    refine congrArg (rowsTimes (V c main_v38) (V c main_arg3)) ?_
    funext a; apply Fin.ext
    match a with
    | ⟨0, _⟩ => show t.val * 5120 + (y 0).val = win0_2.index t (0 : Fin 2) * 5120 + 1 * (y 0).val; rw [e20]; omega
    | ⟨1, _⟩ => show (y 1).val = win0_2.index t (1 : Fin 2) * 128 + 1 * (y 1).val; rw [e21]; omega

/-- An index of the output array lies in point t's block exactly when, on each axis, its coordinate is in the block's range. -/
theorem mem_blk (t : Fin cfg0.N) (i : S51200x128.Idx) :
    i ∈ ((cfg0.win 2).blk t).view.set ↔ ∀ a : Fin 2, win0_2.index t a * S5120x128.size a ≤ (i a).val
      ∧ (i a).val < win0_2.index t a * S5120x128.size a + S5120x128.size a := by
  show i ∈ ((View.whole main_v39).slice (win0_2.rect t)).set ↔ _
  rw [View.set_slice_whole, Rect.mem_set_unit]
  exact Iff.rfl

/-- The ten blocks cover the array: row r lies in the block of point r / 5120. -/
theorem covered (i : S51200x128.Idx) :
    ∃ t : Fin cfg0.N, (cfg0.win 2).flush t = true ∧ i ∈ ((cfg0.win 2).blk t).view.set := by
  have hi0 : (i 0).val < 51200 := idx2_lt0 i
  have hi1 : (i 1).val < 128 := idx2_lt1 i
  have hlt : (i 0).val / 5120 < grid0.N := by rw [N_0]; omega
  obtain ⟨-, -, -, -, e20, e21, hf⟩ := index_facts ⟨(i 0).val / 5120, hlt⟩
  refine ⟨⟨(i 0).val / 5120, hlt⟩, hf, ?_⟩
  rw [mem_blk]
  intro a
  match a with
  | ⟨0, _⟩ =>
    show win0_2.index ⟨(i 0).val / 5120, hlt⟩ (0 : Fin 2) * 5120 ≤ (i 0).val
      ∧ (i 0).val < win0_2.index ⟨(i 0).val / 5120, hlt⟩ (0 : Fin 2) * 5120 + 5120
    rw [e20]; show (i 0).val / 5120 * 5120 ≤ (i 0).val ∧ (i 0).val < (i 0).val / 5120 * 5120 + 5120; omega
  | ⟨1, _⟩ =>
    show win0_2.index ⟨(i 0).val / 5120, hlt⟩ (1 : Fin 2) * 128 ≤ (i 1).val
      ∧ (i 1).val < win0_2.index ⟨(i 0).val / 5120, hlt⟩ (1 : Fin 2) * 128 + 128
    rw [e21]; omega

/-- So after the launch the output array is the product of the two arrays as the launch finds them. -/
theorem feat_array (c : Dev nD) :
    (dat0 (F := Ideal) V c).arrAt 2 cfg0.N = rowsTimes (V c main_v38) (V c main_arg3) :=
  (dat0 (F := Ideal) V c).arrAt_eq_of_cover 2 (rowsTimes (V c main_v38) (V c main_arg3))
    (fun t _ => flushed_eq V c t) covered

end Feat

/-- After the feature launch the output array holds, at row r and column j, the sum over k of the padded node
    row's entry k times the weight matrix's entry (k, j). (The three arrays enter as functions into the extended reals,
    tied to the buffers by equations: that keeps the sum's type plain.) -/
theorem feat_value (c : Dev nD) (xp y : S51200x128.Idx → EReal) (w : S128x128.Idx → EReal)
    (hxp : xp = V c main_v38) (hw : w = V c main_arg3) (hy : y = (dat0 (F := Ideal) V c).arrAt 2 cfg0.N)
    (r : Fin 51200) (j : Fin 128) :
    y (ix2 r j) = ∑ k : Fin 128, xp (ix2 r k) * w (ix2 k j) := by
  subst hxp hw hy
  exact (congrFun (Feat.feat_array V c) (ix2 r j)).trans (Feat.rowsTimes_apply _ _ r j)

end Cert.KernelIdeal.Hand

end
-- ==== Proof.Val.Msgs.lean ====
import proofs.«125517_j46789373723027_1_alg».proof.Proof.KI.Gather
import proofs.«125517_j46789373723027_1_alg».proof.Proof.Val.OneHot
import Idealize.ShloMosaic.Lib.ValueIdx
import Idealize.ShloMosaic.Lib.Pipeline.Value
import Idealize.ShloMosaic.PureOps.Ideal.Laws

noncomputable section

open scoped BigOperators

namespace Cert.KernelIdeal.Hand

open Idealize.ShloMosaic Idealize.ShloMosaic.TcCoe Idealize.SL.Sem Idealize.ShloMosaic.ValueIdx
open Idealize.ShloMosaic.Tactic

open Cert.KernelIdeal.Gen Gcn

/-! # The value of the gather launch

The launch walks 831 blocks of 1024 edges; for each block it walks the twenty chunks of 2560 node rows, adding to an
accumulator the product of the chunk's one-hot rows (edge e's row is one at the node its source word names) with the
chunk of the feature matrix, and leaves in the output block the accumulator times the edges' norms. After the last
chunk of a block the accumulator at (e, j) is the one-hot selection summed over all 51200 node rows; that is the
point at which the output block is written back, and the 831 blocks tile the message array. -/

namespace GatherVal

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- First chunk, the accumulator: zeroed, read back, and the chunk's product added. -/
theorem sout1_A_eq (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) :
    sout1_A c i arg2 harg2 arg3 harg3 arg4 harg4 arg5 harg5 arg6 harg6 hc x0 x1 x2 = k1_pay2 i x0 (k1_pay1 (F := F)) x2 := by
  unfold sout1_A
  rw [View.read_writes_eq_canon _ _ _ (scover1_A c i arg2 harg2 arg3 harg3 arg4 harg4 arg5 harg5 arg6 harg6 hc x0 x1 x2)]
  unfold kernelRun1_A
  dsimp only
  sl_unfold_words
  rw [View.canon_cons_unit_zero (S := S1024x128) hz2]
  simp only [View.readCov_cons_toLoadRect, View.readAt_eq_ld, harg2.read_unread, harg3.read_unread, harg4.read_unread, harg6.read_unread, View.ld_unit_zero (S := S1024) hz1, View.ld_unit_zero (S := S2560x128) hz2, View.ld_unit_zero (S := S1024x128) hz2]

/-- First chunk, the output block: the accumulator just written, scaled by the norms. -/
theorem out1_A_eq (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : cond1 i) (x0 : Vec F S1024 .i32) (x1 : Vec F S1024 .f32) (x2 : Vec F S2560x128 .bf16) :
    out1_A c i arg2 harg2 arg3 harg3 arg4 harg4 arg5 harg5 arg6 harg6 hc x0 x1 x2 = k1_pay3 x1 (k1_pay2 i x0 (k1_pay1 (F := F)) x2) := by
  unfold out1_A
  rw [View.read_writes_eq_canon _ _ _ (cover1_A c i arg2 harg2 arg3 harg3 arg4 harg4 arg5 harg5 arg6 harg6 hc x0 x1 x2)]
  unfold kernelRun1_A
  dsimp only
  sl_unfold_words
  rw [View.canon_unit_zero (S := S1024x128) hz2]
  simp only [View.readCov_cons_toLoadRect, View.readAt_eq_ld, harg2.read_unread, harg3.read_unread, harg4.read_unread, harg6.read_unread, View.ld_unit_zero (S := S1024) hz1, View.ld_unit_zero (S := S2560x128) hz2, View.ld_unit_zero (S := S1024x128) hz2]

/-- A later chunk, the accumulator: what it held plus the chunk's product. -/
theorem sout1_B_eq (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) :
    sout1_B c i arg2 harg2 arg3 harg3 arg4 harg4 arg5 harg5 arg6 harg6 hc x0 x1 x2 xs = k1_pay2 i x0 xs x2 := by
  unfold sout1_B
  rw [View.read_writes_eq_canon _ _ _ (scover1_B c i arg2 harg2 arg3 harg3 arg4 harg4 arg5 harg5 arg6 harg6 hc x0 x1 x2 xs)]
  unfold kernelRun1_B
  dsimp only
  sl_unfold_words
  rw [View.canon_unit_zero (S := S1024x128) hz2]
  simp only [View.readCov_cons_toLoadRect, View.readAt_eq_ld, harg2.read_unread, harg3.read_unread, harg4.read_unread, harg6.read_unread, View.ld_unit_zero (S := S1024) hz1, View.ld_unit_zero (S := S2560x128) hz2, View.ld_unit_zero (S := S1024x128) hz2]

/-- A later chunk, the output block: the accumulator just written, scaled by the norms. -/
theorem out1_B_eq (c : Dev nD) (i : grid1.Coords) (arg2 : Memref sig .tc .vmem S1024 .i32) (harg2 : arg2.IsWhole) (arg3 : Memref sig .tc .vmem S1024 .f32) (harg3 : arg3.IsWhole) (arg4 : Memref sig .tc .vmem S2560x128 .bf16) (harg4 : arg4.IsWhole) (arg5 : Memref sig .tc .vmem S1024x128 .bf16) (harg5 : arg5.IsWhole) (arg6 : Memref sig .tc .vmem S1024x128 .f32) (harg6 : arg6.IsWhole) (hc : ¬cond1 i) (x0 : Vec F S1024 .i32) (x1 : Vec F S1024 .f32) (x2 : Vec F S2560x128 .bf16) (xs : Vec F S1024x128 .f32) :
    out1_B c i arg2 harg2 arg3 harg3 arg4 harg4 arg5 harg5 arg6 harg6 hc x0 x1 x2 xs = k1_pay3 x1 (k1_pay2 i x0 xs x2) := by
  unfold out1_B
  rw [View.read_writes_eq_canon _ _ _ (cover1_B c i arg2 harg2 arg3 harg3 arg4 harg4 arg5 harg5 arg6 harg6 hc x0 x1 x2 xs)]
  unfold kernelRun1_B
  dsimp only
  sl_unfold_words
  rw [View.canon_unit_zero (S := S1024x128) hz2]
  simp only [View.readCov_cons_toLoadRect, View.readAt_eq_ld, harg2.read_unread, harg3.read_unread, harg4.read_unread, harg6.read_unread, View.ld_unit_zero (S := S1024) hz1, View.ld_unit_zero (S := S2560x128) hz2, View.ld_unit_zero (S := S1024x128) hz2]

end Pieces

section Payloads

/-! ## The body's arithmetic read at one entry, over the extended reals -/

/-- A word compared for equality, widened and converted, is one or zero. -/
theorem onehot_word (a b : BitVec 32) :
    (FloatOps.sitofp (F := Ideal) .f32 ((IntOp.cmpi .eq a b).setWidth 32) : EReal) = if b = a then 1 else 0 := by
  show ((((BitVec.ofBool (a == b)).setWidth 32).toInt : ℝ) : EReal) = _
  by_cases h : a = b
  · subst h
    rw [if_pos rfl, beq_self_eq_true, show ((BitVec.ofBool true).setWidth 32).toInt = 1 from by decide]
    simp
  · rw [if_neg (fun h' => h h'.symm), beq_eq_false_iff_ne.mpr h, show ((BitVec.ofBool false).setWidth 32).toInt = 0 from by decide]
    simp

/-- The position word of column k of chunk cc: the column's number plus the chunk's offset, as one word. -/
theorem chunk_word (cc k : ℕ) : BitVec.ofNat 32 k + BitVec.ofNat 32 cc * 2560#32 = BitVec.ofNat 32 (cc * 2560 + k) := by
  rw [BitVec.ofNat_add, BitVec.ofNat_mul]; exact BitVec.add_comm _ _

/-- A vector of 1024 entries viewed as a column and repeated along n columns reads, at (e, k), its entry e. -/
theorem col_apply {α : Type} {n : ℕ} (x : S1024.Idx → α) (h1 : S1024.ShapeCasts S1024) (h2 : S1024.ShapeCasts S1024x1)
    (hb : S1024x1.Broadcasts ⟨2, ![1024, n]⟩) (e : Fin 1024) (k : Fin n) :
    broadcastTo ⟨2, ![1024, n]⟩ (shapeCast S1024x1 (shapeCast S1024 x h1) h2) hb (ix2 e k) = x (ix1 e) := by
  refine (broadcastTo_apply _ hb (ix2 e k) (ix2 e (0 : Fin 1)) (fun a => ?_)).trans ?_
  · match a with
    | ⟨0, _⟩ => rfl
    | ⟨1, _⟩ => rfl
  · refine (shapeCast_apply _ h2 (ix2 e (0 : Fin 1)) (ix1 e) ?_).trans ?_
    · rewrite [Shape.rowMajor_val_one, Shape.rowMajor_val_two]; show e.val = e.val * 1 + 0; omega
    · exact congrFun (shapeCast_self x h1) (ix1 e)

theorem lhs_gather_0 (i : S1024x128.Idx) (q : dot_S1024x2560_S2560x128_S1024x128_1_0_0_1_n_n.contr.Idx) :
    (dot_S1024x2560_S2560x128_S1024x128_1_0_0_1_n_n.lhsIdx i q 0).val = (i 0).val := by
  unfold DotDims.lhsIdx
  rw [dif_neg (show ¬(0 : Fin S1024x2560.rank) ∈ dot_S1024x2560_S2560x128_S1024x128_1_0_0_1_n_n.lhsBatch by decide), dif_pos (show (0 : Fin S1024x2560.rank) ∈ dot_S1024x2560_S2560x128_S1024x128_1_0_0_1_n_n.lhsNonContracting by decide)]
  rfl
theorem lhs_gather_1 (i : S1024x128.Idx) (q : dot_S1024x2560_S2560x128_S1024x128_1_0_0_1_n_n.contr.Idx) :
    (dot_S1024x2560_S2560x128_S1024x128_1_0_0_1_n_n.lhsIdx i q 1).val = (q ⟨0, by decide⟩).val :=
  dot_S1024x2560_S2560x128_S1024x128_1_0_0_1_n_n.lhsIdx_val_of_single rfl i q
theorem rhs_gather_0 (i : S1024x128.Idx) (q : dot_S1024x2560_S2560x128_S1024x128_1_0_0_1_n_n.contr.Idx) :
    (dot_S1024x2560_S2560x128_S1024x128_1_0_0_1_n_n.rhsIdx i q 0).val = (q ⟨0, by decide⟩).val :=
  dot_S1024x2560_S2560x128_S1024x128_1_0_0_1_n_n.rhsIdx_val_of_single rfl i q
theorem rhs_gather_1 (i : S1024x128.Idx) (q : dot_S1024x2560_S2560x128_S1024x128_1_0_0_1_n_n.contr.Idx) :
    (dot_S1024x2560_S2560x128_S1024x128_1_0_0_1_n_n.rhsIdx i q 1).val = (i 1).val := by
  unfold DotDims.rhsIdx
  rw [dif_neg (show ¬(1 : Fin S2560x128.rank) ∈ dot_S1024x2560_S2560x128_S1024x128_1_0_0_1_n_n.rhsBatch by decide), dif_pos (show (1 : Fin S2560x128.rank) ∈ dot_S1024x2560_S2560x128_S1024x128_1_0_0_1_n_n.rhsNonContracting by decide)]
  rfl

/-- The chunk's matrix product into the zero block, at (e, j): the sum over the chunk's 2560 rows. -/
theorem gather_matmul_apply (L : FVec Ideal S1024x2560 .bf16) (R : FVec Ideal S2560x128 .bf16) (e : Fin 1024) (j : Fin 128) :
    matmul dot_S1024x2560_S2560x128_S1024x128_1_0_0_1_n_n none L R (constant (F := Ideal) S1024x128 .f32 0x00000000#32) (ix2 e j)
      = ∑ k : Fin 2560, L (ix2 e k) * R (ix2 k j) := by
  simp only [matmul]
  rw [Ideal.matmul_constant_zero_apply, ← Equiv.sum_comp (contrEquiv1 dot_S1024x2560_S2560x128_S1024x128_1_0_0_1_n_n 2560 rfl rfl).symm]
  refine Finset.sum_congr rfl fun k _ => ?_
  have hk := contrEquiv1_symm_val dot_S1024x2560_S2560x128_S1024x128_1_0_0_1_n_n 2560 rfl rfl k
  have el : dot_S1024x2560_S2560x128_S1024x128_1_0_0_1_n_n.lhsIdx (ix2 e j) ((contrEquiv1 dot_S1024x2560_S2560x128_S1024x128_1_0_0_1_n_n 2560 rfl rfl).symm k) = ix2 e k := funext fun a => Fin.ext (by
    match a with
    | ⟨0, _⟩ => exact lhs_gather_0 _ _
    | ⟨1, _⟩ => exact (lhs_gather_1 _ _).trans hk)
  have er : dot_S1024x2560_S2560x128_S1024x128_1_0_0_1_n_n.rhsIdx (ix2 e j) ((contrEquiv1 dot_S1024x2560_S2560x128_S1024x128_1_0_0_1_n_n 2560 rfl rfl).symm k) = ix2 k j := funext fun a => Fin.ext (by
    match a with
    | ⟨0, _⟩ => exact (rhs_gather_0 _ _).trans hk
    | ⟨1, _⟩ => exact rhs_gather_1 _ _)
  rw [el, er]

/-- The one-hot rows of a chunk at (e, k): one exactly when edge e's source word is node cc * 2560 + k. -/
theorem onehot_rows_apply (cc : ℕ) (src : IVec S1024 32) (hI : S1024x2560.Iotas .tc 32 [1]) (h1 : S1024.ShapeCasts S1024)
    (h2 : S1024.ShapeCasts S1024x1) (hb : S1024x1.Broadcasts S1024x2560) (hlt : 1 < 32) (hbits : FTy.bits .bf16 < FTy.bits .f32)
    (e : Fin 1024) (k : Fin 2560) :
    (truncf .bf16 (sitofp (F := Ideal) .f32 (extui 32 (cmpi .eq (addi (iota .tc S1024x2560 32 [1] hI)
        (broadcast S1024x2560 (Scalar.muli (BitVec.ofNat 32 cc) 2560#32)))
        (broadcastTo S1024x2560 (shapeCast S1024x1 (shapeCast S1024 src h1) h2) hb)) hlt)) hbits : FVec Ideal S1024x2560 .bf16) (ix2 e k)
      = oh (src (ix1 e)) (cc * 2560 + k.val) := by
  show FloatOps.sitofp (F := Ideal) .f32 ((IntOp.cmpi .eq (iota .tc S1024x2560 32 [1] hI (ix2 e k) + BitVec.ofNat 32 cc * 2560#32)
      (broadcastTo S1024x2560 (shapeCast S1024x1 (shapeCast S1024 src h1) h2) hb (ix2 e k))).setWidth 32) = _
  rw [iota_single_apply, col_apply src h1 h2 hb e k, onehot_word]
  show (if src (ix1 e) = BitVec.ofNat 32 k.val + BitVec.ofNat 32 cc * 2560#32 then (1 : EReal) else 0) = _
  rw [chunk_word]; rfl

/-- The zero block at an entry. -/
theorem k1_pay1_apply (e : Fin 1024) (j : Fin 128) : k1_pay1 (F := Ideal) (ix2 e j) = 0 := by
  unfold k1_pay1
  refine (congrFun (shapeCast_self _ _) (ix2 e j)).trans ?_
  exact Ideal.ofBits_zero_f32

/-- The accumulator's update at (e, j): what it held plus, over the chunk's 2560 rows k, the one-hot weight of
    node cc * 2560 + k for edge e's source word times the feature (k, j) of the chunk. -/
theorem k1_pay2_apply (i : grid1.Coords) (src : Vec Ideal S1024 .i32) (acc : Vec Ideal S1024x128 .f32) (xw : Vec Ideal S2560x128 .bf16)
    (e : Fin 1024) (j : Fin 128) :
    k1_pay2 (F := Ideal) i src acc xw (ix2 e j)
      = acc (ix2 e j) + ∑ k : Fin 2560, oh (src (ix1 e)) ((i 1).val * 2560 + k.val) * xw (ix2 k j) := by
  unfold k1_pay2
  refine (congrFun (shapeCast_self _ _) (ix2 e j)).trans ?_
  refine congrArg (acc (ix2 e j) + ·) ?_
  refine (gather_matmul_apply _ _ e j).trans ?_
  refine Finset.sum_congr rfl fun k _ => ?_
  refine congrArg₂ (· * ·) ?_ ?_
  · exact onehot_rows_apply (i 1).val src _ _ _ _ _ _ e k
  · exact congrFun (shapeCast_self xw _) (ix2 k j)

/-- The output block at (e, j): the accumulator there times edge e's norm. -/
theorem k1_pay3_apply (norm : Vec Ideal S1024 .f32) (acc : Vec Ideal S1024x128 .f32) (e : Fin 1024) (j : Fin 128) :
    k1_pay3 (F := Ideal) norm acc (ix2 e j) = acc (ix2 e j) * norm (ix1 e) := by
  unfold k1_pay3
  refine congrArg (acc (ix2 e j) * ·) ?_
  exact col_apply norm _ _ _ e j

end Payloads

section Blocks
variable (V : (c : Dev nD) → (b : Ref sig .tc) → Buf (Elt Ideal) ((c : Thread nD τ).loc b))

/-! ## The grid's coordinates and the windows' blocks -/

/-- The row coordinate of the t-th point is t / 20 (each row of twenty chunks is one block of 1024 edges). -/
theorem coord1_row (t : Fin cfg1.N) : ((grid1.coords t) 0).val = t.val / 20 := by
  have hN : cfg1.N = 16620 := N_1
  have hlt : t.val < 16620 := hN ▸ t.isLt
  show t.val / grid1.stride 0 % 831 = t.val / 20
  rw [show grid1.stride 0 = 20 from rfl]
  exact Nat.mod_eq_of_lt (by omega)

theorem word_toNat_of_lt (n : ℕ) (h : n < 16620) : (BitVec.ofNat 32 n).toNat = n := by
  rw [BitVec.toNat_ofNat]; exact Nat.mod_eq_of_lt (by omega)

theorem row_lt (t : Fin cfg1.N) : t.val / 20 < 831 := by
  have hN : cfg1.N = 16620 := N_1
  have hlt : t.val < 16620 := hN ▸ t.isLt
  omega

theorem chunk_lt (t : Fin cfg1.N) : t.val % 20 < 20 := Nat.mod_lt _ (by decide)

/-- Windows 0, 1 and 3 move with the row coordinate; window 2 with the chunk coordinate. -/
theorem index1_0_0 (t : Fin cfg1.N) : win1_0.index t 0 = t.val / 20 := by
  show (BitVec.ofNat 32 ((grid1.coords t) 0).val).toNat = t.val / 20
  rw [coord1_row, word_toNat_of_lt _ (by have := row_lt t; omega)]
theorem index1_1_0 (t : Fin cfg1.N) : win1_1.index t 0 = t.val / 20 := by
  show (BitVec.ofNat 32 ((grid1.coords t) 0).val).toNat = t.val / 20
  rw [coord1_row, word_toNat_of_lt _ (by have := row_lt t; omega)]
theorem index1_2_0 (t : Fin cfg1.N) : win1_2.index t 0 = t.val % 20 := by
  show (BitVec.ofNat 32 ((grid1.coords t) 1).val).toNat = t.val % 20
  rw [coord1_chunk, word_toNat_of_lt _ (by have := chunk_lt t; omega)]
theorem index1_2_1 (t : Fin cfg1.N) : win1_2.index t 1 = 0 := rfl
theorem index1_3_0 (t : Fin cfg1.N) : win1_3.index t 0 = t.val / 20 := by
  show (BitVec.ofNat 32 ((grid1.coords t) 0).val).toNat = t.val / 20
  rw [coord1_row, word_toNat_of_lt _ (by have := row_lt t; omega)]
theorem index1_3_1 (t : Fin cfg1.N) : win1_3.index t 1 = 0 := rfl

/-- The three input arrays and the blocks the body is handed, under their literal types. -/
abbrev srcA (c : Dev nD) : S850944.Idx → BitVec 32 := V c main_v33
abbrev normA (c : Dev nD) : S850944.Idx → EReal := V c main_v37
abbrev featA (c : Dev nD) : S51200x128.Idx → EReal := V c main_v39
abbrev srcB (c : Dev nD) (t : Fin cfg1.N) : Vec Ideal S1024 .i32 := iblk1 V c 0 t
abbrev normB (c : Dev nD) (t : Fin cfg1.N) : Vec Ideal S1024 .f32 := iblk1 V c 1 t
abbrev featB (c : Dev nD) (t : Fin cfg1.N) : Vec Ideal S2560x128 .bf16 := iblk1 V c 2 t

/-- The source words' block at point t is entries (t / 20) * 1024 … of the array. -/
theorem srcB_apply (c : Dev nD) (t : Fin cfg1.N) (e : Fin 1024) (n : Fin 850944) (hn : n.val = t.val / 20 * 1024 + e.val) :
    srcB V c t (ix1 e) = srcA V c (ix1 n) := by
  unfold srcB iblk1
  rw [View.read_apply]
  show V c main_v33 _ = V c main_v33 _
  congr 1
  funext a
  apply Fin.ext
  match a with
  | ⟨0, _⟩ => show win1_0.index t 0 * 1024 + 1 * e.val = n.val; rw [index1_0_0, hn]; omega

/-- The norms' block at point t is entries (t / 20) * 1024 … of the array. -/
theorem normB_apply (c : Dev nD) (t : Fin cfg1.N) (e : Fin 1024) (n : Fin 850944) (hn : n.val = t.val / 20 * 1024 + e.val) :
    normB V c t (ix1 e) = normA V c (ix1 n) := by
  unfold normB iblk1
  rw [View.read_apply]
  show V c main_v37 _ = V c main_v37 _
  congr 1
  funext a
  apply Fin.ext
  match a with
  | ⟨0, _⟩ => show win1_1.index t 0 * 1024 + 1 * e.val = n.val; rw [index1_1_0, hn]; omega

/-- The features' block at point t is rows (t % 20) * 2560 … of the array, all 128 columns. -/
theorem featB_apply (c : Dev nD) (t : Fin cfg1.N) (k : Fin 2560) (j : Fin 128) (n : Fin 51200) (hn : n.val = t.val % 20 * 2560 + k.val) :
    featB V c t (ix2 k j) = featA V c (ix2 n j) := by
  unfold featB iblk1
  rw [View.read_apply]
  show V c main_v39 _ = V c main_v39 _
  congr 1
  funext a
  apply Fin.ext
  match a with
  | ⟨0, _⟩ => show win1_2.index t 0 * 2560 + 1 * k.val = n.val; rw [index1_2_0, hn]; omega
  | ⟨1, _⟩ => show win1_2.index t 1 * 128 + 1 * j.val = j.val; rw [index1_2_1]; omega

/-! ## The accumulator and the output block at a point, as payloads of the blocks -/

theorem acc_first (c : Dev nD) (t : Fin cfg1.N) (h0 : t.val % 20 = 0) :
    (outsAt1 V c t.val t.isLt).2 = k1_pay2 (F := Ideal) (grid1.coords t) (srcB V c t) (k1_pay1 (F := Ideal)) (featB V c t) := by
  rw [outsAt1_A V c t h0]
  unfold ptA1
  dsimp only
  exact sout1_A_eq (F := Ideal) c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t)

theorem acc_later (c : Dev nD) (t : Fin cfg1.N) (h0 : ¬t.val % 20 = 0) :
    (outsAt1 V c t.val t.isLt).2 = k1_pay2 (F := Ideal) (grid1.coords t) (srcB V c t)
      (outsAt1 V c (t.val - 1) (Nat.lt_of_le_of_lt (Nat.sub_le _ _) t.isLt)).2 (featB V c t) := by
  rw [outsAt1_B V c t h0]
  unfold ptB1
  dsimp only
  exact sout1_B_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) (outsAt1 V c (t.val - 1) (Nat.lt_of_le_of_lt (Nat.sub_le _ _) t.isLt)).2

/-- At every point the output block is the accumulator just written, scaled by the block's norms. -/
theorem out_scaled (c : Dev nD) (t : Fin cfg1.N) :
    (outsAt1 V c t.val t.isLt).1 = k1_pay3 (F := Ideal) (normB V c t) (outsAt1 V c t.val t.isLt).2 := by
  by_cases h0 : t.val % 20 = 0
  · rw [outsAt1_A V c t h0]
    unfold ptA1
    dsimp only
    rw [sout1_A_eq (F := Ideal) c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t)]
    exact out1_A_eq (F := Ideal) c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t)
  · rw [outsAt1_B V c t h0]
    unfold ptB1
    dsimp only
    rw [sout1_B_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) (outsAt1 V c (t.val - 1) (Nat.lt_of_le_of_lt (Nat.sub_le _ _) t.isLt)).2]
    exact out1_B_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) (outsAt1 V c (t.val - 1) (Nat.lt_of_le_of_lt (Nat.sub_le _ _) t.isLt)).2

end Blocks

section Sums
variable (V : (c : Dev nD) → (b : Ref sig .tc) → Buf (Elt Ideal) ((c : Thread nD τ).loc b))

/-! ## Sums along a row of twenty chunks -/

/-- The arrays as total functions of natural numbers (zero outside their ranges), so that sums over ranges of
    node rows need no bounds in their statements. -/
def srcN (c : Dev nD) (n : ℕ) : BitVec 32 := if h : n < 850944 then srcA V c (ix1 ⟨n, h⟩) else 0
def normN (c : Dev nD) (n : ℕ) : EReal := if h : n < 850944 then normA V c (ix1 ⟨n, h⟩) else 0
def featN (c : Dev nD) (j k : ℕ) : EReal := if h : k < 51200 ∧ j < 128 then featA V c (ix2 ⟨k, h.1⟩ ⟨j, h.2⟩) else 0

/-- The one-hot selection for edge `row`, column j, summed over the first m node rows. -/
def psum (c : Dev nD) (row j m : ℕ) : EReal := ∑ k ∈ Finset.range m, oh (srcN V c row) k * featN V c j k

theorem psum_add (c : Dev nD) (row j m n : ℕ) :
    psum V c row j (m + n) = psum V c row j m + ∑ k ∈ Finset.range n, oh (srcN V c row) (m + k) * featN V c j (m + k) :=
  Finset.sum_range_add _ m n

/-- The chunk's contribution at point t, over the arrays: node rows (t % 20) * 2560 …, for edge (t / 20) * 1024 + e. -/
theorem chunk_sum (c : Dev nD) (t : Fin cfg1.N) (e : Fin 1024) (j : Fin 128) :
    ∑ k : Fin 2560, oh (srcB V c t (ix1 e)) (((grid1.coords t) 1).val * 2560 + k.val) * featB V c t (ix2 k j)
      = ∑ k ∈ Finset.range 2560, oh (srcN V c (t.val / 20 * 1024 + e.val)) (t.val % 20 * 2560 + k) * featN V c j.val (t.val % 20 * 2560 + k) := by
  have hr := row_lt t
  have hc := chunk_lt t
  have hrow : t.val / 20 * 1024 + e.val < 850944 := by have := e.isLt; omega
  rw [← Fin.sum_univ_eq_sum_range (fun k => oh (srcN V c (t.val / 20 * 1024 + e.val)) (t.val % 20 * 2560 + k) * featN V c j.val (t.val % 20 * 2560 + k)) 2560]
  refine Finset.sum_congr rfl fun k _ => ?_
  have hk : t.val % 20 * 2560 + k.val < 51200 := by have := k.isLt; omega
  rw [coord1_chunk, srcB_apply V c t e ⟨_, hrow⟩ rfl, featB_apply V c t k j ⟨_, hk⟩ rfl]
  unfold srcN featN
  rw [dif_pos hrow, dif_pos ⟨hk, j.isLt⟩]

theorem acc_step_first (c : Dev nD) (t : Fin cfg1.N) (h0 : t.val % 20 = 0) (e : Fin 1024) (j : Fin 128) :
    (outsAt1 V c t.val t.isLt).2 (ix2 e j)
      = ∑ k ∈ Finset.range 2560, oh (srcN V c (t.val / 20 * 1024 + e.val)) (t.val % 20 * 2560 + k) * featN V c j.val (t.val % 20 * 2560 + k) := by
  refine (congrFun (acc_first V c t h0) (ix2 e j)).trans ?_
  refine (k1_pay2_apply (grid1.coords t) (srcB V c t) (k1_pay1 (F := Ideal)) (featB V c t) e j).trans ?_
  rw [k1_pay1_apply, zero_add]
  exact chunk_sum V c t e j

theorem acc_step_later (c : Dev nD) (t : Fin cfg1.N) (h0 : ¬t.val % 20 = 0) (e : Fin 1024) (j : Fin 128) :
    (outsAt1 V c t.val t.isLt).2 (ix2 e j)
      = (outsAt1 V c (t.val - 1) (Nat.lt_of_le_of_lt (Nat.sub_le _ _) t.isLt)).2 (ix2 e j)
        + ∑ k ∈ Finset.range 2560, oh (srcN V c (t.val / 20 * 1024 + e.val)) (t.val % 20 * 2560 + k) * featN V c j.val (t.val % 20 * 2560 + k) := by
  refine (congrFun (acc_later V c t h0) (ix2 e j)).trans ?_
  refine (k1_pay2_apply (grid1.coords t) (srcB V c t) _ (featB V c t) e j).trans ?_
  exact congrArg (_ + ·) (chunk_sum V c t e j)

/-- THE INVARIANT: after point n the accumulator holds, at (e, j), the selection for edge (n / 20) * 1024 + e summed
    over the node rows of the chunks seen so far in this row of chunks. -/
theorem acc_inv (c : Dev nD) (n : ℕ) : ∀ (hn : n < cfg1.N) (e : Fin 1024) (j : Fin 128),
    (outsAt1 V c n hn).2 (ix2 e j) = psum V c (n / 20 * 1024 + e.val) j.val ((n % 20 + 1) * 2560) := by
  induction n with
  | zero =>
    intro hn e j
    refine (acc_step_first V c ⟨0, hn⟩ (Nat.zero_mod _) e j).trans ?_
    show ∑ k ∈ Finset.range 2560, oh (srcN V c (0 / 20 * 1024 + e.val)) (0 % 20 * 2560 + k) * featN V c j.val (0 % 20 * 2560 + k) = _
    unfold psum
    simp
  | succ n ih =>
    intro hn e j
    by_cases h0 : (n + 1) % 20 = 0
    · refine (acc_step_first V c ⟨n + 1, hn⟩ h0 e j).trans ?_
      show ∑ k ∈ Finset.range 2560, oh (srcN V c ((n + 1) / 20 * 1024 + e.val)) ((n + 1) % 20 * 2560 + k) * featN V c j.val ((n + 1) % 20 * 2560 + k) = _
      unfold psum
      rw [h0]
      simp
    · refine (acc_step_later V c ⟨n + 1, hn⟩ h0 e j).trans ?_
      show (outsAt1 V c n _).2 (ix2 e j) + ∑ k ∈ Finset.range 2560, oh (srcN V c ((n + 1) / 20 * 1024 + e.val)) ((n + 1) % 20 * 2560 + k) * featN V c j.val ((n + 1) % 20 * 2560 + k) = _
      rw [ih (Nat.lt_of_succ_lt hn) e j]
      have e1 : (n + 1) / 20 = n / 20 := by omega
      have e2 : (n + 1) % 20 = n % 20 + 1 := by omega
      rw [e1, e2, show (n % 20 + 1 + 1) * 2560 = (n % 20 + 1) * 2560 + 2560 from by ring, psum_add]

/-- So the output block after point t is that sum times the edge's norm. -/
theorem out_inv (c : Dev nD) (t : Fin cfg1.N) (e : Fin 1024) (j : Fin 128) :
    (outsAt1 V c t.val t.isLt).1 (ix2 e j)
      = psum V c (t.val / 20 * 1024 + e.val) j.val ((t.val % 20 + 1) * 2560) * normN V c (t.val / 20 * 1024 + e.val) := by
  have hr := row_lt t
  have hrow : t.val / 20 * 1024 + e.val < 850944 := by have := e.isLt; omega
  refine (congrFun (out_scaled V c t) (ix2 e j)).trans ?_
  refine (k1_pay3_apply (normB V c t) _ e j).trans ?_
  rw [acc_inv V c t.val t.isLt e j, normB_apply V c t e ⟨_, hrow⟩ rfl]
  unfold normN
  rw [dif_pos hrow]

end Sums

section Array
variable (V : (c : Dev nD) → (b : Ref sig .tc) → Buf (Elt Ideal) ((c : Thread nD τ).loc b))

/-! ## From the blocks to the array -/

/-- The messages as one function of the arrays: the selection over all 51200 node rows times the norm. -/
def msgsG (c : Dev nD) : S850944x128.Idx → EReal :=
  fun i => psum V c (i 0).val (i 1).val 51200 * normN V c (i 0).val

/-- The output block is written back exactly after the last chunk of each row of chunks. -/
theorem flush1_3 (t : Fin cfg1.N) : (cfg1.win 3).flush t = true ↔ t.val % 20 = 19 := by
  have hN : grid1.N = 16620 := N_1
  have hlt : t.val < 16620 := hN ▸ t.isLt
  show win1_3.flush t = true ↔ _
  unfold Pipeline.Window.flush
  rw [show win1_3.isOut = true from rfl, Bool.true_and, Bool.or_eq_true, decide_eq_true_eq, decide_eq_true_eq]
  constructor
  · rintro (h | ⟨h, hne⟩)
    · omega
    · by_contra h19
      apply hne
      funext a
      match a with
      | ⟨0, _⟩ =>
        show win1_3.index ⟨t.val + 1, h⟩ 0 = win1_3.index t 0
        rw [index1_3_0, index1_3_0]
        show (t.val + 1) / 20 = t.val / 20
        omega
      | ⟨1, _⟩ => rfl
  · intro h19
    by_cases hl : t.val + 1 = grid1.N
    · exact Or.inl hl
    · refine Or.inr ⟨by omega, fun heq => ?_⟩
      have h0 := congrFun heq 0
      rw [index1_3_0, index1_3_0] at h0
      change (t.val + 1) / 20 = t.val / 20 at h0
      omega

/-- What a write-back moves is the block of `msgsG` under the point's rectangle. -/
theorem flushed_eq (c : Dev nD) (t : Fin cfg1.N) (hf : (cfg1.win 3).flush t = true) :
    (dat1 (F := Ideal) V c).flushed 3 t = ((cfg1.win 3).blk t).view.read (Elt Ideal) (msgsG V c) := by
  have h19 := (flush1_3 t).mp hf
  show (cfg1.win 3).cut (grid1.coords t) ((dat1 V c).after 3 t) = _
  rw [after1_3]
  funext y
  rw [View.read_apply]
  have a0 : ((((cfg1.win 3).blk t).view.emb y) 0).val = t.val / 20 * 1024 + (y 0).val := by
    show win1_3.index t 0 * 1024 + 1 * (y 0).val = _
    rw [index1_3_0]; omega
  have a1 : ((((cfg1.win 3).blk t).view.emb y) 1).val = (y 1).val := by
    show win1_3.index t 1 * 128 + 1 * (y 1).val = _
    rw [index1_3_1]; omega
  show (outsAt1 V c t.val t.isLt).1 ((cfg1.win 3).xinj (grid1.coords t) y) = msgsG V c (((cfg1.win 3).blk t).view.emb y)
  unfold msgsG
  rw [a0, a1]
  refine (congrArg (outsAt1 V c t.val t.isLt).1 (eq_ix2 _)).trans ?_
  refine (out_inv V c t _ _).trans ?_
  rw [h19]

/-- Every entry of the message array lies in the block written back after the last chunk of its row of chunks. -/
theorem msgs_cover (c : Dev nD) (i : S850944x128.Idx) :
    ∃ t : Fin cfg1.N, (cfg1.win 3).flush t = true ∧ i ∈ ((cfg1.win 3).blk t).view.set := by
  have hN : grid1.N = 16620 := N_1
  have h0 : (i 0 : ℕ) < 850944 := (i 0).isLt
  have h1 : (i 1 : ℕ) < 128 := (i 1).isLt
  have ht : (i 0).val / 1024 * 20 + 19 < cfg1.N := by show _ < grid1.N; rw [hN]; omega
  refine ⟨⟨(i 0).val / 1024 * 20 + 19, ht⟩, (flush1_3 _).mpr (by show ((i 0).val / 1024 * 20 + 19) % 20 = 19; omega), ?_⟩
  show i ∈ ((View.whole main_v40).slice (win1_3.rect ⟨(i 0).val / 1024 * 20 + 19, ht⟩)).set
  rw [View.set_slice_whole, Rect.mem_set_unit]
  intro a
  match a with
  | ⟨0, _⟩ =>
    show win1_3.index ⟨(i 0).val / 1024 * 20 + 19, ht⟩ 0 * 1024 ≤ (i 0 : ℕ) ∧ (i 0 : ℕ) < win1_3.index ⟨(i 0).val / 1024 * 20 + 19, ht⟩ 0 * 1024 + 1024
    rw [index1_3_0]
    show ((i 0).val / 1024 * 20 + 19) / 20 * 1024 ≤ (i 0 : ℕ) ∧ (i 0 : ℕ) < ((i 0).val / 1024 * 20 + 19) / 20 * 1024 + 1024
    omega
  | ⟨1, _⟩ =>
    show win1_3.index ⟨(i 0).val / 1024 * 20 + 19, ht⟩ 1 * 128 ≤ (i 1 : ℕ) ∧ (i 1 : ℕ) < win1_3.index ⟨(i 0).val / 1024 * 20 + 19, ht⟩ 1 * 128 + 128
    rw [index1_3_1]
    omega

/-- So the message array ends holding `msgsG`. -/
theorem msgs_final (c : Dev nD) : (dat1 (F := Ideal) V c).arrAt 3 cfg1.N = msgsG V c :=
  (dat1 (F := Ideal) V c).arrAt_eq_of_cover 3 (msgsG V c) (flushed_eq V c) (msgs_cover c)

end Array

end GatherVal

open GatherVal

variable (V : (c : Dev nD) → (b : Ref sig .tc) → Buf (Elt Ideal) ((c : Thread nD τ).loc b))

/-- After the gather launch the message array holds, at edge e and column j, the one-hot selection of the feature
    row named by the edge's source word (summed over all 51200 padded node rows), times the edge's norm. -/
theorem msgs_value (c : Dev nD) (e : Fin 850944) (j : Fin 128) :
    ((dat1 (F := Ideal) V c).arrAt 3 cfg1.N : S850944x128.Idx → EReal) (ix2 e j)
      = (∑ k : Fin 51200, oh ((V c main_v33 : S850944.Idx → BitVec 32) (ix1 e)) k.val * (V c main_v39 : S51200x128.Idx → EReal) (ix2 k j))
        * (V c main_v37 : S850944.Idx → EReal) (ix1 e) := by
  rw [msgs_final V c]
  show psum V c e.val j.val 51200 * normN V c e.val = _
  unfold psum normN srcN
  rw [dif_pos e.isLt, dif_pos e.isLt, ← Fin.sum_univ_eq_sum_range (fun k => oh (srcA V c (ix1 ⟨e.val, e.isLt⟩)) k * featN V c j.val k) 51200]
  refine congrArg₂ (· * ·) (Finset.sum_congr rfl fun k _ => ?_) rfl
  unfold featN
  rw [dif_pos ⟨k.isLt, j.isLt⟩]

end Cert.KernelIdeal.Hand

end
-- ==== Proof.Val.Out.lean ====
import proofs.«125517_j46789373723027_1_alg».proof.Proof.KI.Scatter
import proofs.«125517_j46789373723027_1_alg».proof.Proof.Val.OneHot
import Idealize.ShloMosaic.Lib.ValueIdx
import Idealize.ShloMosaic.Lib.Pipeline.Value
import Idealize.ShloMosaic.PureOps.Ideal.Laws

noncomputable section

open scoped BigOperators

namespace Cert.KernelIdeal.Hand

open Idealize.ShloMosaic Idealize.ShloMosaic.TcCoe Idealize.SL.Sem Idealize.ShloMosaic.ValueIdx

open Cert.KernelIdeal.Gen Gcn

namespace ScatterVal

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A later edge tile leaves in the accumulator its old contents plus the tile's one-hot product. -/
theorem sout2_B_eq (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) :
    sout2_B c i arg2 harg2 arg3 harg3 arg4 harg4 arg5 harg5 arg6 harg6 hc x0 x1 x2 xs = k2_pay2 i x1 xs x0 := by
  unfold sout2_B
  rw [View.read_writes_eq_canon _ _ _ (scover2_B c i arg2 harg2 arg3 harg3 arg4 harg4 arg5 harg5 arg6 harg6 hc x0 x1 x2 xs)]
  unfold kernelRun2_B
  dsimp only
  sl_unfold_words
  rw [View.canon_unit_zero hz2]
  simp only [View.readAt_eq_ld, harg2.read_unread, harg3.read_unread, harg4.read_unread, harg6.read_unread, View.ld_unit_zero (S := S1024x128) hz2, View.ld_unit_zero (S := S2000x128) hz2, View.ld_unit_zero (S := S1x128) hz2, View.ld_unit_zero (S := S1024) hz1]

/-- A first edge tile leaves in the accumulator the zero block plus the tile's one-hot product. -/
theorem sout2_A_eq (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) :
    sout2_A c i arg2 harg2 arg3 harg3 arg4 harg4 arg5 harg5 arg6 harg6 hc x0 x1 x2 = k2_pay2 i x1 (k2_pay1 (F := F)) x0 := by
  unfold sout2_A
  rw [View.read_writes_eq_canon _ _ _ (scover2_A c i arg2 harg2 arg3 harg3 arg4 harg4 arg5 harg5 arg6 harg6 hc x0 x1 x2)]
  unfold kernelRun2_A
  dsimp only
  sl_unfold_words
  rw [View.canon_cons_unit_zero (S := S2000x128) hz2, View.readCov_unit_zero (S := S2000x128) _ hz2]
  simp only [View.readAt_eq_ld, harg2.read_unread, harg3.read_unread, harg4.read_unread, harg6.read_unread, View.ld_unit_zero (S := S1024x128) hz2, View.ld_unit_zero (S := S2000x128) hz2, View.ld_unit_zero (S := S1x128) hz2, View.ld_unit_zero (S := S1024) hz1]

/-- A later edge tile leaves in the output block the new accumulator plus the bias row, cut off below at zero. -/
theorem out2_B_eq (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : ¬cond2 i) (x0 : Vec F S1024x128 .bf16) (x1 : Vec F S1024 .i32) (x2 : Vec F S1x128 .f32) (xs : Vec F S2000x128 .f32) :
    out2_B c i arg2 harg2 arg3 harg3 arg4 harg4 arg5 harg5 arg6 harg6 hc x0 x1 x2 xs = k2_pay3 (k2_pay2 i x1 xs x0) x2 := by
  unfold out2_B
  rw [View.read_writes_eq_canon _ _ _ (cover2_B c i arg2 harg2 arg3 harg3 arg4 harg4 arg5 harg5 arg6 harg6 hc x0 x1 x2 xs)]
  unfold kernelRun2_B
  dsimp only
  sl_unfold_words
  rw [View.canon_unit_zero hz2]
  simp only [View.readCov_cons_toLoadRect, View.readAt_eq_ld, harg2.read_unread, harg3.read_unread, harg4.read_unread, harg6.read_unread, View.ld_unit_zero (S := S1024x128) hz2, View.ld_unit_zero (S := S2000x128) hz2, View.ld_unit_zero (S := S1x128) hz2, View.ld_unit_zero (S := S1024) hz1]

/-- A first edge tile leaves in the output block the same of the accumulator started from zero. -/
theorem out2_A_eq (c : Dev nD) (i : grid2.Coords) (arg2 : Memref sig .tc .vmem S1024x128 .bf16) (harg2 : arg2.IsWhole) (arg3 : Memref sig .tc .vmem S1024 .i32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc : cond2 i) (x0 : Vec F S1024x128 .bf16) (x1 : Vec F S1024 .i32) (x2 : Vec F S1x128 .f32) :
    out2_A c i arg2 harg2 arg3 harg3 arg4 harg4 arg5 harg5 arg6 harg6 hc x0 x1 x2 = k2_pay3 (k2_pay2 i x1 (k2_pay1 (F := F)) x0) x2 := by
  unfold out2_A
  rw [View.read_writes_eq_canon _ _ _ (cover2_A c i arg2 harg2 arg3 harg3 arg4 harg4 arg5 harg5 arg6 harg6 hc x0 x1 x2)]
  unfold kernelRun2_A
  dsimp only
  sl_unfold_words
  rw [View.canon_unit_zero hz2]
  simp only [View.readCov_cons_toLoadRect, View.readAt_eq_ld, harg2.read_unread, harg3.read_unread, harg4.read_unread, harg6.read_unread, View.ld_unit_zero (S := S1024x128) hz2, View.ld_unit_zero (S := S2000x128) hz2, View.ld_unit_zero (S := S1x128) hz2, View.ld_unit_zero (S := S1024) hz1]

end Pieces

section Payloads

/-! ## The body's arithmetic read at one entry, over the extended reals -/

theorem lhs_scatter_0 (y : S2000x128.Idx) (q : dot_S2000x1024_S1024x128_S2000x128_1_0_0_1_n_n.contr.Idx) :
    (dot_S2000x1024_S1024x128_S2000x128_1_0_0_1_n_n.lhsIdx y q 0).val = (y 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
theorem lhs_scatter_1 (y : S2000x128.Idx) (q : dot_S2000x1024_S1024x128_S2000x128_1_0_0_1_n_n.contr.Idx) :
    (dot_S2000x1024_S1024x128_S2000x128_1_0_0_1_n_n.lhsIdx y q 1).val = (q ⟨0, by decide⟩).val :=
  dot_S2000x1024_S1024x128_S2000x128_1_0_0_1_n_n.lhsIdx_val_of_single rfl y q
theorem rhs_scatter_0 (y : S2000x128.Idx) (q : dot_S2000x1024_S1024x128_S2000x128_1_0_0_1_n_n.contr.Idx) :
    (dot_S2000x1024_S1024x128_S2000x128_1_0_0_1_n_n.rhsIdx y q 0).val = (q ⟨0, by decide⟩).val :=
  dot_S2000x1024_S1024x128_S2000x128_1_0_0_1_n_n.rhsIdx_val_of_single rfl y q
theorem rhs_scatter_1 (y : S2000x128.Idx) (q : dot_S2000x1024_S1024x128_S2000x128_1_0_0_1_n_n.contr.Idx) :
    (dot_S2000x1024_S1024x128_S2000x128_1_0_0_1_n_n.rhsIdx y q 1).val = (y 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- A row of 1024 words broadcast down 2000 rows reads, at row n and column e, the word at e. -/
theorem bcast_words_apply (v : S1024.Idx → BitVec 32) (h1 : S1024.ShapeCasts S1024) (h2 : S1024.ShapeCasts S1x1024)
    (h3 : S1x1024.Broadcasts S2000x1024) (n : Fin 2000) (e : Fin 1024) :
    broadcastTo S2000x1024 (shapeCast S1x1024 (shapeCast S1024 v h1) h2) h3 (ix2 n e) = v (ix1 e) := by
  rw [shapeCast_self]
  refine (broadcastTo_apply _ h3 (ix2 n e) (ix2 (0 : Fin 1) e) (fun a => ?_)).trans ?_
  · match a with
    | ⟨0, _⟩ => rfl
    | ⟨1, _⟩ => rfl
  · refine (shapeCast_addUnit_apply ![1024] v h2 (ix2 (0 : Fin 1) e)).trans (congrArg v ?_)
    funext a
    match a with
    | ⟨0, _⟩ => rfl

/-- The bias row broadcast down 2000 rows reads, at row n and column j, the bias at j. -/
theorem bcast_bias_apply (b : Vec Ideal S1x128 .f32) (h1 : S1x128.ShapeCasts S1x128) (h2 : S1x128.Broadcasts S2000x128)
    (n : Fin 2000) (j : Fin 128) :
    broadcastTo S2000x128 (shapeCast S1x128 b h1) h2 (ix2 n j) = b (ix2 0 j) := by
  rw [shapeCast_self]
  refine broadcastTo_apply _ h2 (ix2 n j) (ix2 (0 : Fin 1) j) (fun a => ?_)
  match a with
  | ⟨0, _⟩ => rfl
  | ⟨1, _⟩ => rfl

/-- The one-hot entry: the comparison bit, widened and converted, is one where the two words agree and zero elsewhere. -/
theorem onehot_word (w b : BitVec 32) :
    (FloatOps.sitofp (F := Ideal) .f32 ((IntOp.cmpi .eq w b).setWidth 32) : EReal) = if b = w then 1 else 0 := by
  show (((((IntOp.cmpi .eq w b).setWidth 32).toInt : ℝ)) : EReal) = _
  by_cases h : b = w
  · subst h
    rw [if_pos rfl]
    have : ((IntOp.cmpi .eq b b).setWidth 32 : BitVec 32) = 1#32 := by simp [IntOp.cmpi]
    rw [this]; norm_num
  · rw [if_neg h]
    have : ((IntOp.cmpi .eq w b).setWidth 32 : BitVec 32) = 0#32 := by
      have hne : (w == b) = false := by simpa using (fun e : w = b => h e.symm)
      simp [IntOp.cmpi, hne]
    rw [this]; norm_num

/-- Block i's node n has the word of i * 2000 + n: the row counter plus the block's offset, whatever the width does. -/
theorem node_word (i n : ℕ) : IntOp.addi (BitVec.ofNat 32 n) (Scalar.muli (BitVec.ofNat 32 i) 2000#32) = BitVec.ofNat 32 (i * 2000 + n) := by
  show BitVec.ofNat 32 n + BitVec.ofNat 32 i * 2000#32 = _
  rw [show (2000#32 : BitVec 32) = BitVec.ofNat 32 2000 from rfl, ← BitVec.ofNat_mul, ← BitVec.ofNat_add, Nat.add_comm]

/-- The one-hot matrix of a tile at node row n, edge column e: one where edge e's target word is the word of
    blk * 2000 + n, zero elsewhere. -/
theorem onehot_entry (hi : S2000x1024.Iotas .tc 32 [0]) (h1 : S1024.ShapeCasts S1024) (h2 : S1024.ShapeCasts S1x1024)
    (h3 : S1x1024.Broadcasts S2000x1024) (hx : 1 < 32) (ht : FTy.bf16.bits < FTy.f32.bits)
    (blk : ℕ) (dst : S1024.Idx → BitVec 32) (n : Fin 2000) (e : Fin 1024) :
    (truncf .bf16 (sitofp (F := Ideal) .f32 (extui 32 (cmpi .eq (addi (iota .tc S2000x1024 32 [0] hi)
        (broadcast S2000x1024 (Scalar.muli (BitVec.ofNat 32 blk) 2000#32)))
        (broadcastTo S2000x1024 (shapeCast S1x1024 (shapeCast S1024 dst h1) h2) h3)) hx)) ht : FVec Ideal S2000x1024 .bf16) (ix2 n e)
      = oh (dst (ix1 e)) (blk * 2000 + n.val) := by
  show (FloatOps.sitofp (F := Ideal) .f32 ((IntOp.cmpi .eq (IntOp.addi (iota .tc S2000x1024 32 [0] hi (ix2 n e))
      (Scalar.muli (BitVec.ofNat 32 blk) 2000#32))
      (broadcastTo S2000x1024 (shapeCast S1x1024 (shapeCast S1024 dst h1) h2) h3 (ix2 n e))).setWidth 32) : EReal) = _
  rw [onehot_word, bcast_words_apply, iota_single_apply, node_word]
  rfl

/-- THE UPDATE at node n, column j: the accumulator plus the sum over the tile's 1024 edges of the one-hot weight
    "edge e targets node i * 2000 + n" times the edge's message. -/
theorem k2_pay2_apply (i : grid2.Coords) (dst : Vec Ideal S1024 .i32) (acc : Vec Ideal S2000x128 .f32) (msgs : Vec Ideal S1024x128 .bf16)
    (n : Fin 2000) (j : Fin 128) :
    k2_pay2 (F := Ideal) i dst acc msgs (ix2 n j)
      = acc (ix2 n j) + ∑ e : Fin 1024, oh (dst (ix1 e)) ((i 0).val * 2000 + n.val) * msgs (ix2 e j) := by
  unfold k2_pay2
  dsimp only
  refine (congrFun (shapeCast_self _ _) (ix2 n j)).trans ?_
  refine congrArg (acc (ix2 n j) + ·) ?_
  refine (Ideal.matmul_constant_zero_apply dot_S2000x1024_S1024x128_S2000x128_1_0_0_1_n_n none _ _ (ix2 n j)).trans ?_
  rw [← Equiv.sum_comp (contrEquiv1 dot_S2000x1024_S1024x128_S2000x128_1_0_0_1_n_n 1024 rfl rfl).symm]
  refine Finset.sum_congr rfl fun e _ => ?_
  have hk := contrEquiv1_symm_val dot_S2000x1024_S1024x128_S2000x128_1_0_0_1_n_n 1024 rfl rfl e
  have el : dot_S2000x1024_S1024x128_S2000x128_1_0_0_1_n_n.lhsIdx (ix2 n j) ((contrEquiv1 dot_S2000x1024_S1024x128_S2000x128_1_0_0_1_n_n 1024 rfl rfl).symm e) = ix2 n e := funext fun a => Fin.ext (by
    match a with
    | ⟨0, _⟩ => exact lhs_scatter_0 _ _
    | ⟨1, _⟩ => exact (lhs_scatter_1 _ _).trans hk)
  have er : dot_S2000x1024_S1024x128_S2000x128_1_0_0_1_n_n.rhsIdx (ix2 n j) ((contrEquiv1 dot_S2000x1024_S1024x128_S2000x128_1_0_0_1_n_n 1024 rfl rfl).symm e) = ix2 e j := funext fun a => Fin.ext (by
    match a with
    | ⟨0, _⟩ => exact (rhs_scatter_0 _ _).trans hk
    | ⟨1, _⟩ => exact rhs_scatter_1 _ _)
  rw [el, er]
  exact congrArg₂ (· * ·) (onehot_entry _ _ _ _ _ _ (i 0).val dst n e) (congrFun (shapeCast_self _ _) (ix2 e j))

/-- THE RESULT at node n, column j: the accumulator plus the bias, cut off below at zero. -/
theorem k2_pay3_apply (acc : Vec Ideal S2000x128 .f32) (bias : Vec Ideal S1x128 .f32) (n : Fin 2000) (j : Fin 128) :
    k2_pay3 (F := Ideal) acc bias (ix2 n j) = max (acc (ix2 n j) + bias (ix2 0 j)) 0 := by
  unfold k2_pay3
  show max (acc (ix2 n j) + broadcastTo S2000x128 (shapeCast S1x128 bias _) _ (ix2 n j)) (Ideal.ofBits .f32 0x00000000#32) = _
  rw [bcast_bias_apply, Ideal.ofBits_zero_f32]

/-- The zero block. -/
theorem k2_pay1_apply (y : S2000x128.Idx) : k2_pay1 (F := Ideal) y = 0 := by
  unfold k2_pay1
  refine (congrFun (shapeCast_self _ _) y).trans ?_
  exact Ideal.ofBits_zero_f32

end Payloads

section Geometry

/-! ## Where the windows' blocks sit -/

theorem N2_lt (t : Fin cfg2.N) : t.val < 20775 := by have h : cfg2.N = 20775 := N_2; exact h ▸ t.isLt

/-- The node-block coordinate of the t-th point is t / 831 (the node-block axis is the slow one). -/
theorem coord2_block (t : Fin cfg2.N) : ((grid2.coords t) 0).val = t.val / 831 := by
  have ht := N2_lt t
  show t.val / grid2.stride 0 % 25 = t.val / 831
  rw [show grid2.stride 0 = 831 from rfl]
  omega

/-- A grid coordinate's word is the coordinate: nothing wraps. -/
theorem word_toNat (x : ℕ) (hx : x < 20775) : (BitVec.ofNat 32 x).toNat = x := by
  rw [BitVec.toNat_ofNat]; omega

/-- Message tiles move with the edge-tile coordinate. -/
theorem index2_0_0 (t : Fin cfg2.N) : win2_0.index t 0 = t.val % 831 := by
  show (BitVec.ofNat 32 ((grid2.coords t) 1).val).toNat = _
  rw [coord2_tile t, word_toNat _ (by omega)]
theorem index2_0_1 (t : Fin cfg2.N) : win2_0.index t 1 = 0 := rfl
/-- Target-word tiles likewise. -/
theorem index2_1_0 (t : Fin cfg2.N) : win2_1.index t 0 = t.val % 831 := by
  show (BitVec.ofNat 32 ((grid2.coords t) 1).val).toNat = _
  rw [coord2_tile t, word_toNat _ (by omega)]
/-- The bias row is one block. -/
theorem index2_2_0 (t : Fin cfg2.N) : win2_2.index t 0 = 0 := rfl
theorem index2_2_1 (t : Fin cfg2.N) : win2_2.index t 1 = 0 := rfl
/-- Result blocks move with the node-block coordinate. -/
theorem index2_3_0 (t : Fin cfg2.N) : win2_3.index t 0 = t.val / 831 := by
  have ht := N2_lt t
  show (BitVec.ofNat 32 ((grid2.coords t) 0).val).toNat = _
  rw [coord2_block t, word_toNat _ (by omega)]
theorem index2_3_1 (t : Fin cfg2.N) : win2_3.index t 1 = 0 := rfl
theorem index2_3 (t : Fin cfg2.N) : win2_3.index t = ![t.val / 831, 0] := by
  funext a
  match a with
  | ⟨0, _⟩ => exact index2_3_0 t
  | ⟨1, _⟩ => rfl

/-- The result block is written back exactly after the last edge tile of its row. -/
theorem flush2_3 (t : Fin cfg2.N) : (cfg2.win 3).flush t = true ↔ t.val % 831 = 830 := by
  have hN : grid2.N = 20775 := N_2
  have ht := N2_lt t
  show (win2_3.isOut && (decide (t.val + 1 = grid2.N) || decide (∃ h : t.val + 1 < grid2.N, win2_3.index ⟨t.val + 1, h⟩ ≠ win2_3.index t))) = true ↔ _
  rw [show win2_3.isOut = true from rfl, Bool.true_and, Bool.or_eq_true, decide_eq_true_eq, decide_eq_true_eq]
  constructor
  · rintro (h | ⟨h, hne⟩)
    · rw [hN] at h; omega
    · rw [index2_3, index2_3] at hne
      by_contra hc
      apply hne
      have e : (t.val + 1) / 831 = t.val / 831 := by omega
      show ![(t.val + 1) / 831, 0] = ![t.val / 831, 0]
      rw [e]
  · intro h
    by_cases hl : t.val + 1 = grid2.N
    · exact Or.inl hl
    · rw [hN] at hl
      refine Or.inr ⟨by rw [hN]; omega, fun e => ?_⟩
      rw [index2_3, index2_3] at e
      have e0 : (t.val + 1) / 831 = t.val / 831 := congrFun e 0
      omega

end Geometry

section Values
variable (V : (c : Dev nD) → (b : Ref sig .tc) → Buf (Elt Ideal) ((c : Thread nD τ).loc b))

/-! ## The arrays and the blocks, at their literal types -/

/-- The messages of the 850944 padded edges, 128 columns each. -/
abbrev msgArr (c : Dev nD) : S850944x128.Idx → EReal := V c main_v40
/-- The target words of the padded edges. -/
abbrev dstArr (c : Dev nD) : S850944.Idx → BitVec 32 := V c main_v35
/-- The bias row. -/
abbrev biasArr (c : Dev nD) : S1x128.Idx → EReal := V c main_v41
/-- The message tile, the target-word tile and the bias row a point is given. -/
abbrev mblk (c : Dev nD) (t : Fin cfg2.N) : Vec Ideal S1024x128 .bf16 := iblk2 V c 0 t
abbrev dblk (c : Dev nD) (t : Fin cfg2.N) : Vec Ideal S1024 .i32 := iblk2 V c 1 t
abbrev bblk (c : Dev nD) (t : Fin cfg2.N) : Vec Ideal S1x128 .f32 := iblk2 V c 2 t

/-- The message tile of point t is rows (t mod 831) * 1024 … of the messages. -/
theorem mblk_apply (c : Dev nD) (t : Fin cfg2.N) (e : Fin 1024) (j : Fin 128) (x : Fin 850944)
    (hx : x.val = t.val % 831 * 1024 + e.val) : mblk V c t (ix2 e j) = msgArr V c (ix2 x j) := by
  have i0 := index2_0_0 t
  unfold mblk iblk2
  rw [View.read_apply]
  show V c main_v40 _ = V c main_v40 _
  congr 1
  funext a
  apply Fin.ext
  match a with
  | ⟨0, _⟩ => show win2_0.index t 0 * 1024 + 1 * e.val = x.val; rw [i0, hx]; omega
  | ⟨1, _⟩ => show win2_0.index t 1 * 128 + 1 * j.val = j.val; rw [index2_0_1]; omega

/-- The target-word tile of point t is entries (t mod 831) * 1024 … of the target words. -/
theorem dblk_apply (c : Dev nD) (t : Fin cfg2.N) (e : Fin 1024) (x : Fin 850944)
    (hx : x.val = t.val % 831 * 1024 + e.val) : dblk V c t (ix1 e) = dstArr V c (ix1 x) := by
  have i0 := index2_1_0 t
  unfold dblk iblk2
  rw [View.read_apply]
  show V c main_v35 _ = V c main_v35 _
  congr 1
  funext a
  apply Fin.ext
  match a with
  | ⟨0, _⟩ => show win2_1.index t 0 * 1024 + 1 * e.val = x.val; rw [i0, hx]; omega

/-- The bias block of every point is the bias row. -/
theorem bblk_apply (c : Dev nD) (t : Fin cfg2.N) (j : Fin 128) : bblk V c t (ix2 0 j) = biasArr V c (ix2 0 j) := by
  unfold bblk iblk2
  rw [View.read_apply]
  show V c main_v41 _ = V c main_v41 _
  congr 1
  funext a
  apply Fin.ext
  match a with
  | ⟨0, _⟩ => show win2_2.index t 0 * 1 + 1 * 0 = 0; rw [index2_2_0]
  | ⟨1, _⟩ => show win2_2.index t 1 * 128 + 1 * j.val = j.val; rw [index2_2_1]; omega

/-! ## One edge's term and one tile's sum, over all naturals so that no bound is carried -/

/-- Edge x's term for a node and a column: the one-hot weight times the message; zero past the last padded edge. -/
def edgeTerm (c : Dev nD) (node : ℕ) (j : Fin 128) (x : ℕ) : EReal :=
  if h : x < 850944 then oh (dstArr V c (ix1 ⟨x, h⟩)) node * msgArr V c (ix2 ⟨x, h⟩ j) else 0

theorem edgeTerm_fin (c : Dev nD) (node : ℕ) (j : Fin 128) (x : Fin 850944) :
    edgeTerm V c node j x.val = oh (dstArr V c (ix1 x)) node * msgArr V c (ix2 x j) := dif_pos x.isLt

/-- Tile k's sum: its 1024 edges' terms. -/
def tileSum (c : Dev nD) (node : ℕ) (j : Fin 128) (k : ℕ) : EReal := ∑ e : Fin 1024, edgeTerm V c node j (k * 1024 + e.val)

/-- THE UPDATE of point t: the accumulator plus tile (t mod 831)'s sum for node (t / 831) * 2000 + n. -/
theorem update_apply (c : Dev nD) (t : Fin cfg2.N) (acc : Vec Ideal S2000x128 .f32) (n : Fin 2000) (j : Fin 128) :
    k2_pay2 (F := Ideal) (grid2.coords t) (dblk V c t) acc (mblk V c t) (ix2 n j)
      = acc (ix2 n j) + tileSum V c (t.val / 831 * 2000 + n.val) j (t.val % 831) := by
  have ht := N2_lt t
  refine (k2_pay2_apply (grid2.coords t) (dblk V c t) acc (mblk V c t) n j).trans ?_
  refine congrArg (acc (ix2 n j) + ·) ?_
  unfold tileSum
  refine Finset.sum_congr rfl fun e _ => ?_
  have he := e.isLt
  have hx : t.val % 831 * 1024 + e.val < 850944 := by omega
  rw [coord2_block t, dblk_apply V c t e ⟨_, hx⟩ rfl, mblk_apply V c t e j ⟨_, hx⟩ rfl]
  exact (edgeTerm_fin V c _ j ⟨_, hx⟩).symm

end Values

section Fold
variable (V : (c : Dev nD) → (b : Ref sig .tc) → Buf (Elt Ideal) ((c : Thread nD τ).loc b))

/-! ## Along a row of 831 edge tiles -/

/-- After a point that starts a row the accumulator is the update of the zero block. -/
theorem acc_first (c : Dev nD) (t : Fin cfg2.N) (h0 : t.val % 831 = 0) :
    (outsAt2 V c t.val t.isLt).2 = k2_pay2 (grid2.coords t) (dblk V c t) (k2_pay1 (F := Ideal)) (mblk V c t) := by
  rw [outsAt2_A V c t h0]
  unfold ptA2
  dsimp only
  exact sout2_A_eq (F := Ideal) c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t)

/-- After a later point it is the update of what the point before left. -/
theorem acc_later (c : Dev nD) (t : Fin cfg2.N) (h0 : ¬t.val % 831 = 0) :
    (outsAt2 V c t.val t.isLt).2
      = k2_pay2 (grid2.coords t) (dblk V c t) (outsAt2 V c (t.val - 1) (Nat.lt_of_le_of_lt (Nat.sub_le _ _) t.isLt)).2 (mblk V c t) := by
  rw [outsAt2_B V c t h0]
  unfold ptB2
  dsimp only
  exact sout2_B_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) (outsAt2 V c (t.val - 1) (Nat.lt_of_le_of_lt (Nat.sub_le _ _) t.isLt)).2

/-- After every point the output block is the accumulator plus the bias, cut off below at zero. -/
theorem out_eq (c : Dev nD) (t : Fin cfg2.N) :
    (outsAt2 V c t.val t.isLt).1 = k2_pay3 (outsAt2 V c t.val t.isLt).2 (bblk V c t) := by
  by_cases h0 : t.val % 831 = 0
  · rw [acc_first V c t h0, outsAt2_A V c t h0]
    unfold ptA2
    dsimp only
    exact out2_A_eq (F := Ideal) c (grid2.coords t) (ms2_0 t) (hs2_0 t) (ms2_1 t) (hs2_1 t) (ms2_2 t) (hs2_2 t) (ms2_3 t) (hs2_3 t) scM2 (Memref.isWhole_whole _) ((hcond2 t).mpr h0) (iblk2 V c 0 t) (iblk2 V c 1 t) (iblk2 V c 2 t)
  · rw [acc_later V c t h0, outsAt2_B V c t h0]
    unfold ptB2
    dsimp only
    exact out2_B_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2 t).mp h)) (iblk2 V c 0 t) (iblk2 V c 1 t) (iblk2 V c 2 t) (outsAt2 V c (t.val - 1) (Nat.lt_of_le_of_lt (Nat.sub_le _ _) t.isLt)).2

/-- At a point that starts a row the accumulator holds tile 0's sum. -/
theorem acc_at_first (c : Dev nD) (t : Fin cfg2.N) (h0 : t.val % 831 = 0) (n : Fin 2000) (j : Fin 128) :
    (outsAt2 V c t.val t.isLt).2 (ix2 n j)
      = ∑ k ∈ Finset.range (t.val % 831 + 1), tileSum V c (t.val / 831 * 2000 + n.val) j k := by
  rw [acc_first V c t h0, update_apply, k2_pay1_apply, zero_add, h0, Nat.zero_add, Finset.sum_range_one]

/-- THE INVARIANT: after point m, tile (m mod 831) of row (m / 831), the accumulator at node n of the row's block holds
    the sum of the tiles 0 … (m mod 831). By induction on the point: the first tile of a row starts from zero, a later
    one adds its tile to what the point before left. -/
theorem acc_inv (c : Dev nD) (m : ℕ) : ∀ (hm : m < cfg2.N) (n : Fin 2000) (j : Fin 128),
    (outsAt2 V c m hm).2 (ix2 n j) = ∑ k ∈ Finset.range (m % 831 + 1), tileSum V c (m / 831 * 2000 + n.val) j k := by
  induction m with
  | zero => intro hm n j; exact acc_at_first V c ⟨0, hm⟩ rfl n j
  | succ m ih =>
    intro hm n j
    by_cases h0 : (m + 1) % 831 = 0
    · exact acc_at_first V c ⟨m + 1, hm⟩ h0 n j
    · refine (congrFun (acc_later V c ⟨m + 1, hm⟩ h0) (ix2 n j)).trans ?_
      rw [update_apply V c ⟨m + 1, hm⟩]
      show (outsAt2 V c m _).2 (ix2 n j) + tileSum V c ((m + 1) / 831 * 2000 + n.val) j ((m + 1) % 831) = _
      rw [ih (Nat.lt_of_succ_lt hm) n j]
      have d1 : (m + 1) / 831 = m / 831 := by omega
      have d2 : (m + 1) % 831 = m % 831 + 1 := by omega
      rw [d1, d2, Finset.sum_range_succ _ (m % 831 + 1)]

/-- The output block after point t, at node n and column j. -/
theorem out_apply (c : Dev nD) (t : Fin cfg2.N) (n : Fin 2000) (j : Fin 128) :
    (outsAt2 V c t.val t.isLt).1 (ix2 n j)
      = max ((∑ k ∈ Finset.range (t.val % 831 + 1), tileSum V c (t.val / 831 * 2000 + n.val) j k) + biasArr V c (ix2 0 j)) 0 := by
  rw [out_eq V c t, k2_pay3_apply, acc_inv V c t.val t.isLt n j, bblk_apply]

/-- 831 tiles of 1024 edges are the 850944 padded edges, in order. -/
theorem sum_tiles (c : Dev nD) (node : ℕ) (j : Fin 128) :
    ∑ k ∈ Finset.range 831, tileSum V c node j k
      = ∑ x : Fin 850944, oh (dstArr V c (ix1 x)) node * msgArr V c (ix2 x j) := by
  calc ∑ k ∈ Finset.range 831, tileSum V c node j k
      = ∑ k : Fin 831, ∑ e : Fin 1024, edgeTerm V c node j (k.val * 1024 + e.val) := Finset.sum_range _
    _ = ∑ p : Fin 831 × Fin 1024, edgeTerm V c node j (p.1.val * 1024 + p.2.val) :=
        (Fintype.sum_prod_type (fun p : Fin 831 × Fin 1024 => edgeTerm V c node j (p.1.val * 1024 + p.2.val))).symm
    _ = ∑ p : Fin 831 × Fin 1024, edgeTerm V c node j (finProdFinEquiv p).val :=
        Finset.sum_congr rfl fun p _ => congrArg (edgeTerm V c node j) (by rw [finProdFinEquiv_apply_val]; omega)
    _ = ∑ x : Fin (831 * 1024), edgeTerm V c node j x.val :=
        Equiv.sum_comp finProdFinEquiv (fun x : Fin (831 * 1024) => edgeTerm V c node j x.val)
    _ = ∑ x : Fin 850944, edgeTerm V c node j x.val := rfl
    _ = ∑ x : Fin 850944, oh (dstArr V c (ix1 x)) node * msgArr V c (ix2 x j) :=
        Finset.sum_congr rfl fun x _ => edgeTerm_fin V c node j x

end Fold

section Final
variable (V : (c : Dev nD) → (b : Ref sig .tc) → Buf (Elt Ideal) ((c : Thread nD τ).loc b))

/-! ## From the blocks to the array -/

/-- The claimed result at node r, column j. -/
def outFn (c : Dev nD) (r : Fin 50000) (j : Fin 128) : EReal :=
  max ((∑ x : Fin 850944, oh (dstArr V c (ix1 x)) r.val * msgArr V c (ix2 x j)) + biasArr V c (ix2 0 j)) 0

theorem outFn_def (c : Dev nD) (r : Fin 50000) (j : Fin 128) : outFn V c r j
    = max ((∑ x : Fin 850944, oh (dstArr V c (ix1 x)) r.val * msgArr V c (ix2 x j)) + biasArr V c (ix2 0 j)) 0 := rfl

attribute [irreducible] outFn

/-- The claimed result as the contents of the result array. -/
abbrev outArr (c : Dev nD) : S50000x128.Idx → EReal :=
  fun y => outFn V c ⟨(y 0).val, idx2_lt0 y⟩ ⟨(y 1).val, idx2_lt1 y⟩

/-- At a point that writes back (the last edge tile of row q) the output block holds, at node n of the block, the
    claimed result at node q * 2000 + n: the sum over the row's 831 tiles is the sum over all edges. -/
theorem out_flush (c : Dev nD) (t : Fin cfg2.N) (h830 : t.val % 831 = 830) (n : Fin 2000) (j : Fin 128) (r : Fin 50000)
    (hr : r.val = t.val / 831 * 2000 + n.val) : (outsAt2 V c t.val t.isLt).1 (ix2 n j) = outFn V c r j := by
  have e831 : t.val % 831 + 1 = 831 := by omega
  rw [out_apply, e831, sum_tiles, ← hr, outFn_def]

/-- A buffer read through a view is whatever function agrees with the buffer at the view's elements. -/
theorem read_eq_of_emb {sig' : RefSig} {κ : Kind} {sp : Space} {s : Shape} {e : EltTy} {Val : EltTy → Type}
    (v : View sig' κ sp s e) (f : v.ty.Contents Val) (g : s.Idx → Val e) (h : ∀ x, HEq (f (v.emb x)) (g x)) :
    v.read Val f = g := by
  funext x
  rw [View.read_apply]
  exact eq_of_heq ((cast_heq _ _).trans (h x))

/-- So what such a point writes back is block q of the claimed result. -/
theorem flushed_eq (c : Dev nD) (t : Fin cfg2.N) (hf : (cfg2.win 3).flush t = true) :
    (dat2 (F := Ideal) V c).flushed 3 t = ((cfg2.win 3).blk t).view.read (Elt Ideal) (outArr V c) := by
  have h830 := (flush2_3 t).mp hf
  have ht := N2_lt t
  show (cfg2.win 3).cut (grid2.coords t) ((dat2 V c).after 3 t) = _
  rw [after2_3]
  refine (read_eq_of_emb (Val := Elt Ideal) ((cfg2.win 3).blk t).view (outArr V c) _ (fun y => heq_of_eq ?_)).symm
  have hy0 : (y 0).val < 2000 := (y 0).isLt
  have hy1 : (y 1).val < 128 := (y 1).isLt
  have hx : (cfg2.win 3).xinj (grid2.coords t) y = ix2 (⟨(y 0).val, hy0⟩ : Fin 2000) (⟨(y 1).val, hy1⟩ : Fin 128) := by
    funext a
    match a with
    | ⟨0, _⟩ => rfl
    | ⟨1, _⟩ => rfl
  have hr : t.val / 831 * 2000 + (y 0).val < 50000 := by omega
  have hemb : ((cfg2.win 3).blk t).view.emb y = ix2 (⟨t.val / 831 * 2000 + (y 0).val, hr⟩ : Fin 50000) (⟨(y 1).val, hy1⟩ : Fin 128) := by
    funext a
    apply Fin.ext
    match a with
    | ⟨0, _⟩ => show win2_3.index t 0 * 2000 + 1 * (y 0).val = t.val / 831 * 2000 + (y 0).val; rw [index2_3_0]; omega
    | ⟨1, _⟩ => show win2_3.index t 1 * 128 + 1 * (y 1).val = (y 1).val; rw [index2_3_1]; omega
  show outArr V c (((cfg2.win 3).blk t).view.emb y) = (outsAt2 V c t.val t.isLt).1 ((cfg2.win 3).xinj (grid2.coords t) y)
  rw [hx, hemb]
  exact (out_flush V c t h830 ⟨(y 0).val, hy0⟩ ⟨(y 1).val, hy1⟩ ⟨t.val / 831 * 2000 + (y 0).val, hr⟩ rfl).symm

/-- Every node's row lies in the block its row of tiles writes back. -/
theorem covered (c : Dev nD) (i : S50000x128.Idx) :
    ∃ t : Fin cfg2.N, (cfg2.win 3).flush t = true ∧ i ∈ ((cfg2.win 3).blk t).view.set := by
  have hN : cfg2.N = 20775 := N_2
  have hi0 : (i 0).val < 50000 := (i 0).isLt
  have hi1 : (i 1).val < 128 := (i 1).isLt
  have htN : 831 * ((i 0).val / 2000) + 830 < cfg2.N := by rw [hN]; omega
  refine ⟨⟨831 * ((i 0).val / 2000) + 830, htN⟩, (flush2_3 _).mpr (by show (831 * ((i 0).val / 2000) + 830) % 831 = 830; omega), ?_⟩
  show i ∈ ((View.whole main_v42).slice (win2_3.rect ⟨831 * ((i 0).val / 2000) + 830, htN⟩)).set
  rw [View.set_slice_whole, Rect.mem_set_unit]
  intro a
  match a with
  | ⟨0, _⟩ =>
    show win2_3.index ⟨831 * ((i 0).val / 2000) + 830, htN⟩ 0 * 2000 ≤ (i 0).val ∧ (i 0).val < win2_3.index ⟨831 * ((i 0).val / 2000) + 830, htN⟩ 0 * 2000 + 2000
    rw [index2_3_0]
    show (831 * ((i 0).val / 2000) + 830) / 831 * 2000 ≤ (i 0).val ∧ (i 0).val < (831 * ((i 0).val / 2000) + 830) / 831 * 2000 + 2000
    omega
  | ⟨1, _⟩ =>
    show win2_3.index ⟨831 * ((i 0).val / 2000) + 830, htN⟩ 1 * 128 ≤ (i 1).val ∧ (i 1).val < win2_3.index ⟨831 * ((i 0).val / 2000) + 830, htN⟩ 1 * 128 + 128
    rw [index2_3_1]
    omega

/-- So the result array ends holding the claimed result. -/
theorem final_out (c : Dev nD) : (dat2 (F := Ideal) V c).arrAt 3 cfg2.N = outArr V c :=
  (dat2 (F := Ideal) V c).arrAt_eq_of_cover 3 (outArr V c) (flushed_eq V c) (covered c)

end Final

end ScatterVal

variable (V : (c : Dev nD) → (b : Ref sig .tc) → Buf (Elt Ideal) ((c : Thread nD τ).loc b))

/-- After the scatter launch the result array holds, at node n and column j, the sum over all 850944 padded edges of the
    one-hot weight "the edge's target word is n" times the edge's message, plus the bias, cut off below at zero. -/
theorem out_value (c : Dev nD) (n : Fin 50000) (j : Fin 128) :
    ((dat2 (F := Ideal) V c).arrAt 3 cfg2.N : S50000x128.Idx → EReal) (ix2 n j)
      = max ((∑ e : Fin 850944, oh ((V c main_v35 : S850944.Idx → BitVec 32) (ix1 e)) n.val * (V c main_v40 : S850944x128.Idx → EReal) (ix2 e j))
          + (V c main_v41 : S1x128.Idx → EReal) (ix2 0 j)) 0 :=
  (congrFun (ScatterVal.final_out V c) (ix2 n j)).trans (ScatterVal.outFn_def V c n j)

end Cert.KernelIdeal.Hand

end
-- ==== Proof.Val.Ref.lean ====
import proofs.«125517_j46789373723027_1_alg».proof.Proof.Gen.ReferenceIdeal.Read
import proofs.«125517_j46789373723027_1_alg».proof.Proof.Val.OneHot
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx

open Cert.ReferenceIdeal Cert.ReferenceIdeal.Read Gcn

/-! # The reference's result at an index

With every source word a node number below 50000, the reference's result at node n and column j is the sum over the
850000 edges (self loops included) whose target word is n of the feature row of the edge's source times the edge's norm,
plus the bias, cut off below at zero. The feature row is the node's row of the node matrix times the weight matrix. -/

section Readings

open Idealize.ShloMosaic.StableHlo.Predicate

/-! ## The row gather and the segment sum, read at an index -/

/-- The feature gather's dimension numbers. -/
abbrev gD := gather_S50000x128_S850000x1_S850000x128_1_0_n_n_0_1_1128

/-- The feature gather at edge e, column j reads the operand's row r at column j, where r is the start word at (e, 0)
    read signed and clamped into [0, 49999]. -/
theorem gather_rows_apply {α : Type} (x : S50000x128.Idx → α) (idx : IVec S850000x1 32) (e : Fin 850000) (j : Fin 128)
    (r : Fin 50000) (hr : r.val = min (idx (ix2 e (0 : Fin 1))).toInt.toNat (50000 - 1)) :
    Host.gather gD x idx (ix2 e j) = x (ix2 r j) := by
  unfold Host.gather
  congr 1
  funext a
  refine Fin.ext ?_
  match a with
  | ⟨0, _⟩ =>
    show gD.start (ix2 e j) idx 0 + gD.batchCoord (ix2 e j) 0 + gD.offCoord (ix2 e j) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gD.startIndexMap from List.mem_singleton.mpr rfl)]
    have hsi : gD.siIdx (ix2 e j) ⟨List.idxOf (0 : Fin 2) gD.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, hr]
    rfl
  | ⟨1, _⟩ =>
    show gD.start (ix2 e j) idx 1 + gD.batchCoord (ix2 e j) 1 + gD.offCoord (ix2 e j) 1 = j.val
    rw [GatherDims.batchCoord_eq_zero _ _ _ List.not_mem_nil]
    unfold GatherDims.start
    rw [dif_neg (show ¬ (1 : Fin 2) ∈ gD.startIndexMap by decide)]
    simp only [Nat.add_zero, Nat.zero_add]
    rfl

/-- The segment sum's dimension numbers. -/
abbrev sD := scatter_S50000x128_S850000x1_S850000x128_1_0_0_1

/-- On the node axis the window of update (e, j') starts at the target word at (e, 0), read signed. -/
theorem scatter_start0 (idx : IVec S850000x1 32) (e : Fin 850000) (j' : Fin 128) :
    sD.start (ix2 e j') idx 0 = (idx (ix2 e (0 : Fin 1))).toInt := by
  unfold ScatterDims.start
  rw [dif_pos (show (0 : Fin 2) ∈ sD.scatterDimsToOperandDims from List.mem_singleton.mpr rfl)]
  have hsi : sD.siIdx (ix2 e j') ⟨List.idxOf (0 : Fin 2) sD.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero. -/
theorem scatter_start1 (idx : IVec S850000x1 32) (e : Fin 850000) (j' : Fin 128) :
    sD.start (ix2 e j') idx 1 = 0 := by
  unfold ScatterDims.start
  rw [dif_neg (show ¬ (1 : Fin 2) ∈ sD.scatterDimsToOperandDims by decide)]

/-- The node axis is inserted: no window coordinate there. -/
theorem scatter_window0 (e : Fin 850000) (j' : Fin 128) : sD.window (ix2 e j') 0 = 0 := by
  unfold ScatterDims.window
  rw [dif_neg (show ¬ (0 : Fin 2) ∈ sD.sKept by decide)]

/-- The column axis carries the update's column. -/
theorem scatter_window1 (e : Fin 850000) (j' : Fin 128) : sD.window (ix2 e j') 1 = j'.val := by
  unfold ScatterDims.window
  rw [dif_pos (show (1 : Fin 2) ∈ sD.sKept by decide)]
  rfl

/-- Update (e, j') lands on result (n, j) exactly when the target word of e is the word of n and the columns agree: a
    node number is below 2³¹, so the signed reading of its word is the number itself. -/
theorem scatter_lands_iff (idx : IVec S850000x1 32) (e : Fin 850000) (j' : Fin 128) (n : Fin 50000) (j : Fin 128) :
    sD.resultIdx? (ix2 e j') idx = some (ix2 n j)
      ↔ (idx (ix2 e (0 : Fin 1)) = BitVec.ofNat 32 n.val ∧ j' = j) := by
  have hn : n.val < 50000 := n.isLt
  have hj' : j'.val < 128 := j'.isLt
  unfold ScatterDims.resultIdx?
  constructor
  · intro h
    split at h
    · rename_i hall
      have h' := Option.some.inj h
      have h0 : (sD.start (ix2 e j') idx 0 + (sD.window (ix2 e j') 0 : ℕ)).toNat = n.val :=
        congrArg (fun f : S50000x128.Idx => (f 0).val) h'
      have h1 : (sD.start (ix2 e j') idx 1 + (sD.window (ix2 e j') 1 : ℕ)).toNat = j.val :=
        congrArg (fun f : S50000x128.Idx => (f 1).val) h'
      have ha := (hall 0).1
      rw [scatter_start0, scatter_window0] at h0 ha
      rw [scatter_start1, scatter_window1] at h1
      constructor
      · apply BitVec.eq_of_toInt_eq
        rw [toInt_ofNat_small _ (by omega)]; omega
      · apply Fin.ext; omega
    · exact absurd h (by simp)
  · rintro ⟨hw, rfl⟩
    have ht : (idx (ix2 e (0 : Fin 1))).toInt = (n.val : ℤ) := by rw [hw, toInt_ofNat_small _ (by omega)]
    have hall : ∀ a, 0 ≤ sD.start (ix2 e j') idx a + (sD.window (ix2 e j') a : ℕ)
        ∧ sD.start (ix2 e j') idx a + (sD.window (ix2 e j') a : ℕ) < (S50000x128.size a : ℕ) := by
      intro a
      match a with
      | ⟨0, _⟩ =>
        show 0 ≤ sD.start (ix2 e j') idx 0 + (sD.window (ix2 e j') 0 : ℕ)
          ∧ sD.start (ix2 e j') idx 0 + (sD.window (ix2 e j') 0 : ℕ) < ((50000 : ℕ) : ℤ)
        rw [scatter_start0, scatter_window0, ht]; omega
      | ⟨1, _⟩ =>
        show 0 ≤ sD.start (ix2 e j') idx 1 + (sD.window (ix2 e j') 1 : ℕ)
          ∧ sD.start (ix2 e j') idx 1 + (sD.window (ix2 e j') 1 : ℕ) < ((128 : ℕ) : ℤ)
        rw [scatter_start1, scatter_window1]; omega
    rw [dif_pos hall]
    congr 1
    funext a
    refine Fin.ext ?_
    match a with
    | ⟨0, _⟩ =>
      show (sD.start (ix2 e j') idx 0 + (sD.window (ix2 e j') 0 : ℕ)).toNat = n.val
      rw [scatter_start0, scatter_window0, ht]; omega
    | ⟨1, _⟩ =>
      show (sD.start (ix2 e j') idx 1 + (sD.window (ix2 e j') 1 : ℕ)).toNat = j'.val
      rw [scatter_start1, scatter_window1]; omega

/-- THE SEGMENT SUM AT (n, j): the operand there plus the sum over the edges of the one-hot weight of the edge's target
    word at n times the edge's update at column j. -/
theorem scatter_rows_apply (x : S50000x128.Idx → EReal) (idx : IVec S850000x1 32) (upd : S850000x128.Idx → EReal)
    (n : Fin 50000) (j : Fin 128) :
    Ideal.hostScatterAdd sD x idx upd (ix2 n j)
      = x (ix2 n j) + ∑ e : Fin 850000, oh (idx (ix2 e (0 : Fin 1))) n.val * upd (ix2 e j) := by
  simp only [Ideal.hostScatterAdd, Finset.sum_filter]
  refine congrArg (x (ix2 n j) + ·) ?_
  rw [sum_idx2]
  refine Finset.sum_congr rfl fun e _ => ?_
  by_cases hw : idx (ix2 e (0 : Fin 1)) = BitVec.ofNat 32 n.val
  · rw [oh_eq _ _ hw, one_mul, Finset.sum_eq_single j]
    · rw [if_pos ((scatter_lands_iff idx e j n j).2 ⟨hw, rfl⟩)]
    · intro j' _ hne
      rw [if_neg (fun h => hne ((scatter_lands_iff idx e j' n j).1 h).2)]
    · intro h; exact absurd (Finset.mem_univ j) h
  · rw [oh_ne _ _ hw, zero_mul]
    refine Finset.sum_eq_zero fun j' _ => ?_
    rw [if_neg (fun h => hw ((scatter_lands_iff idx e j' n j).1 h).1)]

/-! ## The stages between, read at an index -/

/-- With the source word of edge e a node number below 50000, the wrapped start word of the feature gather at (e, 0) is
    the source word itself: it is not negative read signed, so the select keeps it. -/
theorem start_word (x1 : S2x800000.Idx → BitVec 32) (e : Fin 850000)
    (h : (val_main_v6 (F := Ideal) x1 (ix1 e)).toNat < 50000) :
    val_main_v38 (F := Ideal) x1 (ix2 e (0 : Fin 1)) = val_main_v6 (F := Ideal) x1 (ix1 e) := by
  have hi : idx_main_v38 (ix2 e (0 : Fin 1)) = ix1 e := funext fun a => match a with | ⟨0, _⟩ => rfl
  rw [val_main_v38_apply, hi, val_main_v37_apply, val_main_v34_apply, val_main_v33_apply, val_main_c_6_apply]
  generalize val_main_v36 (F := Ideal) x1 (ix1 e) = u
  generalize val_main_v6 (F := Ideal) x1 (ix1 e) = w at h ⊢
  have hc : IntOp.cmpi .slt w 0#32 = 0#1 := eq_zero_of_ne_one fun hc => by
    have := (slt_iff_toNat (a := w) (b := 0#32) (by omega) (by decide)).1 hc
    simp at this
  rw [hc, select_zero]

/-- The gathered feature at edge e, column j: the source node's row of the node matrix times column j of the weights. -/
theorem feat_at (x0 : S50000x128.Idx → EReal) (x1 : S2x800000.Idx → BitVec 32) (x3 : S128x128.Idx → EReal)
    (e : Fin 850000) (j : Fin 128) (h : (val_main_v6 (F := Ideal) x1 (ix1 e)).toNat < 50000) :
    (val_main_v39 (F := Ideal) x0 x1 x3 : S850000x128.Idx → EReal) (ix2 e j)
      = ∑ k : Fin 128, x0 (ix2 ⟨(val_main_v6 (F := Ideal) x1 (ix1 e)).toNat, h⟩ k) * x3 (ix2 k j) := by
  unfold val_main_v39
  rw [gather_rows_apply _ _ e j ⟨(val_main_v6 (F := Ideal) x1 (ix1 e)).toNat, h⟩
    (by show (val_main_v6 (F := Ideal) x1 (ix1 e)).toNat = min _ _
        rw [start_word x1 e h, toInt_eq_toNat_of_lt (by omega), Int.toNat_natCast]; omega),
    val_main_v0_apply]
  refine Finset.sum_congr rfl fun k _ => ?_
  have hl : lidx_main_v0 (ix2 (⟨(val_main_v6 (F := Ideal) x1 (ix1 e)).toNat, h⟩ : Fin 50000) j) k
      = ix2 (⟨(val_main_v6 (F := Ideal) x1 (ix1 e)).toNat, h⟩ : Fin 50000) k :=
    funext fun a => match a with | ⟨0, _⟩ => rfl | ⟨1, _⟩ => rfl
  have hr : ridx_main_v0 (ix2 (⟨(val_main_v6 (F := Ideal) x1 (ix1 e)).toNat, h⟩ : Fin 50000) j) k = ix2 k j :=
    funext fun a => match a with | ⟨0, _⟩ => rfl | ⟨1, _⟩ => rfl
  rw [hl, hr]

/-- The broadcast norm at (e, j) is the norm of edge e. -/
theorem norm_at (x1 : S2x800000.Idx → BitVec 32) (x2 : S800000.Idx → EReal) (e : Fin 850000) (j : Fin 128) :
    (val_main_v41 (F := Ideal) x1 x2 : S850000x128.Idx → EReal) (ix2 e j)
      = (val_main_v32 (F := Ideal) x1 x2 : S850000.Idx → EReal) (ix1 e) := by
  rw [val_main_v41_apply, val_main_v40_apply]
  exact congrArg _ (funext fun a => match a with | ⟨0, _⟩ => rfl)

/-- The target column at (e, 0) is the target word of edge e. -/
theorem tgt_at (x1 : S2x800000.Idx → BitVec 32) (e : Fin 850000) :
    val_main_v44 (F := Ideal) x1 (ix2 e (0 : Fin 1)) = val_main_v7 (F := Ideal) x1 (ix1 e) := by
  rw [val_main_v44_apply]
  exact congrArg _ (funext fun a => match a with | ⟨0, _⟩ => rfl)

/-- The broadcast bias at (n, j) is the bias at j. -/
theorem bias_at (x4 : S128.Idx → EReal) (n : Fin 50000) (j : Fin 128) :
    (val_main_v47 (F := Ideal) x4 : S50000x128.Idx → EReal) (ix2 n j) = x4 (ix1 j) := by
  rw [val_main_v47_apply, val_main_v46_apply]
  exact congrArg _ (funext fun a => match a with | ⟨0, _⟩ => rfl)

/-- The update of edge e at column j: the gathered feature times the edge's norm. -/
theorem msg_at (x0 : S50000x128.Idx → EReal) (x1 : S2x800000.Idx → BitVec 32) (x2 : S800000.Idx → EReal)
    (x3 : S128x128.Idx → EReal) (e : Fin 850000) (j : Fin 128)
    (h : (val_main_v6 (F := Ideal) x1 (ix1 e)).toNat < 50000) :
    (val_main_v42 (F := Ideal) x0 x1 x2 x3 : S850000x128.Idx → EReal) (ix2 e j)
      = (∑ k : Fin 128, x0 (ix2 ⟨(val_main_v6 (F := Ideal) x1 (ix1 e)).toNat, h⟩ k) * x3 (ix2 k j))
          * (val_main_v32 (F := Ideal) x1 x2 : S850000.Idx → EReal) (ix1 e) := by
  rw [val_main_v42_apply, Ideal.mulf_def, feat_at x0 x1 x3 e j h, norm_at]

/-- The array the segment sum accumulates into is zero everywhere. -/
theorem zero_at (i : S50000x128.Idx) : (val_main_v43 (F := Ideal) : S50000x128.Idx → EReal) i = 0 := by
  rw [val_main_v43_apply, val_main_cst_8_apply, Ideal.ofBits_def, Ideal.ofBits_zero_f32]

/-- The aggregation stage is the exact segment sum of the updates by target word into the zero array. -/
theorem agg_eq (x0 : S50000x128.Idx → EReal) (x1 : S2x800000.Idx → BitVec 32) (x2 : S800000.Idx → EReal)
    (x3 : S128x128.Idx → EReal) :
    val_main_v45 (F := Ideal) x0 x1 x2 x3
      = Ideal.hostScatterAdd sD (val_main_v43 (F := Ideal)) (val_main_v44 (F := Ideal) x1)
          (val_main_v42 (F := Ideal) x0 x1 x2 x3) := rfl

/-- The aggregated messages at node n, column j. -/
theorem agg_at (x0 : S50000x128.Idx → EReal) (x1 : S2x800000.Idx → BitVec 32) (x2 : S800000.Idx → EReal)
    (x3 : S128x128.Idx → EReal)
    (hsrc : ∀ e : Fin 850000, (val_main_v6 (F := Ideal) x1 (ix1 e)).toNat < 50000) (n : Fin 50000) (j : Fin 128) :
    (val_main_v45 (F := Ideal) x0 x1 x2 x3 : S50000x128.Idx → EReal) (ix2 n j)
      = ∑ e : Fin 850000, oh (val_main_v7 (F := Ideal) x1 (ix1 e)) n.val
          * ((∑ k : Fin 128, x0 (ix2 ⟨(val_main_v6 (F := Ideal) x1 (ix1 e)).toNat, hsrc e⟩ k) * x3 (ix2 k j))
              * (val_main_v32 (F := Ideal) x1 x2 : S850000.Idx → EReal) (ix1 e)) := by
  rw [agg_eq, scatter_rows_apply, zero_at, zero_add]
  refine Finset.sum_congr rfl fun e _ => ?_
  rw [tgt_at, msg_at x0 x1 x2 x3 e j (hsrc e)]
end Readings

/-- THE REFERENCE'S RESULT AT (n, j): the rectifier of the aggregated messages plus the bias. -/
theorem ref_value (x0 : S50000x128.Idx → EReal) (x1 : S2x800000.Idx → BitVec 32) (x2 : S800000.Idx → EReal)
    (x3 : S128x128.Idx → EReal) (x4 : S128.Idx → EReal)
    (hsrc : ∀ e : Fin 850000, (val_main_v6 (F := Ideal) x1 (ix1 e)).toNat < 50000) (n : Fin 50000) (j : Fin 128) :
    (val_main_v49 (F := Ideal) x0 x1 x2 x3 x4 : S50000x128.Idx → EReal) (ix2 n j)
      = max ((∑ e : Fin 850000, oh (val_main_v7 (F := Ideal) x1 (ix1 e)) n.val
              * ((∑ k : Fin 128, x0 (ix2 ⟨(val_main_v6 (F := Ideal) x1 (ix1 e)).toNat, hsrc e⟩ k) * x3 (ix2 k j))
                  * (val_main_v32 (F := Ideal) x1 x2 : S850000.Idx → EReal) (ix1 e)))
          + x4 (ix1 j)) 0 := by
  rw [val_main_v49_apply, val_main_v48_apply, agg_at x0 x1 x2 x3 hsrc n j, bias_at, val_main_call1_v0_apply,
    val_main_call1_cst_apply, Ideal.maximumf_def, Ideal.addf_def, Ideal.ofBits_def, Ideal.ofBits_zero_f32]

end Cert.ReferenceIdeal.RefValue

end
-- ==== Proof.Val.Pre.lean ====
import proofs.«125517_j46789373723027_1_alg».proof.Proof.Gen.ReferenceIdeal.Read
import proofs.«125517_j46789373723027_1_alg».proof.Pre_finite_inputs
import proofs.«125517_j46789373723027_1_alg».proof.Proof.Gen.Pre_finite_inputs
import Idealize.ShloMosaic.Lib.ValueIdx
import Idealize.ShloMosaic.Lib.ReduceAll
import Idealize.ShloMosaic.Lib.StableHlo.Predicate

noncomputable section

open scoped BigOperators

namespace Cert.ReferenceIdeal.RefValue

open Idealize.ShloMosaic Idealize.ShloMosaic.TcCoe Idealize.SL.Sem Idealize.ShloMosaic.ValueIdx

open Cert.ReferenceIdeal Cert.ReferenceIdeal.Read

/-! # The index range read out of the precondition

The precondition's last conjunct says that every word of row 0 of the edge index array is, read signed, at least 0 and
below 50000. The all-sources vector is that row followed by the node numbers 0 … 49999, so each of its words is a node
number below 50000. -/

/-- A 32-bit word that tests, read signed, at least 0 and below 50000 is a number below 50000: a nonnegative word reads
the same signed and unsigned. -/
theorem srcWord_lt_of_signed_range (a : BitVec 32) (h0 : IntOp.cmpi .sge a 0#32 = 1#1)
    (h1 : IntOp.cmpi .slt a 50000#32 = 1#1) : a.toNat < 50000 := by
  rw [IntOp.cmpi_sge] at h0
  rw [IntOp.cmpi_slt] at h1
  have z : (0#32 : BitVec 32).toInt = 0 := by decide
  have c : (50000#32 : BitVec 32).toInt = 50000 := by decide
  rw [z] at h0; rw [c] at h1
  have hs : 2 * a.toNat < 2 ^ 32 := BitVec.toInt_pos_iff.1 h0
  have e : a.toInt = a.toNat := StableHlo.Predicate.toInt_eq_toNat_of_lt (by omega)
  omega

/-- Row 0 of the edge index array, reshaped to a vector as the reference does: every word is a node number. The
precondition is a conjunction of five "all" tests; the last one is the conjunction, over every edge, of the two signed
comparisons of this vector's word against the constants 0 and 50000. -/
theorem row0_src_in_range [hP : Cert.Pre_finite_inputs.Facts]
    (x0 : S50000x128.Idx → EReal) (x1 : S2x800000.Idx → BitVec 32) (x2 : S800000.Idx → EReal)
    (x3 : S128x128.Idx → EReal) (x4 : S128.Idx → EReal)
    (hpre : Cert.Pre_finite_inputs.fn (F := Ideal) x0 x1 x2 x3 x4 = fun _ => 1#1) (i : Fin 800000) :
    (val_main_v2 (F := Ideal) x1 (ix1 i)).toNat < 50000 := by
  -- a scalar's shape has one index
  haveI : Subsingleton Cert.Pre_finite_inputs.S_.Idx := ⟨fun a b => funext fun d => d.elim0⟩
  have h := congrFun hpre ValueIdx.ix0
  dsimp only [Cert.Pre_finite_inputs.fn, Cert.Pre_finite_inputs.fn_part1] at h
  -- the last conjunct, then its element at edge i, then the two comparisons
  have hlast := (IntOp.andi_eq_one.1 h).2
  have hi := Host.reduce_andi_all _ _ _ _ _ hlast (ix1 i)
  obtain ⟨hge, hlt⟩ := IntOp.andi_eq_one.1 hi
  exact srcWord_lt_of_signed_range _ hge hlt

theorem src_in_range [hP : Cert.Pre_finite_inputs.Facts]
    (x0 : S50000x128.Idx → EReal) (x1 : S2x800000.Idx → BitVec 32) (x2 : S800000.Idx → EReal)
    (x3 : S128x128.Idx → EReal) (x4 : S128.Idx → EReal)
    (hpre : Cert.Pre_finite_inputs.fn (F := Ideal) x0 x1 x2 x3 x4 = fun _ => 1#1) (e : Fin 850000) :
    (val_main_v6 (F := Ideal) x1 (ix1 e)).toNat < 50000 := by
  by_cases he : e.val < 800000
  · -- an edge: the word is row 0's word at e
    have hL : val_main_v6 (F := Ideal) x1 (ix1 e) = val_main_v2 (F := Ideal) x1 (ix1 ⟨e.val, he⟩) := by
      unfold val_main_v6
      exact concatenate_pair_apply_left (t := S850000) (s₁ := S800000) (s₂ := S50000) (0 : Fin S850000.rank)
        (val_main_v2 (F := Ideal) x1) (val_main_v5 (F := Ideal)) _ (ix1 e) rfl
        (ix1 (⟨e.val, he⟩ : Fin 800000)) (fun b => by match b with | ⟨0, _⟩ => rfl)
    rw [hL]
    exact row0_src_in_range x0 x1 x2 x3 x4 hpre ⟨e.val, he⟩
  · -- a self loop: the word is the node number e - 800000
    have he' : 800000 ≤ e.val := Nat.le_of_not_lt he
    have hlt : e.val - 800000 < 50000 := by have := e.isLt; omega
    have hR : val_main_v6 (F := Ideal) x1 (ix1 e) = val_main_v5 (F := Ideal) (ix1 ⟨e.val - 800000, hlt⟩) := by
      unfold val_main_v6
      exact concatenate_pair_apply_right (t := S850000) (s₁ := S800000) (s₂ := S50000) (0 : Fin S850000.rank)
        (val_main_v2 (F := Ideal) x1) (val_main_v5 (F := Ideal)) _ (ix1 e) rfl rfl
        (ix1 (⟨e.val - 800000, hlt⟩ : Fin 50000))
        (fun b hb => absurd (Fin.ext (by have hb1 : b.val < 1 := b.isLt; show b.val = 0; omega)) hb)
        (by show e.val - 800000 + 800000 = e.val; omega)
    rw [hR, val_main_v5_apply]
    show (BitVec.ofNat 32 (e.val - 800000)).toNat < 50000
    rw [BitVec.toNat_ofNat]
    omega

end Cert.ReferenceIdeal.RefValue

end
-- ==== Proof.Val.Bridge.lean ====
import proofs.«125517_j46789373723027_1_alg».proof.Proof.Val.OneHot
import Idealize.ShloMosaic.Lib.ValueIdx
import Mathlib.Algebra.BigOperators.Fin
import Mathlib.Algebra.BigOperators.Group.Finset.Defs
import Mathlib.Algebra.BigOperators.Group.Finset.Basic
import Mathlib.Data.Fin.Embedding
import Mathlib.Data.EReal.Basic

noncomputable section

open scoped BigOperators

namespace Gcn

open Idealize.ShloMosaic Idealize.ShloMosaic.ValueIdx

/-! # The two closed forms are one function

The kernel side sums over 850944 padded edges, selects each edge's feature row by a one-hot sum over 51200 padded node
rows, and multiplies by a padded norm; the reference side sums over the 850000 edges and reads the feature row at the
source directly. A padded edge has norm zero, so its term is zero; a one-hot sum over the rows picks the one row whose
number is the source word, and that row lies among the first 50000, where the padded node matrix is the node matrix. -/

/-- A sum over `Fin n` whose terms vanish from position `m` on is the sum of its first `m` terms. -/
theorem sum_fin_of_zero_above {M : Type*} [AddCommMonoid M] {m n : ℕ} (hmn : m ≤ n) (g : Fin n → M)
    (hz : ∀ e : Fin n, m ≤ e.val → g e = 0) :
    ∑ e : Fin n, g e = ∑ e : Fin m, g ⟨e.val, lt_of_lt_of_le e.isLt hmn⟩ := by
  have h1 : ∑ e : Fin m, g ⟨e.val, lt_of_lt_of_le e.isLt hmn⟩
      = ∑ e ∈ (Finset.univ : Finset (Fin m)).map (Fin.castLEEmb hmn), g e := by
    rw [Finset.sum_map]; rfl
  rw [h1]
  symm
  apply Finset.sum_subset (Finset.subset_univ _)
  intro e _ he
  apply hz
  by_contra hlt
  apply he
  rw [Finset.mem_map]
  exact ⟨⟨e.val, by omega⟩, Finset.mem_univ _, Fin.ext rfl⟩

/-- A one-hot weighted sum over the 51200 row numbers picks the row whose number is the stored word. -/
theorem sum_oh_pick (b : BitVec 32) (hb : b.toNat < 51200) (f : Fin 51200 → EReal) :
    ∑ k : Fin 51200, oh b k.val * f k = f ⟨b.toNat, hb⟩ := by
  rw [Finset.sum_eq_single (⟨b.toNat, hb⟩ : Fin 51200)]
  · have h1 : b = BitVec.ofNat 32 b.toNat :=
      BitVec.eq_of_toNat_eq (by rw [BitVec.toNat_ofNat, Nat.mod_eq_of_lt b.isLt])
    rw [oh_eq b b.toNat h1, one_mul]
  · intro k _ hk
    have h0 : b ≠ BitVec.ofNat 32 k.val := by
      intro h
      apply hk
      apply Fin.ext
      have h2 : b.toNat = k.val % 2 ^ 32 := by rw [h, BitVec.toNat_ofNat]
      have h3 : k.val % 2 ^ 32 = k.val := Nat.mod_eq_of_lt (lt_trans k.isLt (by norm_num))
      show k.val = b.toNat
      omega
    rw [oh_ne b k.val h0, zero_mul]
  · intro h; exact absurd (Finset.mem_univ _) h

theorem bridge
    (x0 : (⟨2, ![50000, 128]⟩ : Shape).Idx → EReal) (x3 : (⟨2, ![128, 128]⟩ : Shape).Idx → EReal) (x4 : (⟨1, ![128]⟩ : Shape).Idx → EReal)
    (src dst : (⟨1, ![850000]⟩ : Shape).Idx → BitVec 32) (nrm : (⟨1, ![850000]⟩ : Shape).Idx → EReal)
    (hsrc : ∀ e : Fin 850000, (src (ix1 e)).toNat < 50000)
    (xp : (⟨2, ![51200, 128]⟩ : Shape).Idx → EReal) (srcp dstp : (⟨1, ![850944]⟩ : Shape).Idx → BitVec 32)
    (nrmp : (⟨1, ![850944]⟩ : Shape).Idx → EReal) (b2 : (⟨2, ![1, 128]⟩ : Shape).Idx → EReal)
    (hx : ∀ (r : Fin 51200) (k : Fin 128), xp (ix2 r k) = if h : r.val < 50000 then x0 (ix2 ⟨r.val, h⟩ k) else 0)
    (hs : ∀ e : Fin 850944, srcp (ix1 e) = if h : e.val < 850000 then src (ix1 ⟨e.val, h⟩) else 0#32)
    (hd : ∀ e : Fin 850944, dstp (ix1 e) = if h : e.val < 850000 then dst (ix1 ⟨e.val, h⟩) else 0#32)
    (hn : ∀ e : Fin 850944, nrmp (ix1 e) = if h : e.val < 850000 then nrm (ix1 ⟨e.val, h⟩) else 0)
    (hb : ∀ j : Fin 128, b2 (ix2 0 j) = x4 (ix1 j))
    (n : Fin 50000) (j : Fin 128) :
    max ((∑ e : Fin 850944, oh (dstp (ix1 e)) n.val
            * ((∑ k : Fin 51200, oh (srcp (ix1 e)) k.val * (∑ q : Fin 128, xp (ix2 k q) * x3 (ix2 q j))) * nrmp (ix1 e)))
          + b2 (ix2 0 j)) 0
      = max ((∑ e : Fin 850000, oh (dst (ix1 e)) n.val
              * ((∑ q : Fin 128, x0 (ix2 ⟨(src (ix1 e)).toNat, hsrc e⟩ q) * x3 (ix2 q j)) * nrm (ix1 e)))
          + x4 (ix1 j)) 0 := by
  have hsum : (∑ e : Fin 850944, oh (dstp (ix1 e)) n.val
            * ((∑ k : Fin 51200, oh (srcp (ix1 e)) k.val * (∑ q : Fin 128, xp (ix2 k q) * x3 (ix2 q j))) * nrmp (ix1 e)))
      = ∑ e : Fin 850000, oh (dst (ix1 e)) n.val
              * ((∑ q : Fin 128, x0 (ix2 ⟨(src (ix1 e)).toNat, hsrc e⟩ q) * x3 (ix2 q j)) * nrm (ix1 e)) := by
    refine (sum_fin_of_zero_above (m := 850000) (by norm_num) _ ?_).trans (Finset.sum_congr rfl ?_)
    · -- a padded edge carries norm zero
      intro e he
      have hn0 : nrmp (ix1 e) = 0 := (hn e).trans (dif_neg (by omega))
      rw [hn0, mul_zero, mul_zero]
    · -- an edge proper: the padded words and norm are the given ones, and the one-hot sum reads the source's row
      intro e _
      have hlt : e.val < 850944 := lt_trans e.isLt (by norm_num)
      have hs' : srcp (ix1 (⟨e.val, hlt⟩ : Fin 850944)) = src (ix1 e) := (hs ⟨e.val, hlt⟩).trans (dif_pos e.isLt)
      have hd' : dstp (ix1 (⟨e.val, hlt⟩ : Fin 850944)) = dst (ix1 e) := (hd ⟨e.val, hlt⟩).trans (dif_pos e.isLt)
      have hn' : nrmp (ix1 (⟨e.val, hlt⟩ : Fin 850944)) = nrm (ix1 e) := (hn ⟨e.val, hlt⟩).trans (dif_pos e.isLt)
      have hrow : (src (ix1 e)).toNat < 51200 := lt_trans (hsrc e) (by norm_num)
      have hxrow : ∀ q : Fin 128, xp (ix2 (⟨(src (ix1 e)).toNat, hrow⟩ : Fin 51200) q)
          = x0 (ix2 ⟨(src (ix1 e)).toNat, hsrc e⟩ q) := fun q => (hx ⟨(src (ix1 e)).toNat, hrow⟩ q).trans (dif_pos (hsrc e))
      show oh (dstp (ix1 (⟨e.val, hlt⟩ : Fin 850944))) n.val
            * ((∑ k : Fin 51200, oh (srcp (ix1 (⟨e.val, hlt⟩ : Fin 850944))) k.val * (∑ q : Fin 128, xp (ix2 k q) * x3 (ix2 q j)))
                * nrmp (ix1 (⟨e.val, hlt⟩ : Fin 850944))) = _
      rw [hs', hd', hn', sum_oh_pick (src (ix1 e)) hrow (fun k => ∑ q : Fin 128, xp (ix2 k q) * x3 (ix2 q j))]
      simp only [hxrow]
  rw [hsum, hb]

end Gcn

end
-- ==== Proof.Val.Main.lean ====
import proofs.«125517_j46789373723027_1_alg».proof.Proof.Val.KHost
import proofs.«125517_j46789373723027_1_alg».proof.Proof.Val.Feat
import proofs.«125517_j46789373723027_1_alg».proof.Proof.Val.Msgs
import proofs.«125517_j46789373723027_1_alg».proof.Proof.Val.Out
import proofs.«125517_j46789373723027_1_alg».proof.Proof.Val.Ref
import proofs.«125517_j46789373723027_1_alg».proof.Proof.Val.Pre
import proofs.«125517_j46789373723027_1_alg».proof.Proof.Val.Bridge

noncomputable section

open scoped BigOperators

namespace Cert.KernelIdeal.Hand

open Idealize.ShloMosaic Idealize.ShloMosaic.TcCoe Idealize.SL.Sem Idealize.ShloMosaic.ValueIdx

open Cert.KernelIdeal.Gen Gcn

variable (m : (ℓ : Loc nD τ sig) → Buf (Elt Ideal) ℓ)

/-! # The kernel program's result is the reference's function of the arguments

Entry (n, j) of the result buffer is what the scatter launch leaves there: the one-hot sum over the padded edges of the
messages, plus the bias, cut off at zero; a message is the one-hot selection of a feature row times the norm; a feature row is
a padded node row times the weight matrix. The padded vectors are the reference's own stages followed by zeros, so the
whole is the reference's result at (n, j) once every source word is a node number, which the precondition says. -/

/-- A message, all the way down to the padded node matrix and the weight matrix. -/
theorem msg_entry (c : Dev nD) (xp : S51200x128.Idx → EReal) (w : S128x128.Idx → EReal)
    (srcp : S850944.Idx → BitVec 32) (nrmp : S850944.Idx → EReal) (msg : S850944x128.Idx → EReal)
    (hxp : xp = V4 m c main_v38) (hw : w = m ((c : Thread nD τ).loc main_arg3))
    (hs : srcp = V5 m c main_v33) (hn : nrmp = V5 m c main_v37) (hm : msg = V7 m c main_v40)
    (e : Fin 850944) (j : Fin 128) :
    msg (ix2 e j) = (∑ k : Fin 51200, oh (srcp (ix1 e)) k.val * (∑ q : Fin 128, xp (ix2 k q) * w (ix2 q j))) * nrmp (ix1 e) := by
  subst hm hs hn
  refine (congrFun (host_msgs m c) (ix2 e j)).trans ?_
  refine (msgs_value (V5 m) c e j).trans ?_
  refine congrArg (· * (V5 m c main_v37 : S850944.Idx → EReal) (ix1 e)) ?_
  refine Finset.sum_congr rfl fun k _ => ?_
  refine congrArg (oh ((V5 m c main_v33 : S850944.Idx → BitVec 32) (ix1 e)) k.val * ·) ?_
  exact feat_value (V4 m) c xp (V5 m c main_v39) w hxp (hw.trans (host_w m c).symm) (host_feat m c) k j

/-- The result entry as the kernel side's closed form over the padded arrays. -/
theorem result_entry (c : Dev nD) (xp : S51200x128.Idx → EReal) (w : S128x128.Idx → EReal)
    (srcp dstp : S850944.Idx → BitVec 32) (nrmp : S850944.Idx → EReal) (b2 : S1x128.Idx → EReal) (res : S50000x128.Idx → EReal)
    (hxp : xp = V4 m c main_v38) (hw : w = m ((c : Thread nD τ).loc main_arg3))
    (hs : srcp = V5 m c main_v33) (hn : nrmp = V5 m c main_v37) (hd : dstp = V7 m c main_v35) (hb : b2 = V7 m c main_v41)
    (hr : res = W8 m c (Proc.devRef .tc main_v42))
    (n : Fin 50000) (j : Fin 128) :
    res (ix2 n j)
      = max ((∑ e : Fin 850944, oh (dstp (ix1 e)) n.val
              * ((∑ k : Fin 51200, oh (srcp (ix1 e)) k.val * (∑ q : Fin 128, xp (ix2 k q) * w (ix2 q j))) * nrmp (ix1 e)))
            + b2 (ix2 0 j)) 0 := by
  have hsum : (∑ e : Fin 850944, oh ((V7 m c main_v35 : S850944.Idx → BitVec 32) (ix1 e)) n.val * (V7 m c main_v40 : S850944x128.Idx → EReal) (ix2 e j))
      = ∑ e : Fin 850944, oh (dstp (ix1 e)) n.val
          * ((∑ k : Fin 51200, oh (srcp (ix1 e)) k.val * (∑ q : Fin 128, xp (ix2 k q) * w (ix2 q j))) * nrmp (ix1 e)) := by
    subst hd
    exact Finset.sum_congr rfl fun e _ =>
      congrArg (oh ((V7 m c main_v35 : S850944.Idx → BitVec 32) (ix1 e)) n.val * ·)
        (msg_entry m c xp w srcp nrmp (V7 m c main_v40) hxp hw hs hn rfl e j)
  subst hr
  refine (congrFun (host_result m c) (ix2 n j)).trans ?_
  refine (out_value (V7 m) c n j).trans ?_
  rw [hsum]
  subst hb
  rfl

theorem main_value [hP : Cert.Pre_finite_inputs.Facts] (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (W8 m c (Proc.devRef .tc main_v42) : S50000x128.Idx → EReal)
      = Cert.ReferenceIdeal.Read.val_main_v49 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨n, j, rfl⟩ : ∃ (n : Fin 50000) (j : Fin 128), i = ix2 n j := ⟨i 0, i 1, eq_ix2 i⟩
  have hsrc : ∀ e : Fin 850000, (Cert.ReferenceIdeal.Read.val_main_v6 (F := Ideal) (m ((c : Thread nD τ).loc main_arg1)) (ix1 e)).toNat < 50000 :=
    fun e => Cert.ReferenceIdeal.RefValue.src_in_range (m ((c : Thread nD τ).loc main_arg0)) (m ((c : Thread nD τ).loc main_arg1)) (m ((c : Thread nD τ).loc main_arg2)) (m ((c : Thread nD τ).loc main_arg3)) (m ((c : Thread nD τ).loc main_arg4)) hpre e
  refine (result_entry m c (V4 m c main_v38) (m ((c : Thread nD τ).loc main_arg3)) (V5 m c main_v33) (V7 m c main_v35) (V5 m c main_v37) (V7 m c main_v41)
    (W8 m c (Proc.devRef .tc main_v42)) rfl rfl rfl rfl rfl rfl rfl n j).trans ?_
  refine Eq.trans ?_ (Cert.ReferenceIdeal.RefValue.ref_value (m ((c : Thread nD τ).loc main_arg0)) (m ((c : Thread nD τ).loc main_arg1)) (m ((c : Thread nD τ).loc main_arg2)) (m ((c : Thread nD τ).loc main_arg3)) (m ((c : Thread nD τ).loc main_arg4)) hsrc n j).symm
  exact bridge (m ((c : Thread nD τ).loc main_arg0)) (m ((c : Thread nD τ).loc main_arg3)) (m ((c : Thread nD τ).loc main_arg4))
    (Cert.ReferenceIdeal.Read.val_main_v6 (F := Ideal) (m ((c : Thread nD τ).loc main_arg1))) (Cert.ReferenceIdeal.Read.val_main_v7 (F := Ideal) (m ((c : Thread nD τ).loc main_arg1))) (Cert.ReferenceIdeal.Read.val_main_v32 (F := Ideal) (m ((c : Thread nD τ).loc main_arg1)) (m ((c : Thread nD τ).loc main_arg2))) hsrc
    (V4 m c main_v38) (V5 m c main_v33) (V7 m c main_v35) (V5 m c main_v37) (V7 m c main_v41)
    (host_x m c) (host_src m c) (host_dst m c) (host_norm m c) (host_bias m c) n j

end Cert.KernelIdeal.Hand

end
-- ==== Proof.lean ====
/-
  A graph convolution: out = relu (A_hat (x W) + b), where A_hat scales edge (s, t), self loops included, by
  deg(s)^(-1/2) w deg(t)^(-1/2). The kernel program computes x W on padded rows, gathers a feature row per edge by
  a product with one-hot rows and scales it by the edge's norm, and scatters the messages to their target rows by a
  product with one-hot columns, adding the bias and cutting off at zero; the reference gathers and segment-sums
  directly. Over the extended reals the two agree entry by entry as soon as every source word is a node number
  (the precondition's last conjunct): a one-hot sum picks one term, a padded edge has norm zero.

  The frames of the two kernel programs: the three launches run one after the other among the host stretches, each
  launch's body run once per grid point, the gather and scatter launches carrying their accumulator from point to point.
  The reference's frame is its run with the result dropped.
-/
import proofs.«125517_j46789373723027_1_alg».proof.Defs
import proofs.«125517_j46789373723027_1_alg».proof.Proof.Gen.Kernel
import proofs.«125517_j46789373723027_1_alg».proof.Proof.Gen.KernelIdeal
import proofs.«125517_j46789373723027_1_alg».proof.Proof.Gen.ReferenceIdeal
import proofs.«125517_j46789373723027_1_alg».proof.Proof.Gen.Pre_finite_inputs
import proofs.«125517_j46789373723027_1_alg».proof.Proof.Gen.ReferenceIdeal.Run
import proofs.«125517_j46789373723027_1_alg».proof.Proof.Gen.ReferenceIdeal.Read
import proofs.«125517_j46789373723027_1_alg».proof.Proof.K.Run
import proofs.«125517_j46789373723027_1_alg».proof.Proof.KI.Run
import proofs.«125517_j46789373723027_1_alg».proof.Proof.Val.Main
import Idealize.ShloMosaic.Adequacy
import Idealize.ShloMosaic.Init

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts] [hPre : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs run; the kernel program's result buffer ends at the reference's function of the arguments,
    and so does the reference's. -/
theorem algebraic : Cert.algebraic_KernelIdeal_ReferenceIdeal := by
  intro m ρ m' ρ' hpre hagree
  refine ⟨fun c => Cert.KernelIdeal.Hand.W8 m c (Proc.devRef .tc Cert.KernelIdeal.main_v42), ?_, ?_⟩
  · refine (θ_run Cert.KernelIdeal.defs _ _).mono (fun _ h c => ?_) (Cert.KernelIdeal.Hand.run_all m ρ)
    exact ⟨h c _ (Cert.KernelIdeal.Hand.mem_uc Cert.KernelIdeal.main_v42 (by decide)),
      (h c _ (Cert.KernelIdeal.Hand.mem_uc Cert.KernelIdeal.main_arg0 (by decide))).trans (Cert.KernelIdeal.Hand.W8_main_arg0 m c),
      (h c _ (Cert.KernelIdeal.Hand.mem_uc Cert.KernelIdeal.main_arg1 (by decide))).trans (Cert.KernelIdeal.Hand.W8_main_arg1 m c),
      (h c _ (Cert.KernelIdeal.Hand.mem_uc Cert.KernelIdeal.main_arg2 (by decide))).trans (Cert.KernelIdeal.Hand.W8_main_arg2 m c),
      (h c _ (Cert.KernelIdeal.Hand.mem_uc Cert.KernelIdeal.main_arg3 (by decide))).trans (Cert.KernelIdeal.Hand.W8_main_arg3 m c),
      (h c _ (Cert.KernelIdeal.Hand.mem_uc Cert.KernelIdeal.main_arg4 (by decide))).trans (Cert.KernelIdeal.Hand.W8_main_arg4 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, (hagree c).1, (hagree c).2.1, (hagree c).2.2.1, (hagree c).2.2.2.1, (hagree c).2.2.2.2]
    exact (Cert.KernelIdeal.Hand.main_value m c (hpre c)).symm

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
